-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v210)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v210) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v251) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x65536 : Shape := ⟨2, ![2048, 65536]⟩
abbrev S2048 : Shape := ⟨1, ![2048]⟩
abbrev S_ : Shape := ⟨0, ![]⟩

class Facts : Prop where
  bcast_S_S2048x65536 : S_.BroadcastsInDim S2048x65536 (![] : Fin 0 → Fin S2048x65536.rank)
  reducesTo_S2048x65536_S_d0_1 : S2048x65536.ReducesTo [0, 1] S_
  h_S_ : 0 < S_.numel

variable [Facts]

def fn {F : FTy → Type} [FloatOps F] (main_arg0 : FVec F S2048x65536 .f32) (main_arg1 : IVec S2048 32) : IVec S_ 1 :=
  let main_v0 : FVec F S2048x65536 .f32 := Host.absf main_arg0
  let main_cst : FVec F S_ .f32 := constant S_ .f32 0x7F800000#32
  let main_v1 : FVec F S2048x65536 .f32 := broadcastInDim S2048x65536 ![] bcast_S_S2048x65536 main_cst
  let main_v2 : IVec S2048x65536 1 := cmpf .olt main_v0 main_v1
  let main_c : IVec S_ 1 := constantI S_ 1 1#1
  let main_v3 : IVec S_ 1 := (fun x v => Host.reduce IntOp.andi x v reducesTo_S2048x65536_S_d0_1 h_S_) main_v2 main_c
  main_v3
-- ==== Kernel.lean ====
abbrev S2048x65536 : Shape := ⟨2, ![2048, 65536]⟩
abbrev S2048 : Shape := ⟨1, ![2048]⟩
abbrev S16 : Shape := ⟨1, ![16]⟩
abbrev S_ : Shape := ⟨0, ![]⟩
abbrev S2048x1 : Shape := ⟨2, ![2048, 1]⟩
abbrev S2048x16 : Shape := ⟨2, ![2048, 16]⟩
abbrev S1x16 : Shape := ⟨2, ![1, 16]⟩
abbrev S2048x256 : Shape := ⟨2, ![2048, 256]⟩
abbrev S2048x2304 : Shape := ⟨2, ![2048, 2304]⟩
abbrev S256x2304 : Shape := ⟨2, ![256, 2304]⟩
abbrev S256x16 : Shape := ⟨2, ![256, 16]⟩
abbrev S256x1 : Shape := ⟨2, ![256, 1]⟩
abbrev S256x256 : Shape := ⟨2, ![256, 256]⟩
abbrev S256x1x256 : Shape := ⟨3, ![256, 1, 256]⟩
abbrev S256x16x256 : Shape := ⟨3, ![256, 16, 256]⟩
abbrev S256x16x1 : Shape := ⟨3, ![256, 16, 1]⟩
abbrev S256 : Shape := ⟨1, ![256]⟩

abbrev nBuf : Space → Nat
  | .hbm => 329
  | .vmem => 8
  | .smem => 0
  | _ => 0

abbrev hbmTy0_0 (i : Nat) : BufTy := match i % 128 with
  | 0 => ⟨S2048x65536, .f32⟩
  | 1 => ⟨S2048, .i32⟩
  | 2 => ⟨S16, .i32⟩
  | 3 => ⟨S_, .i32⟩
  | 4 => ⟨S2048, .i32⟩
  | 5 => ⟨S_, .i32⟩
  | 6 => ⟨S2048, .i32⟩
  | 7 => ⟨S2048, .i32⟩
  | 8 => ⟨S_, .i32⟩
  | 9 => ⟨S2048, .i32⟩
  | 10 => ⟨S2048, .i1⟩
  | 11 => ⟨S_, .f32⟩
  | 12 => ⟨S_, .f32⟩
  | 13 => ⟨S2048, .f32⟩
  | 14 => ⟨S2048, .f32⟩
  | 15 => ⟨S2048, .f32⟩
  | 16 => ⟨S2048, .f32⟩
  | 17 => ⟨S_, .i32⟩
  | 18 => ⟨S2048, .i32⟩
  | 19 => ⟨S2048, .i32⟩
  | 20 => ⟨S2048, .i32⟩
  | 21 => ⟨S2048, .i32⟩
  | 22 => ⟨S_, .i32⟩
  | 23 => ⟨S2048, .i32⟩
  | 24 => ⟨S2048, .i32⟩
  | 25 => ⟨S_, .i32⟩
  | 26 => ⟨S2048, .i32⟩
  | 27 => ⟨S2048, .i1⟩
  | 28 => ⟨S_, .f32⟩
  | 29 => ⟨S_, .f32⟩
  | 30 => ⟨S2048, .f32⟩
  | 31 => ⟨S2048, .f32⟩
  | 32 => ⟨S2048, .f32⟩
  | 33 => ⟨S2048, .f32⟩
  | 34 => ⟨S_, .i32⟩
  | 35 => ⟨S2048, .i32⟩
  | 36 => ⟨S2048, .i32⟩
  | 37 => ⟨S2048, .i32⟩
  | 38 => ⟨S2048, .i32⟩
  | 39 => ⟨S_, .i32⟩
  | 40 => ⟨S2048, .i32⟩
  | 41 => ⟨S2048, .i32⟩
  | 42 => ⟨S_, .i32⟩
  | 43 => ⟨S2048, .i32⟩
  | 44 => ⟨S2048, .i1⟩
  | 45 => ⟨S_, .f32⟩
  | 46 => ⟨S_, .f32⟩
  | 47 => ⟨S2048, .f32⟩
  | 48 => ⟨S2048, .f32⟩
  | 49 => ⟨S2048, .f32⟩
  | 50 => ⟨S2048, .f32⟩
  | 51 => ⟨S_, .i32⟩
  | 52 => ⟨S2048, .i32⟩
  | 53 => ⟨S2048, .i32⟩
  | 54 => ⟨S2048, .i32⟩
  | 55 => ⟨S2048, .i32⟩
  | 56 => ⟨S_, .i32⟩
  | 57 => ⟨S2048, .i32⟩
  | 58 => ⟨S2048, .i32⟩
  | 59 => ⟨S_, .i32⟩
  | 60 => ⟨S2048, .i32⟩
  | 61 => ⟨S2048, .i1⟩
  | 62 => ⟨S_, .f32⟩
  | 63 => ⟨S_, .f32⟩
  | 64 => ⟨S2048, .f32⟩
  | 65 => ⟨S2048, .f32⟩
  | 66 => ⟨S2048, .f32⟩
  | 67 => ⟨S2048, .f32⟩
  | 68 => ⟨S_, .i32⟩
  | 69 => ⟨S2048, .i32⟩
  | 70 => ⟨S2048, .i32⟩
  | 71 => ⟨S2048, .i32⟩
  | 72 => ⟨S2048, .i32⟩
  | 73 => ⟨S_, .i32⟩
  | 74 => ⟨S2048, .i32⟩
  | 75 => ⟨S2048, .i32⟩
  | 76 => ⟨S_, .i32⟩
  | 77 => ⟨S2048, .i32⟩
  | 78 => ⟨S2048, .i1⟩
  | 79 => ⟨S_, .f32⟩
  | 80 => ⟨S_, .f32⟩
  | 81 => ⟨S2048, .f32⟩
  | 82 => ⟨S2048, .f32⟩
  | 83 => ⟨S2048, .f32⟩
  | 84 => ⟨S2048, .f32⟩
  | 85 => ⟨S_, .i32⟩
  | 86 => ⟨S2048, .i32⟩
  | 87 => ⟨S2048, .i32⟩
  | 88 => ⟨S2048, .i32⟩
  | 89 => ⟨S2048, .i32⟩
  | 90 => ⟨S_, .i32⟩
  | 91 => ⟨S2048, .i32⟩
  | 92 => ⟨S2048, .i32⟩
  | 93 => ⟨S_, .i32⟩
  | 94 => ⟨S2048, .i32⟩
  | 95 => ⟨S2048, .i1⟩
  | 96 => ⟨S_, .f32⟩
  | 97 => ⟨S_, .f32⟩
  | 98 => ⟨S2048, .f32⟩
  | 99 => ⟨S2048, .f32⟩
  | 100 => ⟨S2048, .f32⟩
  | 101 => ⟨S2048, .f32⟩
  | 102 => ⟨S_, .i32⟩
  | 103 => ⟨S2048, .i32⟩
  | 104 => ⟨S2048, .i32⟩
  | 105 => ⟨S2048, .i32⟩
  | 106 => ⟨S2048, .i32⟩
  | 107 => ⟨S_, .i32⟩
  | 108 => ⟨S2048, .i32⟩
  | 109 => ⟨S2048, .i32⟩
  | 110 => ⟨S_, .i32⟩
  | 111 => ⟨S2048, .i32⟩
  | 112 => ⟨S2048, .i1⟩
  | 113 => ⟨S_, .f32⟩
  | 114 => ⟨S_, .f32⟩
  | 115 => ⟨S2048, .f32⟩
  | 116 => ⟨S2048, .f32⟩
  | 117 => ⟨S2048, .f32⟩
  | 118 => ⟨S2048, .f32⟩
  | 119 => ⟨S_, .i32⟩
  | 120 => ⟨S2048, .i32⟩
  | 121 => ⟨S2048, .i32⟩
  | 122 => ⟨S2048, .i32⟩
  | 123 => ⟨S2048, .i32⟩
  | 124 => ⟨S_, .i32⟩
  | 125 => ⟨S2048, .i32⟩
  | 126 => ⟨S2048, .i32⟩
  | 127 => ⟨S_, .i32⟩
  | _ => ⟨S2048x65536, .f32⟩

abbrev hbmTy0_1 (i : Nat) : BufTy := match i % 128 with
  | 0 => ⟨S2048, .i32⟩
  | 1 => ⟨S2048, .i1⟩
  | 2 => ⟨S_, .f32⟩
  | 3 => ⟨S_, .f32⟩
  | 4 => ⟨S2048, .f32⟩
  | 5 => ⟨S2048, .f32⟩
  | 6 => ⟨S2048, .f32⟩
  | 7 => ⟨S2048, .f32⟩
  | 8 => ⟨S_, .i32⟩
  | 9 => ⟨S2048, .i32⟩
  | 10 => ⟨S2048, .i32⟩
  | 11 => ⟨S2048, .i32⟩
  | 12 => ⟨S2048, .i32⟩
  | 13 => ⟨S_, .i32⟩
  | 14 => ⟨S2048, .i32⟩
  | 15 => ⟨S2048, .i32⟩
  | 16 => ⟨S_, .i32⟩
  | 17 => ⟨S2048, .i32⟩
  | 18 => ⟨S2048, .i1⟩
  | 19 => ⟨S_, .f32⟩
  | 20 => ⟨S_, .f32⟩
  | 21 => ⟨S2048, .f32⟩
  | 22 => ⟨S2048, .f32⟩
  | 23 => ⟨S2048, .f32⟩
  | 24 => ⟨S2048, .f32⟩
  | 25 => ⟨S_, .i32⟩
  | 26 => ⟨S2048, .i32⟩
  | 27 => ⟨S2048, .i32⟩
  | 28 => ⟨S2048, .i32⟩
  | 29 => ⟨S2048, .i32⟩
  | 30 => ⟨S_, .i32⟩
  | 31 => ⟨S2048, .i32⟩
  | 32 => ⟨S2048, .i32⟩
  | 33 => ⟨S_, .i32⟩
  | 34 => ⟨S2048, .i32⟩
  | 35 => ⟨S2048, .i1⟩
  | 36 => ⟨S_, .f32⟩
  | 37 => ⟨S_, .f32⟩
  | 38 => ⟨S2048, .f32⟩
  | 39 => ⟨S2048, .f32⟩
  | 40 => ⟨S2048, .f32⟩
  | 41 => ⟨S2048, .f32⟩
  | 42 => ⟨S_, .i32⟩
  | 43 => ⟨S2048, .i32⟩
  | 44 => ⟨S2048, .i32⟩
  | 45 => ⟨S2048, .i32⟩
  | 46 => ⟨S2048, .i32⟩
  | 47 => ⟨S_, .i32⟩
  | 48 => ⟨S2048, .i32⟩
  | 49 => ⟨S2048, .i32⟩
  | 50 => ⟨S_, .i32⟩
  | 51 => ⟨S2048, .i32⟩
  | 52 => ⟨S2048, .i1⟩
  | 53 => ⟨S_, .f32⟩
  | 54 => ⟨S_, .f32⟩
  | 55 => ⟨S2048, .f32⟩
  | 56 => ⟨S2048, .f32⟩
  | 57 => ⟨S2048, .f32⟩
  | 58 => ⟨S2048, .f32⟩
  | 59 => ⟨S_, .i32⟩
  | 60 => ⟨S2048, .i32⟩
  | 61 => ⟨S2048, .i32⟩
  | 62 => ⟨S2048, .i32⟩
  | 63 => ⟨S2048, .i32⟩
  | 64 => ⟨S_, .i32⟩
  | 65 => ⟨S2048, .i32⟩
  | 66 => ⟨S2048, .i32⟩
  | 67 => ⟨S_, .i32⟩
  | 68 => ⟨S2048, .i32⟩
  | 69 => ⟨S2048, .i1⟩
  | 70 => ⟨S_, .f32⟩
  | 71 => ⟨S_, .f32⟩
  | 72 => ⟨S2048, .f32⟩
  | 73 => ⟨S2048, .f32⟩
  | 74 => ⟨S2048, .f32⟩
  | 75 => ⟨S2048, .f32⟩
  | 76 => ⟨S_, .i32⟩
  | 77 => ⟨S2048, .i32⟩
  | 78 => ⟨S2048, .i32⟩
  | 79 => ⟨S2048, .i32⟩
  | 80 => ⟨S2048, .i32⟩
  | 81 => ⟨S_, .i32⟩
  | 82 => ⟨S2048, .i32⟩
  | 83 => ⟨S2048, .i32⟩
  | 84 => ⟨S_, .i32⟩
  | 85 => ⟨S2048, .i32⟩
  | 86 => ⟨S2048, .i1⟩
  | 87 => ⟨S_, .f32⟩
  | 88 => ⟨S_, .f32⟩
  | 89 => ⟨S2048, .f32⟩
  | 90 => ⟨S2048, .f32⟩
  | 91 => ⟨S2048, .f32⟩
  | 92 => ⟨S2048, .f32⟩
  | 93 => ⟨S_, .i32⟩
  | 94 => ⟨S2048, .i32⟩
  | 95 => ⟨S2048, .i32⟩
  | 96 => ⟨S2048, .i32⟩
  | 97 => ⟨S2048, .i32⟩
  | 98 => ⟨S_, .i32⟩
  | 99 => ⟨S2048, .i32⟩
  | 100 => ⟨S2048, .i32⟩
  | 101 => ⟨S_, .i32⟩
  | 102 => ⟨S2048, .i32⟩
  | 103 => ⟨S2048, .i1⟩
  | 104 => ⟨S_, .f32⟩
  | 105 => ⟨S_, .f32⟩
  | 106 => ⟨S2048, .f32⟩
  | 107 => ⟨S2048, .f32⟩
  | 108 => ⟨S2048, .f32⟩
  | 109 => ⟨S2048, .f32⟩
  | 110 => ⟨S_, .i32⟩
  | 111 => ⟨S2048, .i32⟩
  | 112 => ⟨S2048, .i32⟩
  | 113 => ⟨S2048, .i32⟩
  | 114 => ⟨S2048, .i32⟩
  | 115 => ⟨S_, .i32⟩
  | 116 => ⟨S2048, .i32⟩
  | 117 => ⟨S2048, .i32⟩
  | 118 => ⟨S_, .i32⟩
  | 119 => ⟨S2048, .i32⟩
  | 120 => ⟨S2048, .i1⟩
  | 121 => ⟨S_, .f32⟩
  | 122 => ⟨S_, .f32⟩
  | 123 => ⟨S2048, .f32⟩
  | 124 => ⟨S2048, .f32⟩
  | 125 => ⟨S2048, .f32⟩
  | 126 => ⟨S2048, .f32⟩
  | 127 => ⟨S_, .i32⟩
  | _ => ⟨S2048x65536, .f32⟩

abbrev hbmTy0_2 (i : Nat) : BufTy := match i % 128 with
  | 0 => ⟨S2048, .i32⟩
  | 1 => ⟨S2048, .i32⟩
  | 2 => ⟨S2048, .i32⟩
  | 3 => ⟨S2048, .i32⟩
  | 4 => ⟨S_, .i32⟩
  | 5 => ⟨S2048, .i32⟩
  | 6 => ⟨S2048, .i32⟩
  | 7 => ⟨S_, .i32⟩
  | 8 => ⟨S2048, .i32⟩
  | 9 => ⟨S2048, .i1⟩
  | 10 => ⟨S_, .f32⟩
  | 11 => ⟨S_, .f32⟩
  | 12 => ⟨S2048, .f32⟩
  | 13 => ⟨S2048, .f32⟩
  | 14 => ⟨S2048, .f32⟩
  | 15 => ⟨S2048, .f32⟩
  | 16 => ⟨S_, .i32⟩
  | 17 => ⟨S2048, .i32⟩
  | 18 => ⟨S2048, .i32⟩
  | 19 => ⟨S2048, .i32⟩
  | 20 => ⟨S2048, .i32⟩
  | 21 => ⟨S2048x1, .i32⟩
  | 22 => ⟨S2048x1, .i32⟩
  | 23 => ⟨S2048x1, .i32⟩
  | 24 => ⟨S2048x1, .i32⟩
  | 25 => ⟨S2048x1, .i32⟩
  | 26 => ⟨S2048x1, .i32⟩
  | 27 => ⟨S2048x1, .i32⟩
  | 28 => ⟨S2048x1, .i32⟩
  | 29 => ⟨S2048x1, .i32⟩
  | 30 => ⟨S2048x1, .i32⟩
  | 31 => ⟨S2048x1, .i32⟩
  | 32 => ⟨S2048x1, .i32⟩
  | 33 => ⟨S2048x1, .i32⟩
  | 34 => ⟨S2048x1, .i32⟩
  | 35 => ⟨S2048x1, .i32⟩
  | 36 => ⟨S2048x1, .i32⟩
  | 37 => ⟨S2048x16, .i32⟩
  | 38 => ⟨S2048x1, .f32⟩
  | 39 => ⟨S2048x1, .f32⟩
  | 40 => ⟨S2048x1, .f32⟩
  | 41 => ⟨S2048x1, .f32⟩
  | 42 => ⟨S2048x1, .f32⟩
  | 43 => ⟨S2048x1, .f32⟩
  | 44 => ⟨S2048x1, .f32⟩
  | 45 => ⟨S2048x1, .f32⟩
  | 46 => ⟨S2048x1, .f32⟩
  | 47 => ⟨S2048x1, .f32⟩
  | 48 => ⟨S2048x1, .f32⟩
  | 49 => ⟨S2048x1, .f32⟩
  | 50 => ⟨S2048x1, .f32⟩
  | 51 => ⟨S2048x1, .f32⟩
  | 52 => ⟨S2048x1, .f32⟩
  | 53 => ⟨S2048x1, .f32⟩
  | 54 => ⟨S2048x16, .f32⟩
  | 55 => ⟨S1x16, .i32⟩
  | 56 => ⟨S2048x16, .i32⟩
  | 57 => ⟨S2048x16, .i32⟩
  | 58 => ⟨S2048x256, .f32⟩
  | 59 => ⟨S2048x256, .f32⟩
  | 60 => ⟨S2048x256, .f32⟩
  | 61 => ⟨S2048x256, .f32⟩
  | 62 => ⟨S2048x256, .f32⟩
  | 63 => ⟨S2048x256, .f32⟩
  | 64 => ⟨S2048x256, .f32⟩
  | 65 => ⟨S2048x256, .f32⟩
  | 66 => ⟨S2048x256, .f32⟩
  | 67 => ⟨S2048x2304, .f32⟩
  | 68 => ⟨S2048x1, .f32⟩
  | 69 => ⟨S_, .f32⟩
  | 70 => ⟨S_, .f32⟩
  | 71 => ⟨S_, .f32⟩
  | 72 => ⟨S_, .f32⟩
  | _ => ⟨S2048x65536, .f32⟩

abbrev hbmTy (i : Nat) : BufTy := match i / 128 with
  | 0 => hbmTy0_0 i
  | 1 => hbmTy0_1 i
  | 2 => hbmTy0_2 i
  | _ => ⟨S2048x65536, .f32⟩

abbrev bufTy : (tb : Table) → Fin (tcTables nBuf tb) → BufTy
  | .hbm, ⟨i, _⟩ => hbmTy i
  | .local _ .vmem, ⟨0, _⟩ => ⟨S256x2304, .f32⟩
  | .local _ .vmem, ⟨1, _⟩ => ⟨S256x2304, .f32⟩
  | .local _ .vmem, ⟨2, _⟩ => ⟨S256x16, .i32⟩
  | .local _ .vmem, ⟨3, _⟩ => ⟨S256x16, .i32⟩
  | .local _ .vmem, ⟨4, _⟩ => ⟨S256x16, .f32⟩
  | .local _ .vmem, ⟨5, _⟩ => ⟨S256x16, .f32⟩
  | .local _ .vmem, ⟨6, _⟩ => ⟨S256x1, .f32⟩
  | .local _ .vmem, ⟨7, _⟩ => ⟨S256x1, .f32⟩
  | _, _ => ⟨S2048x65536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_c_0 : Ref sig .tc := ⟨.hbm, 3, rfl⟩
abbrev main_v0 : Ref sig .tc := ⟨.hbm, 4, rfl⟩
abbrev main_c_1 : Ref sig .tc := ⟨.hbm, 5, rfl⟩
abbrev main_v1 : Ref sig .tc := ⟨.hbm, 6, rfl⟩
abbrev main_v2 : Ref sig .tc := ⟨.hbm, 7, rfl⟩
abbrev main_c_2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_cst_3 : Ref sig .tc := ⟨.hbm, 12, rfl⟩
abbrev main_call0_v0 : Ref sig .tc := ⟨.hbm, 13, rfl⟩
abbrev main_call0_v1 : Ref sig .tc := ⟨.hbm, 14, rfl⟩
abbrev main_v5 : Ref sig .tc := ⟨.hbm, 15, rfl⟩
abbrev main_v6 : Ref sig .tc := ⟨.hbm, 16, rfl⟩
abbrev main_c_4 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_c_5 : Ref sig .tc := ⟨.hbm, 22, rfl⟩
abbrev main_v11 : Ref sig .tc := ⟨.hbm, 23, rfl⟩
abbrev main_v12 : Ref sig .tc := ⟨.hbm, 24, rfl⟩
abbrev main_c_6 : Ref sig .tc := ⟨.hbm, 25, rfl⟩
abbrev main_v13 : Ref sig .tc := ⟨.hbm, 26, rfl⟩
abbrev main_v14 : Ref sig .tc := ⟨.hbm, 27, rfl⟩
abbrev main_cst_7 : Ref sig .tc := ⟨.hbm, 28, rfl⟩
abbrev main_cst_8 : Ref sig .tc := ⟨.hbm, 29, rfl⟩
abbrev main_call1_v0 : Ref sig .tc := ⟨.hbm, 30, rfl⟩
abbrev main_call1_v1 : Ref sig .tc := ⟨.hbm, 31, rfl⟩
abbrev main_v15 : Ref sig .tc := ⟨.hbm, 32, rfl⟩
abbrev main_v16 : Ref sig .tc := ⟨.hbm, 33, rfl⟩
abbrev main_c_9 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_c_10 : Ref sig .tc := ⟨.hbm, 39, rfl⟩
abbrev main_v21 : Ref sig .tc := ⟨.hbm, 40, rfl⟩
abbrev main_v22 : Ref sig .tc := ⟨.hbm, 41, rfl⟩
abbrev main_c_11 : Ref sig .tc := ⟨.hbm, 42, rfl⟩
abbrev main_v23 : Ref sig .tc := ⟨.hbm, 43, rfl⟩
abbrev main_v24 : Ref sig .tc := ⟨.hbm, 44, rfl⟩
abbrev main_cst_12 : Ref sig .tc := ⟨.hbm, 45, rfl⟩
abbrev main_cst_13 : Ref sig .tc := ⟨.hbm, 46, rfl⟩
abbrev main_call2_v0 : Ref sig .tc := ⟨.hbm, 47, rfl⟩
abbrev main_call2_v1 : Ref sig .tc := ⟨.hbm, 48, rfl⟩
abbrev main_v25 : Ref sig .tc := ⟨.hbm, 49, rfl⟩
abbrev main_v26 : Ref sig .tc := ⟨.hbm, 50, rfl⟩
abbrev main_c_14 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_c_15 : Ref sig .tc := ⟨.hbm, 56, rfl⟩
abbrev main_v31 : Ref sig .tc := ⟨.hbm, 57, rfl⟩
abbrev main_v32 : Ref sig .tc := ⟨.hbm, 58, rfl⟩
abbrev main_c_16 : Ref sig .tc := ⟨.hbm, 59, rfl⟩
abbrev main_v33 : Ref sig .tc := ⟨.hbm, 60, rfl⟩
abbrev main_v34 : Ref sig .tc := ⟨.hbm, 61, rfl⟩
abbrev main_cst_17 : Ref sig .tc := ⟨.hbm, 62, rfl⟩
abbrev main_cst_18 : Ref sig .tc := ⟨.hbm, 63, rfl⟩
abbrev main_call3_v0 : Ref sig .tc := ⟨.hbm, 64, rfl⟩
abbrev main_call3_v1 : Ref sig .tc := ⟨.hbm, 65, rfl⟩
abbrev main_v35 : Ref sig .tc := ⟨.hbm, 66, rfl⟩
abbrev main_v36 : Ref sig .tc := ⟨.hbm, 67, rfl⟩
abbrev main_c_19 : Ref sig .tc := ⟨.hbm, 68, rfl⟩
abbrev main_v37 : Ref sig .tc := ⟨.hbm, 69, rfl⟩
abbrev main_v38 : Ref sig .tc := ⟨.hbm, 70, rfl⟩
abbrev main_v39 : Ref sig .tc := ⟨.hbm, 71, rfl⟩
abbrev main_v40 : Ref sig .tc := ⟨.hbm, 72, rfl⟩
abbrev main_c_20 : Ref sig .tc := ⟨.hbm, 73, rfl⟩
abbrev main_v41 : Ref sig .tc := ⟨.hbm, 74, rfl⟩
abbrev main_v42 : Ref sig .tc := ⟨.hbm, 75, rfl⟩
abbrev main_c_21 : Ref sig .tc := ⟨.hbm, 76, rfl⟩
abbrev main_v43 : Ref sig .tc := ⟨.hbm, 77, rfl⟩
abbrev main_v44 : Ref sig .tc := ⟨.hbm, 78, rfl⟩
abbrev main_cst_22 : Ref sig .tc := ⟨.hbm, 79, rfl⟩
abbrev main_cst_23 : Ref sig .tc := ⟨.hbm, 80, rfl⟩
abbrev main_call4_v0 : Ref sig .tc := ⟨.hbm, 81, rfl⟩
abbrev main_call4_v1 : Ref sig .tc := ⟨.hbm, 82, rfl⟩
abbrev main_v45 : Ref sig .tc := ⟨.hbm, 83, rfl⟩
abbrev main_v46 : Ref sig .tc := ⟨.hbm, 84, rfl⟩
abbrev main_c_24 : Ref sig .tc := ⟨.hbm, 85, rfl⟩
abbrev main_v47 : Ref sig .tc := ⟨.hbm, 86, rfl⟩
abbrev main_v48 : Ref sig .tc := ⟨.hbm, 87, rfl⟩
abbrev main_v49 : Ref sig .tc := ⟨.hbm, 88, rfl⟩
abbrev main_v50 : Ref sig .tc := ⟨.hbm, 89, rfl⟩
abbrev main_c_25 : Ref sig .tc := ⟨.hbm, 90, rfl⟩
abbrev main_v51 : Ref sig .tc := ⟨.hbm, 91, rfl⟩
abbrev main_v52 : Ref sig .tc := ⟨.hbm, 92, rfl⟩
abbrev main_c_26 : Ref sig .tc := ⟨.hbm, 93, rfl⟩
abbrev main_v53 : Ref sig .tc := ⟨.hbm, 94, rfl⟩
abbrev main_v54 : Ref sig .tc := ⟨.hbm, 95, rfl⟩
abbrev main_cst_27 : Ref sig .tc := ⟨.hbm, 96, rfl⟩
abbrev main_cst_28 : Ref sig .tc := ⟨.hbm, 97, rfl⟩
abbrev main_call5_v0 : Ref sig .tc := ⟨.hbm, 98, rfl⟩
abbrev main_call5_v1 : Ref sig .tc := ⟨.hbm, 99, rfl⟩
abbrev main_v55 : Ref sig .tc := ⟨.hbm, 100, rfl⟩
abbrev main_v56 : Ref sig .tc := ⟨.hbm, 101, rfl⟩
abbrev main_c_29 : Ref sig .tc := ⟨.hbm, 102, rfl⟩
abbrev main_v57 : Ref sig .tc := ⟨.hbm, 103, rfl⟩
abbrev main_v58 : Ref sig .tc := ⟨.hbm, 104, rfl⟩
abbrev main_v59 : Ref sig .tc := ⟨.hbm, 105, rfl⟩
abbrev main_v60 : Ref sig .tc := ⟨.hbm, 106, rfl⟩
abbrev main_c_30 : Ref sig .tc := ⟨.hbm, 107, rfl⟩
abbrev main_v61 : Ref sig .tc := ⟨.hbm, 108, rfl⟩
abbrev main_v62 : Ref sig .tc := ⟨.hbm, 109, rfl⟩
abbrev main_c_31 : Ref sig .tc := ⟨.hbm, 110, rfl⟩
abbrev main_v63 : Ref sig .tc := ⟨.hbm, 111, rfl⟩
abbrev main_v64 : Ref sig .tc := ⟨.hbm, 112, rfl⟩
abbrev main_cst_32 : Ref sig .tc := ⟨.hbm, 113, rfl⟩
abbrev main_cst_33 : Ref sig .tc := ⟨.hbm, 114, rfl⟩
abbrev main_call6_v0 : Ref sig .tc := ⟨.hbm, 115, rfl⟩
abbrev main_call6_v1 : Ref sig .tc := ⟨.hbm, 116, rfl⟩
abbrev main_v65 : Ref sig .tc := ⟨.hbm, 117, rfl⟩
abbrev main_v66 : Ref sig .tc := ⟨.hbm, 118, rfl⟩
abbrev main_c_34 : Ref sig .tc := ⟨.hbm, 119, rfl⟩
abbrev main_v67 : Ref sig .tc := ⟨.hbm, 120, rfl⟩
abbrev main_v68 : Ref sig .tc := ⟨.hbm, 121, rfl⟩
abbrev main_v69 : Ref sig .tc := ⟨.hbm, 122, rfl⟩
abbrev main_v70 : Ref sig .tc := ⟨.hbm, 123, rfl⟩
abbrev main_c_35 : Ref sig .tc := ⟨.hbm, 124, rfl⟩
abbrev main_v71 : Ref sig .tc := ⟨.hbm, 125, rfl⟩
abbrev main_v72 : Ref sig .tc := ⟨.hbm, 126, rfl⟩
abbrev main_c_36 : Ref sig .tc := ⟨.hbm, 127, rfl⟩
abbrev main_v73 : Ref sig .tc := ⟨.hbm, 128, rfl⟩
abbrev main_v74 : Ref sig .tc := ⟨.hbm, 129, rfl⟩
abbrev main_cst_37 : Ref sig .tc := ⟨.hbm, 130, rfl⟩
abbrev main_cst_38 : Ref sig .tc := ⟨.hbm, 131, rfl⟩
abbrev main_call7_v0 : Ref sig .tc := ⟨.hbm, 132, rfl⟩
abbrev main_call7_v1 : Ref sig .tc := ⟨.hbm, 133, rfl⟩
abbrev main_v75 : Ref sig .tc := ⟨.hbm, 134, rfl⟩
abbrev main_v76 : Ref sig .tc := ⟨.hbm, 135, rfl⟩
abbrev main_c_39 : Ref sig .tc := ⟨.hbm, 136, rfl⟩
abbrev main_v77 : Ref sig .tc := ⟨.hbm, 137, rfl⟩
abbrev main_v78 : Ref sig .tc := ⟨.hbm, 138, rfl⟩
abbrev main_v79 : Ref sig .tc := ⟨.hbm, 139, rfl⟩
abbrev main_v80 : Ref sig .tc := ⟨.hbm, 140, rfl⟩
abbrev main_c_40 : Ref sig .tc := ⟨.hbm, 141, rfl⟩
abbrev main_v81 : Ref sig .tc := ⟨.hbm, 142, rfl⟩
abbrev main_v82 : Ref sig .tc := ⟨.hbm, 143, rfl⟩
abbrev main_c_41 : Ref sig .tc := ⟨.hbm, 144, rfl⟩
abbrev main_v83 : Ref sig .tc := ⟨.hbm, 145, rfl⟩
abbrev main_v84 : Ref sig .tc := ⟨.hbm, 146, rfl⟩
abbrev main_cst_42 : Ref sig .tc := ⟨.hbm, 147, rfl⟩
abbrev main_cst_43 : Ref sig .tc := ⟨.hbm, 148, rfl⟩
abbrev main_call8_v0 : Ref sig .tc := ⟨.hbm, 149, rfl⟩
abbrev main_call8_v1 : Ref sig .tc := ⟨.hbm, 150, rfl⟩
abbrev main_v85 : Ref sig .tc := ⟨.hbm, 151, rfl⟩
abbrev main_v86 : Ref sig .tc := ⟨.hbm, 152, rfl⟩
abbrev main_c_44 : Ref sig .tc := ⟨.hbm, 153, rfl⟩
abbrev main_v87 : Ref sig .tc := ⟨.hbm, 154, rfl⟩
abbrev main_v88 : Ref sig .tc := ⟨.hbm, 155, rfl⟩
abbrev main_v89 : Ref sig .tc := ⟨.hbm, 156, rfl⟩
abbrev main_v90 : Ref sig .tc := ⟨.hbm, 157, rfl⟩
abbrev main_c_45 : Ref sig .tc := ⟨.hbm, 158, rfl⟩
abbrev main_v91 : Ref sig .tc := ⟨.hbm, 159, rfl⟩
abbrev main_v92 : Ref sig .tc := ⟨.hbm, 160, rfl⟩
abbrev main_c_46 : Ref sig .tc := ⟨.hbm, 161, rfl⟩
abbrev main_v93 : Ref sig .tc := ⟨.hbm, 162, rfl⟩
abbrev main_v94 : Ref sig .tc := ⟨.hbm, 163, rfl⟩
abbrev main_cst_47 : Ref sig .tc := ⟨.hbm, 164, rfl⟩
abbrev main_cst_48 : Ref sig .tc := ⟨.hbm, 165, rfl⟩
abbrev main_call9_v0 : Ref sig .tc := ⟨.hbm, 166, rfl⟩
abbrev main_call9_v1 : Ref sig .tc := ⟨.hbm, 167, rfl⟩
abbrev main_v95 : Ref sig .tc := ⟨.hbm, 168, rfl⟩
abbrev main_v96 : Ref sig .tc := ⟨.hbm, 169, rfl⟩
abbrev main_c_49 : Ref sig .tc := ⟨.hbm, 170, rfl⟩
abbrev main_v97 : Ref sig .tc := ⟨.hbm, 171, rfl⟩
abbrev main_v98 : Ref sig .tc := ⟨.hbm, 172, rfl⟩
abbrev main_v99 : Ref sig .tc := ⟨.hbm, 173, rfl⟩
abbrev main_v100 : Ref sig .tc := ⟨.hbm, 174, rfl⟩
abbrev main_c_50 : Ref sig .tc := ⟨.hbm, 175, rfl⟩
abbrev main_v101 : Ref sig .tc := ⟨.hbm, 176, rfl⟩
abbrev main_v102 : Ref sig .tc := ⟨.hbm, 177, rfl⟩
abbrev main_c_51 : Ref sig .tc := ⟨.hbm, 178, rfl⟩
abbrev main_v103 : Ref sig .tc := ⟨.hbm, 179, rfl⟩
abbrev main_v104 : Ref sig .tc := ⟨.hbm, 180, rfl⟩
abbrev main_cst_52 : Ref sig .tc := ⟨.hbm, 181, rfl⟩
abbrev main_cst_53 : Ref sig .tc := ⟨.hbm, 182, rfl⟩
abbrev main_call10_v0 : Ref sig .tc := ⟨.hbm, 183, rfl⟩
abbrev main_call10_v1 : Ref sig .tc := ⟨.hbm, 184, rfl⟩
abbrev main_v105 : Ref sig .tc := ⟨.hbm, 185, rfl⟩
abbrev main_v106 : Ref sig .tc := ⟨.hbm, 186, rfl⟩
abbrev main_c_54 : Ref sig .tc := ⟨.hbm, 187, rfl⟩
abbrev main_v107 : Ref sig .tc := ⟨.hbm, 188, rfl⟩
abbrev main_v108 : Ref sig .tc := ⟨.hbm, 189, rfl⟩
abbrev main_v109 : Ref sig .tc := ⟨.hbm, 190, rfl⟩
abbrev main_v110 : Ref sig .tc := ⟨.hbm, 191, rfl⟩
abbrev main_c_55 : Ref sig .tc := ⟨.hbm, 192, rfl⟩
abbrev main_v111 : Ref sig .tc := ⟨.hbm, 193, rfl⟩
abbrev main_v112 : Ref sig .tc := ⟨.hbm, 194, rfl⟩
abbrev main_c_56 : Ref sig .tc := ⟨.hbm, 195, rfl⟩
abbrev main_v113 : Ref sig .tc := ⟨.hbm, 196, rfl⟩
abbrev main_v114 : Ref sig .tc := ⟨.hbm, 197, rfl⟩
abbrev main_cst_57 : Ref sig .tc := ⟨.hbm, 198, rfl⟩
abbrev main_cst_58 : Ref sig .tc := ⟨.hbm, 199, rfl⟩
abbrev main_call11_v0 : Ref sig .tc := ⟨.hbm, 200, rfl⟩
abbrev main_call11_v1 : Ref sig .tc := ⟨.hbm, 201, rfl⟩
abbrev main_v115 : Ref sig .tc := ⟨.hbm, 202, rfl⟩
abbrev main_v116 : Ref sig .tc := ⟨.hbm, 203, rfl⟩
abbrev main_c_59 : Ref sig .tc := ⟨.hbm, 204, rfl⟩
abbrev main_v117 : Ref sig .tc := ⟨.hbm, 205, rfl⟩
abbrev main_v118 : Ref sig .tc := ⟨.hbm, 206, rfl⟩
abbrev main_v119 : Ref sig .tc := ⟨.hbm, 207, rfl⟩
abbrev main_v120 : Ref sig .tc := ⟨.hbm, 208, rfl⟩
abbrev main_c_60 : Ref sig .tc := ⟨.hbm, 209, rfl⟩
abbrev main_v121 : Ref sig .tc := ⟨.hbm, 210, rfl⟩
abbrev main_v122 : Ref sig .tc := ⟨.hbm, 211, rfl⟩
abbrev main_c_61 : Ref sig .tc := ⟨.hbm, 212, rfl⟩
abbrev main_v123 : Ref sig .tc := ⟨.hbm, 213, rfl⟩
abbrev main_v124 : Ref sig .tc := ⟨.hbm, 214, rfl⟩
abbrev main_cst_62 : Ref sig .tc := ⟨.hbm, 215, rfl⟩
abbrev main_cst_63 : Ref sig .tc := ⟨.hbm, 216, rfl⟩
abbrev main_call12_v0 : Ref sig .tc := ⟨.hbm, 217, rfl⟩
abbrev main_call12_v1 : Ref sig .tc := ⟨.hbm, 218, rfl⟩
abbrev main_v125 : Ref sig .tc := ⟨.hbm, 219, rfl⟩
abbrev main_v126 : Ref sig .tc := ⟨.hbm, 220, rfl⟩
abbrev main_c_64 : Ref sig .tc := ⟨.hbm, 221, rfl⟩
abbrev main_v127 : Ref sig .tc := ⟨.hbm, 222, rfl⟩
abbrev main_v128 : Ref sig .tc := ⟨.hbm, 223, rfl⟩
abbrev main_v129 : Ref sig .tc := ⟨.hbm, 224, rfl⟩
abbrev main_v130 : Ref sig .tc := ⟨.hbm, 225, rfl⟩
abbrev main_c_65 : Ref sig .tc := ⟨.hbm, 226, rfl⟩
abbrev main_v131 : Ref sig .tc := ⟨.hbm, 227, rfl⟩
abbrev main_v132 : Ref sig .tc := ⟨.hbm, 228, rfl⟩
abbrev main_c_66 : Ref sig .tc := ⟨.hbm, 229, rfl⟩
abbrev main_v133 : Ref sig .tc := ⟨.hbm, 230, rfl⟩
abbrev main_v134 : Ref sig .tc := ⟨.hbm, 231, rfl⟩
abbrev main_cst_67 : Ref sig .tc := ⟨.hbm, 232, rfl⟩
abbrev main_cst_68 : Ref sig .tc := ⟨.hbm, 233, rfl⟩
abbrev main_call13_v0 : Ref sig .tc := ⟨.hbm, 234, rfl⟩
abbrev main_call13_v1 : Ref sig .tc := ⟨.hbm, 235, rfl⟩
abbrev main_v135 : Ref sig .tc := ⟨.hbm, 236, rfl⟩
abbrev main_v136 : Ref sig .tc := ⟨.hbm, 237, rfl⟩
abbrev main_c_69 : Ref sig .tc := ⟨.hbm, 238, rfl⟩
abbrev main_v137 : Ref sig .tc := ⟨.hbm, 239, rfl⟩
abbrev main_v138 : Ref sig .tc := ⟨.hbm, 240, rfl⟩
abbrev main_v139 : Ref sig .tc := ⟨.hbm, 241, rfl⟩
abbrev main_v140 : Ref sig .tc := ⟨.hbm, 242, rfl⟩
abbrev main_c_70 : Ref sig .tc := ⟨.hbm, 243, rfl⟩
abbrev main_v141 : Ref sig .tc := ⟨.hbm, 244, rfl⟩
abbrev main_v142 : Ref sig .tc := ⟨.hbm, 245, rfl⟩
abbrev main_c_71 : Ref sig .tc := ⟨.hbm, 246, rfl⟩
abbrev main_v143 : Ref sig .tc := ⟨.hbm, 247, rfl⟩
abbrev main_v144 : Ref sig .tc := ⟨.hbm, 248, rfl⟩
abbrev main_cst_72 : Ref sig .tc := ⟨.hbm, 249, rfl⟩
abbrev main_cst_73 : Ref sig .tc := ⟨.hbm, 250, rfl⟩
abbrev main_call14_v0 : Ref sig .tc := ⟨.hbm, 251, rfl⟩
abbrev main_call14_v1 : Ref sig .tc := ⟨.hbm, 252, rfl⟩
abbrev main_v145 : Ref sig .tc := ⟨.hbm, 253, rfl⟩
abbrev main_v146 : Ref sig .tc := ⟨.hbm, 254, rfl⟩
abbrev main_c_74 : Ref sig .tc := ⟨.hbm, 255, rfl⟩
abbrev main_v147 : Ref sig .tc := ⟨.hbm, 256, rfl⟩
abbrev main_v148 : Ref sig .tc := ⟨.hbm, 257, rfl⟩
abbrev main_v149 : Ref sig .tc := ⟨.hbm, 258, rfl⟩
abbrev main_v150 : Ref sig .tc := ⟨.hbm, 259, rfl⟩
abbrev main_c_75 : Ref sig .tc := ⟨.hbm, 260, rfl⟩
abbrev main_v151 : Ref sig .tc := ⟨.hbm, 261, rfl⟩
abbrev main_v152 : Ref sig .tc := ⟨.hbm, 262, rfl⟩
abbrev main_c_76 : Ref sig .tc := ⟨.hbm, 263, rfl⟩
abbrev main_v153 : Ref sig .tc := ⟨.hbm, 264, rfl⟩
abbrev main_v154 : Ref sig .tc := ⟨.hbm, 265, rfl⟩
abbrev main_cst_77 : Ref sig .tc := ⟨.hbm, 266, rfl⟩
abbrev main_cst_78 : Ref sig .tc := ⟨.hbm, 267, rfl⟩
abbrev main_call15_v0 : Ref sig .tc := ⟨.hbm, 268, rfl⟩
abbrev main_call15_v1 : Ref sig .tc := ⟨.hbm, 269, rfl⟩
abbrev main_v155 : Ref sig .tc := ⟨.hbm, 270, rfl⟩
abbrev main_v156 : Ref sig .tc := ⟨.hbm, 271, rfl⟩
abbrev main_c_79 : Ref sig .tc := ⟨.hbm, 272, rfl⟩
abbrev main_v157 : Ref sig .tc := ⟨.hbm, 273, rfl⟩
abbrev main_v158 : Ref sig .tc := ⟨.hbm, 274, rfl⟩
abbrev main_v159 : Ref sig .tc := ⟨.hbm, 275, rfl⟩
abbrev main_v160 : Ref sig .tc := ⟨.hbm, 276, rfl⟩
abbrev main_v161 : Ref sig .tc := ⟨.hbm, 277, rfl⟩
abbrev main_v162 : Ref sig .tc := ⟨.hbm, 278, rfl⟩
abbrev main_v163 : Ref sig .tc := ⟨.hbm, 279, rfl⟩
abbrev main_v164 : Ref sig .tc := ⟨.hbm, 280, rfl⟩
abbrev main_v165 : Ref sig .tc := ⟨.hbm, 281, rfl⟩
abbrev main_v166 : Ref sig .tc := ⟨.hbm, 282, rfl⟩
abbrev main_v167 : Ref sig .tc := ⟨.hbm, 283, rfl⟩
abbrev main_v168 : Ref sig .tc := ⟨.hbm, 284, rfl⟩
abbrev main_v169 : Ref sig .tc := ⟨.hbm, 285, rfl⟩
abbrev main_v170 : Ref sig .tc := ⟨.hbm, 286, rfl⟩
abbrev main_v171 : Ref sig .tc := ⟨.hbm, 287, rfl⟩
abbrev main_v172 : Ref sig .tc := ⟨.hbm, 288, rfl⟩
abbrev main_v173 : Ref sig .tc := ⟨.hbm, 289, rfl⟩
abbrev main_v174 : Ref sig .tc := ⟨.hbm, 290, rfl⟩
abbrev main_v175 : Ref sig .tc := ⟨.hbm, 291, rfl⟩
abbrev main_v176 : Ref sig .tc := ⟨.hbm, 292, rfl⟩
abbrev main_v177 : Ref sig .tc := ⟨.hbm, 293, rfl⟩
abbrev main_v178 : Ref sig .tc := ⟨.hbm, 294, rfl⟩
abbrev main_v179 : Ref sig .tc := ⟨.hbm, 295, rfl⟩
abbrev main_v180 : Ref sig .tc := ⟨.hbm, 296, rfl⟩
abbrev main_v181 : Ref sig .tc := ⟨.hbm, 297, rfl⟩
abbrev main_v182 : Ref sig .tc := ⟨.hbm, 298, rfl⟩
abbrev main_v183 : Ref sig .tc := ⟨.hbm, 299, rfl⟩
abbrev main_v184 : Ref sig .tc := ⟨.hbm, 300, rfl⟩
abbrev main_v185 : Ref sig .tc := ⟨.hbm, 301, rfl⟩
abbrev main_v186 : Ref sig .tc := ⟨.hbm, 302, rfl⟩
abbrev main_v187 : Ref sig .tc := ⟨.hbm, 303, rfl⟩
abbrev main_v188 : Ref sig .tc := ⟨.hbm, 304, rfl⟩
abbrev main_v189 : Ref sig .tc := ⟨.hbm, 305, rfl⟩
abbrev main_v190 : Ref sig .tc := ⟨.hbm, 306, rfl⟩
abbrev main_v191 : Ref sig .tc := ⟨.hbm, 307, rfl⟩
abbrev main_v192 : Ref sig .tc := ⟨.hbm, 308, rfl⟩
abbrev main_v193 : Ref sig .tc := ⟨.hbm, 309, rfl⟩
abbrev main_v194 : Ref sig .tc := ⟨.hbm, 310, rfl⟩
abbrev main_v195 : Ref sig .tc := ⟨.hbm, 311, rfl⟩
abbrev main_v196 : Ref sig .tc := ⟨.hbm, 312, rfl⟩
abbrev main_v197 : Ref sig .tc := ⟨.hbm, 313, rfl⟩
abbrev main_v198 : Ref sig .tc := ⟨.hbm, 314, rfl⟩
abbrev main_v199 : Ref sig .tc := ⟨.hbm, 315, rfl⟩
abbrev main_v200 : Ref sig .tc := ⟨.hbm, 316, rfl⟩
abbrev main_v201 : Ref sig .tc := ⟨.hbm, 317, rfl⟩
abbrev main_v202 : Ref sig .tc := ⟨.hbm, 318, rfl⟩
abbrev main_v203 : Ref sig .tc := ⟨.hbm, 319, rfl⟩
abbrev main_v204 : Ref sig .tc := ⟨.hbm, 320, rfl⟩
abbrev main_v205 : Ref sig .tc := ⟨.hbm, 321, rfl⟩
abbrev main_v206 : Ref sig .tc := ⟨.hbm, 322, rfl⟩
abbrev main_v207 : Ref sig .tc := ⟨.hbm, 323, rfl⟩
abbrev main_v208 : Ref sig .tc := ⟨.hbm, 324, rfl⟩
abbrev main_cst_80 : Ref sig .tc := ⟨.hbm, 325, rfl⟩
abbrev main_v209 : Ref sig .tc := ⟨.hbm, 326, rfl⟩
abbrev main_cst_81 : Ref sig .tc := ⟨.hbm, 327, rfl⟩
abbrev main_v210 : Ref sig .tc := ⟨.hbm, 328, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2304 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x16 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bcast_S_S2048 : S_.BroadcastsInDim S2048 (![] : Fin 0 → Fin S2048.rank)
  natLt_1_32 : 1 < 32
  bcast_S2048_S2048x1_0 : S2048.BroadcastsInDim S2048x1 (![0] : Fin 1 → Fin S2048x1.rank)
  concatenates_S2048x1_S2048x1_S2048x1_S2048x1_S2048x1_S2048x1_S2048x1_S2048x1_S2048x1_S2048x1_S2048x1_S2048x1_S2048x1_S2048x1_S2048x1_S2048x1_S2048x16_d1 : Shape.Concatenates [S2048x1, S2048x1, S2048x1, S2048x1, S2048x1, S2048x1, S2048x1, S2048x1, S2048x1, S2048x1, S2048x1, S2048x1, S2048x1, S2048x1, S2048x1, S2048x1] S2048x16 1
  bcast_S16_S1x16_1 : S16.BroadcastsInDim S1x16 (![1] : Fin 1 → Fin S1x16.rank)
  bcast_S1x16_S2048x16_0_1 : S1x16.BroadcastsInDim S2048x16 (![0, 1] : Fin 2 → Fin S2048x16.rank)
  slices_S2048x65536_S2048x256_0_0 : S2048x65536.Slices ![0, 0] S2048x256
  slices_S2048x65536_S2048x256_0_128 : S2048x65536.Slices ![0, 128] S2048x256
  slices_S2048x65536_S2048x256_0_384 : S2048x65536.Slices ![0, 384] S2048x256
  slices_S2048x65536_S2048x256_0_896 : S2048x65536.Slices ![0, 896] S2048x256
  slices_S2048x65536_S2048x256_0_1920 : S2048x65536.Slices ![0, 1920] S2048x256
  slices_S2048x65536_S2048x256_0_3968 : S2048x65536.Slices ![0, 3968] S2048x256
  slices_S2048x65536_S2048x256_0_8064 : S2048x65536.Slices ![0, 8064] S2048x256
  slices_S2048x65536_S2048x256_0_16256 : S2048x65536.Slices ![0, 16256] S2048x256
  slices_S2048x65536_S2048x256_0_32640 : S2048x65536.Slices ![0, 32640] S2048x256
  concatenates_S2048x256_S2048x256_S2048x256_S2048x256_S2048x256_S2048x256_S2048x256_S2048x256_S2048x256_S2048x2304_d1 : Shape.Concatenates [S2048x256, S2048x256, S2048x256, S2048x256, S2048x256, S2048x256, S2048x256, S2048x256, S2048x256] S2048x2304 1
  inb_S256x16_S256x16_0_0 : ∀ a, (![0, 0] : Fin 2 → Nat) a + S256x16.size a ≤ S256x16.size a
  h_S256x16 : 0 < S256x16.numel
  shapeCasts_S256x16_S256x16 : S256x16.ShapeCasts S256x16
  inb_S256x2304_S256x256_0_0 : ∀ a, (![0, 0] : Fin 2 → Nat) a + S256x256.size a ≤ S256x2304.size a
  h_S256x256 : 0 < S256x256.numel
  shapeCasts_S256x256_S256x256 : S256x256.ShapeCasts S256x256
  inb_S256x2304_S256x256_0_256 : ∀ a, (![0, 256] : Fin 2 → Nat) a + S256x256.size a ≤ S256x2304.size a
  inb_S256x2304_S256x256_0_512 : ∀ a, (![0, 512] : Fin 2 → Nat) a + S256x256.size a ≤ S256x2304.size a
  inb_S256x2304_S256x256_0_768 : ∀ a, (![0, 768] : Fin 2 → Nat) a + S256x256.size a ≤ S256x2304.size a
  inb_S256x2304_S256x256_0_1024 : ∀ a, (![0, 1024] : Fin 2 → Nat) a + S256x256.size a ≤ S256x2304.size a
  inb_S256x2304_S256x256_0_1280 : ∀ a, (![0, 1280] : Fin 2 → Nat) a + S256x256.size a ≤ S256x2304.size a
  inb_S256x2304_S256x256_0_1536 : ∀ a, (![0, 1536] : Fin 2 → Nat) a + S256x256.size a ≤ S256x2304.size a
  inb_S256x2304_S256x256_0_1792 : ∀ a, (![0, 1792] : Fin 2 → Nat) a + S256x256.size a ≤ S256x2304.size a
  inb_S256x2304_S256x256_0_2048 : ∀ a, (![0, 2048] : Fin 2 → Nat) a + S256x256.size a ≤ S256x2304.size a
  shapeCasts_S256x256_S256x1x256 : S256x256.ShapeCasts S256x1x256
  concatenates_S256x1x256_S256x1x256_S256x1x256_S256x1x256_S256x1x256_S256x1x256_S256x1x256_S256x1x256_S256x1x256_S256x1x256_S256x1x256_S256x1x256_S256x1x256_S256x1x256_S256x1x256_S256x1x256_S256x16x256_d1 : Shape.Concatenates [S256x1x256, S256x1x256, S256x1x256, S256x1x256, S256x1x256, S256x1x256, S256x1x256, S256x1x256, S256x1x256, S256x1x256, S256x1x256, S256x1x256, S256x1x256, S256x1x256, S256x1x256, S256x1x256] S256x16x256 1
  iota_S256x16x256_d2_w32 : S256x16x256.Iotas .tc 32 [2]
  shapeCasts_S256x16_S256x16x1 : S256x16.ShapeCasts S256x16x1
  broadcasts_S256x16x1_S256x16x256 : S256x16x1.Broadcasts S256x16x256
  reduces_S256x16x256_S256x16 : S256x16x256.Reduces [2] S256x16
  reduces_S256x16_S256 : S256x16.Reduces [1] S256
  shapeCasts_S256_S256x1 : S256.ShapeCasts S256x1
  inb_S256x1_S256x1_0_0 : ∀ a, (![0, 0] : Fin 2 → Nat) a + S256x1.size a ≤ S256x1.size a
  h_S256x1 : 0 < S256x1.numel
  reducesTo_S2048x1_S_d0_1 : S2048x1.ReducesTo [0, 1] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x2304.size a ≤ S2048x2304.size a
  hwx0_0 : ∀ i : grid0.Coords, EltTy.bits .f32 = 32 ∨ (Rect.block (s := S2048x2304) S256x2304.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x16.size a ≤ S2048x16.size a
  hwx0_1 : ∀ i : grid0.Coords, EltTy.bits .i32 = 32 ∨ (Rect.block (s := S2048x16) S256x16.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x16.size a ≤ S2048x16.size a
  hwx0_2 : ∀ i : grid0.Coords, EltTy.bits .f32 = 32 ∨ (Rect.block (s := S2048x16) S256x16.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x1.size a ≤ S2048x1.size a
  hwx0_3 : ∀ i : grid0.Coords, EltTy.bits .f32 = 32 ∨ (Rect.block (s := S2048x1) S256x1.size (cc0_transform_3 i) (hinb0_3 i)).WholeWords (EltTy.packing .f32)

variable [Facts₀]

abbrev win0_0 : Pipeline.Window sig grid0 :=
  Pipeline.Window.ofSpec (Memref.whole main_v207) S256x2304.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v197) S256x16.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v194) S256x16.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v208) S256x1.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S2048x65536 : Shape := ⟨2, ![2048, 65536]⟩
abbrev S2048 : Shape := ⟨1, ![2048]⟩
abbrev S_ : Shape := ⟨0, ![]⟩
abbrev S2048x1 : Shape := ⟨2, ![2048, 1]⟩
abbrev S2048x1x1 : Shape := ⟨3, ![2048, 1, 1]⟩
abbrev S1 : Shape := ⟨1, ![1]⟩
abbrev S1x1x1 : Shape := ⟨3, ![1, 1, 1]⟩

abbrev nBuf : Space → Nat
  | .hbm => 660
  | .vmem => 0
  | .smem => 0
  | _ => 0

abbrev hbmTy0_0 (i : Nat) : BufTy := match i % 128 with
  | 0 => ⟨S2048x65536, .f32⟩
  | 1 => ⟨S2048, .i32⟩
  | 2 => ⟨S2048x65536, .f32⟩
  | 3 => ⟨S2048x65536, .f32⟩
  | 4 => ⟨S_, .f32⟩
  | 5 => ⟨S2048x65536, .f32⟩
  | 6 => ⟨S2048x65536, .f32⟩
  | 7 => ⟨S_, .f32⟩
  | 8 => ⟨S2048x65536, .f32⟩
  | 9 => ⟨S2048x65536, .f32⟩
  | 10 => ⟨S_, .i32⟩
  | 11 => ⟨S2048, .i32⟩
  | 12 => ⟨S_, .f32⟩
  | 13 => ⟨S2048, .f32⟩
  | 14 => ⟨S_, .i32⟩
  | 15 => ⟨S2048, .i32⟩
  | 16 => ⟨S2048, .i32⟩
  | 17 => ⟨S_, .i32⟩
  | 18 => ⟨S2048, .i32⟩
  | 19 => ⟨S2048, .i1⟩
  | 20 => ⟨S2048x1, .i32⟩
  | 21 => ⟨S_, .i32⟩
  | 22 => ⟨S2048x1, .i32⟩
  | 23 => ⟨S2048x1, .i1⟩
  | 24 => ⟨S_, .i32⟩
  | 25 => ⟨S2048x1, .i32⟩
  | 26 => ⟨S2048x1, .i32⟩
  | 27 => ⟨S2048x1, .i32⟩
  | 28 => ⟨S2048x1x1, .i32⟩
  | 29 => ⟨S1, .i32⟩
  | 30 => ⟨S_, .i32⟩
  | 31 => ⟨S2048x1x1, .i32⟩
  | 32 => ⟨S2048x1x1, .i1⟩
  | 33 => ⟨S1x1x1, .i32⟩
  | 34 => ⟨S2048x1x1, .i32⟩
  | 35 => ⟨S2048x1x1, .i1⟩
  | 36 => ⟨S2048x1x1, .i1⟩
  | 37 => ⟨S_, .i1⟩
  | 38 => ⟨S2048x1, .i1⟩
  | 39 => ⟨S2048x1, .f32⟩
  | 40 => ⟨S_, .f32⟩
  | 41 => ⟨S2048x1, .f32⟩
  | 42 => ⟨S2048x1, .f32⟩
  | 43 => ⟨S2048, .f32⟩
  | 44 => ⟨S_, .f32⟩
  | 45 => ⟨S2048, .f32⟩
  | 46 => ⟨S2048, .f32⟩
  | 47 => ⟨S2048, .f32⟩
  | 48 => ⟨S2048, .f32⟩
  | 49 => ⟨S_, .i32⟩
  | 50 => ⟨S2048, .i32⟩
  | 51 => ⟨S2048, .i32⟩
  | 52 => ⟨S2048, .i32⟩
  | 53 => ⟨S2048, .i32⟩
  | 54 => ⟨S_, .i32⟩
  | 55 => ⟨S2048, .i32⟩
  | 56 => ⟨S2048, .i32⟩
  | 57 => ⟨S_, .i32⟩
  | 58 => ⟨S2048, .i32⟩
  | 59 => ⟨S2048, .i1⟩
  | 60 => ⟨S2048x1, .i32⟩
  | 61 => ⟨S_, .i32⟩
  | 62 => ⟨S2048x1, .i32⟩
  | 63 => ⟨S2048x1, .i1⟩
  | 64 => ⟨S_, .i32⟩
  | 65 => ⟨S2048x1, .i32⟩
  | 66 => ⟨S2048x1, .i32⟩
  | 67 => ⟨S2048x1, .i32⟩
  | 68 => ⟨S2048x1x1, .i32⟩
  | 69 => ⟨S1, .i32⟩
  | 70 => ⟨S_, .i32⟩
  | 71 => ⟨S2048x1x1, .i32⟩
  | 72 => ⟨S2048x1x1, .i1⟩
  | 73 => ⟨S1x1x1, .i32⟩
  | 74 => ⟨S2048x1x1, .i32⟩
  | 75 => ⟨S2048x1x1, .i1⟩
  | 76 => ⟨S2048x1x1, .i1⟩
  | 77 => ⟨S_, .i1⟩
  | 78 => ⟨S2048x1, .i1⟩
  | 79 => ⟨S2048x1, .f32⟩
  | 80 => ⟨S_, .f32⟩
  | 81 => ⟨S2048x1, .f32⟩
  | 82 => ⟨S2048x1, .f32⟩
  | 83 => ⟨S2048, .f32⟩
  | 84 => ⟨S_, .f32⟩
  | 85 => ⟨S2048, .f32⟩
  | 86 => ⟨S2048, .f32⟩
  | 87 => ⟨S2048, .f32⟩
  | 88 => ⟨S2048, .f32⟩
  | 89 => ⟨S_, .i32⟩
  | 90 => ⟨S2048, .i32⟩
  | 91 => ⟨S2048, .i32⟩
  | 92 => ⟨S2048, .i32⟩
  | 93 => ⟨S2048, .i32⟩
  | 94 => ⟨S_, .i32⟩
  | 95 => ⟨S2048, .i32⟩
  | 96 => ⟨S2048, .i32⟩
  | 97 => ⟨S_, .i32⟩
  | 98 => ⟨S2048, .i32⟩
  | 99 => ⟨S2048, .i1⟩
  | 100 => ⟨S2048x1, .i32⟩
  | 101 => ⟨S_, .i32⟩
  | 102 => ⟨S2048x1, .i32⟩
  | 103 => ⟨S2048x1, .i1⟩
  | 104 => ⟨S_, .i32⟩
  | 105 => ⟨S2048x1, .i32⟩
  | 106 => ⟨S2048x1, .i32⟩
  | 107 => ⟨S2048x1, .i32⟩
  | 108 => ⟨S2048x1x1, .i32⟩
  | 109 => ⟨S1, .i32⟩
  | 110 => ⟨S_, .i32⟩
  | 111 => ⟨S2048x1x1, .i32⟩
  | 112 => ⟨S2048x1x1, .i1⟩
  | 113 => ⟨S1x1x1, .i32⟩
  | 114 => ⟨S2048x1x1, .i32⟩
  | 115 => ⟨S2048x1x1, .i1⟩
  | 116 => ⟨S2048x1x1, .i1⟩
  | 117 => ⟨S_, .i1⟩
  | 118 => ⟨S2048x1, .i1⟩
  | 119 => ⟨S2048x1, .f32⟩
  | 120 => ⟨S_, .f32⟩
  | 121 => ⟨S2048x1, .f32⟩
  | 122 => ⟨S2048x1, .f32⟩
  | 123 => ⟨S2048, .f32⟩
  | 124 => ⟨S_, .f32⟩
  | 125 => ⟨S2048, .f32⟩
  | 126 => ⟨S2048, .f32⟩
  | 127 => ⟨S2048, .f32⟩
  | _ => ⟨S2048x65536, .f32⟩

abbrev hbmTy0_1 (i : Nat) : BufTy := match i % 128 with
  | 0 => ⟨S2048, .f32⟩
  | 1 => ⟨S_, .i32⟩
  | 2 => ⟨S2048, .i32⟩
  | 3 => ⟨S2048, .i32⟩
  | 4 => ⟨S2048, .i32⟩
  | 5 => ⟨S2048, .i32⟩
  | 6 => ⟨S_, .i32⟩
  | 7 => ⟨S2048, .i32⟩
  | 8 => ⟨S2048, .i32⟩
  | 9 => ⟨S_, .i32⟩
  | 10 => ⟨S2048, .i32⟩
  | 11 => ⟨S2048, .i1⟩
  | 12 => ⟨S2048x1, .i32⟩
  | 13 => ⟨S_, .i32⟩
  | 14 => ⟨S2048x1, .i32⟩
  | 15 => ⟨S2048x1, .i1⟩
  | 16 => ⟨S_, .i32⟩
  | 17 => ⟨S2048x1, .i32⟩
  | 18 => ⟨S2048x1, .i32⟩
  | 19 => ⟨S2048x1, .i32⟩
  | 20 => ⟨S2048x1x1, .i32⟩
  | 21 => ⟨S1, .i32⟩
  | 22 => ⟨S_, .i32⟩
  | 23 => ⟨S2048x1x1, .i32⟩
  | 24 => ⟨S2048x1x1, .i1⟩
  | 25 => ⟨S1x1x1, .i32⟩
  | 26 => ⟨S2048x1x1, .i32⟩
  | 27 => ⟨S2048x1x1, .i1⟩
  | 28 => ⟨S2048x1x1, .i1⟩
  | 29 => ⟨S_, .i1⟩
  | 30 => ⟨S2048x1, .i1⟩
  | 31 => ⟨S2048x1, .f32⟩
  | 32 => ⟨S_, .f32⟩
  | 33 => ⟨S2048x1, .f32⟩
  | 34 => ⟨S2048x1, .f32⟩
  | 35 => ⟨S2048, .f32⟩
  | 36 => ⟨S_, .f32⟩
  | 37 => ⟨S2048, .f32⟩
  | 38 => ⟨S2048, .f32⟩
  | 39 => ⟨S2048, .f32⟩
  | 40 => ⟨S2048, .f32⟩
  | 41 => ⟨S_, .i32⟩
  | 42 => ⟨S2048, .i32⟩
  | 43 => ⟨S2048, .i32⟩
  | 44 => ⟨S2048, .i32⟩
  | 45 => ⟨S2048, .i32⟩
  | 46 => ⟨S_, .i32⟩
  | 47 => ⟨S2048, .i32⟩
  | 48 => ⟨S2048, .i32⟩
  | 49 => ⟨S_, .i32⟩
  | 50 => ⟨S2048, .i32⟩
  | 51 => ⟨S2048, .i1⟩
  | 52 => ⟨S2048x1, .i32⟩
  | 53 => ⟨S_, .i32⟩
  | 54 => ⟨S2048x1, .i32⟩
  | 55 => ⟨S2048x1, .i1⟩
  | 56 => ⟨S_, .i32⟩
  | 57 => ⟨S2048x1, .i32⟩
  | 58 => ⟨S2048x1, .i32⟩
  | 59 => ⟨S2048x1, .i32⟩
  | 60 => ⟨S2048x1x1, .i32⟩
  | 61 => ⟨S1, .i32⟩
  | 62 => ⟨S_, .i32⟩
  | 63 => ⟨S2048x1x1, .i32⟩
  | 64 => ⟨S2048x1x1, .i1⟩
  | 65 => ⟨S1x1x1, .i32⟩
  | 66 => ⟨S2048x1x1, .i32⟩
  | 67 => ⟨S2048x1x1, .i1⟩
  | 68 => ⟨S2048x1x1, .i1⟩
  | 69 => ⟨S_, .i1⟩
  | 70 => ⟨S2048x1, .i1⟩
  | 71 => ⟨S2048x1, .f32⟩
  | 72 => ⟨S_, .f32⟩
  | 73 => ⟨S2048x1, .f32⟩
  | 74 => ⟨S2048x1, .f32⟩
  | 75 => ⟨S2048, .f32⟩
  | 76 => ⟨S_, .f32⟩
  | 77 => ⟨S2048, .f32⟩
  | 78 => ⟨S2048, .f32⟩
  | 79 => ⟨S2048, .f32⟩
  | 80 => ⟨S2048, .f32⟩
  | 81 => ⟨S_, .i32⟩
  | 82 => ⟨S2048, .i32⟩
  | 83 => ⟨S2048, .i32⟩
  | 84 => ⟨S2048, .i32⟩
  | 85 => ⟨S2048, .i32⟩
  | 86 => ⟨S_, .i32⟩
  | 87 => ⟨S2048, .i32⟩
  | 88 => ⟨S2048, .i32⟩
  | 89 => ⟨S_, .i32⟩
  | 90 => ⟨S2048, .i32⟩
  | 91 => ⟨S2048, .i1⟩
  | 92 => ⟨S2048x1, .i32⟩
  | 93 => ⟨S_, .i32⟩
  | 94 => ⟨S2048x1, .i32⟩
  | 95 => ⟨S2048x1, .i1⟩
  | 96 => ⟨S_, .i32⟩
  | 97 => ⟨S2048x1, .i32⟩
  | 98 => ⟨S2048x1, .i32⟩
  | 99 => ⟨S2048x1, .i32⟩
  | 100 => ⟨S2048x1x1, .i32⟩
  | 101 => ⟨S1, .i32⟩
  | 102 => ⟨S_, .i32⟩
  | 103 => ⟨S2048x1x1, .i32⟩
  | 104 => ⟨S2048x1x1, .i1⟩
  | 105 => ⟨S1x1x1, .i32⟩
  | 106 => ⟨S2048x1x1, .i32⟩
  | 107 => ⟨S2048x1x1, .i1⟩
  | 108 => ⟨S2048x1x1, .i1⟩
  | 109 => ⟨S_, .i1⟩
  | 110 => ⟨S2048x1, .i1⟩
  | 111 => ⟨S2048x1, .f32⟩
  | 112 => ⟨S_, .f32⟩
  | 113 => ⟨S2048x1, .f32⟩
  | 114 => ⟨S2048x1, .f32⟩
  | 115 => ⟨S2048, .f32⟩
  | 116 => ⟨S_, .f32⟩
  | 117 => ⟨S2048, .f32⟩
  | 118 => ⟨S2048, .f32⟩
  | 119 => ⟨S2048, .f32⟩
  | 120 => ⟨S2048, .f32⟩
  | 121 => ⟨S_, .i32⟩
  | 122 => ⟨S2048, .i32⟩
  | 123 => ⟨S2048, .i32⟩
  | 124 => ⟨S2048, .i32⟩
  | 125 => ⟨S2048, .i32⟩
  | 126 => ⟨S_, .i32⟩
  | 127 => ⟨S2048, .i32⟩
  | _ => ⟨S2048x65536, .f32⟩

abbrev hbmTy0_2 (i : Nat) : BufTy := match i % 128 with
  | 0 => ⟨S2048, .i32⟩
  | 1 => ⟨S_, .i32⟩
  | 2 => ⟨S2048, .i32⟩
  | 3 => ⟨S2048, .i1⟩
  | 4 => ⟨S2048x1, .i32⟩
  | 5 => ⟨S_, .i32⟩
  | 6 => ⟨S2048x1, .i32⟩
  | 7 => ⟨S2048x1, .i1⟩
  | 8 => ⟨S_, .i32⟩
  | 9 => ⟨S2048x1, .i32⟩
  | 10 => ⟨S2048x1, .i32⟩
  | 11 => ⟨S2048x1, .i32⟩
  | 12 => ⟨S2048x1x1, .i32⟩
  | 13 => ⟨S1, .i32⟩
  | 14 => ⟨S_, .i32⟩
  | 15 => ⟨S2048x1x1, .i32⟩
  | 16 => ⟨S2048x1x1, .i1⟩
  | 17 => ⟨S1x1x1, .i32⟩
  | 18 => ⟨S2048x1x1, .i32⟩
  | 19 => ⟨S2048x1x1, .i1⟩
  | 20 => ⟨S2048x1x1, .i1⟩
  | 21 => ⟨S_, .i1⟩
  | 22 => ⟨S2048x1, .i1⟩
  | 23 => ⟨S2048x1, .f32⟩
  | 24 => ⟨S_, .f32⟩
  | 25 => ⟨S2048x1, .f32⟩
  | 26 => ⟨S2048x1, .f32⟩
  | 27 => ⟨S2048, .f32⟩
  | 28 => ⟨S_, .f32⟩
  | 29 => ⟨S2048, .f32⟩
  | 30 => ⟨S2048, .f32⟩
  | 31 => ⟨S2048, .f32⟩
  | 32 => ⟨S2048, .f32⟩
  | 33 => ⟨S_, .i32⟩
  | 34 => ⟨S2048, .i32⟩
  | 35 => ⟨S2048, .i32⟩
  | 36 => ⟨S2048, .i32⟩
  | 37 => ⟨S2048, .i32⟩
  | 38 => ⟨S_, .i32⟩
  | 39 => ⟨S2048, .i32⟩
  | 40 => ⟨S2048, .i32⟩
  | 41 => ⟨S_, .i32⟩
  | 42 => ⟨S2048, .i32⟩
  | 43 => ⟨S2048, .i1⟩
  | 44 => ⟨S2048x1, .i32⟩
  | 45 => ⟨S_, .i32⟩
  | 46 => ⟨S2048x1, .i32⟩
  | 47 => ⟨S2048x1, .i1⟩
  | 48 => ⟨S_, .i32⟩
  | 49 => ⟨S2048x1, .i32⟩
  | 50 => ⟨S2048x1, .i32⟩
  | 51 => ⟨S2048x1, .i32⟩
  | 52 => ⟨S2048x1x1, .i32⟩
  | 53 => ⟨S1, .i32⟩
  | 54 => ⟨S_, .i32⟩
  | 55 => ⟨S2048x1x1, .i32⟩
  | 56 => ⟨S2048x1x1, .i1⟩
  | 57 => ⟨S1x1x1, .i32⟩
  | 58 => ⟨S2048x1x1, .i32⟩
  | 59 => ⟨S2048x1x1, .i1⟩
  | 60 => ⟨S2048x1x1, .i1⟩
  | 61 => ⟨S_, .i1⟩
  | 62 => ⟨S2048x1, .i1⟩
  | 63 => ⟨S2048x1, .f32⟩
  | 64 => ⟨S_, .f32⟩
  | 65 => ⟨S2048x1, .f32⟩
  | 66 => ⟨S2048x1, .f32⟩
  | 67 => ⟨S2048, .f32⟩
  | 68 => ⟨S_, .f32⟩
  | 69 => ⟨S2048, .f32⟩
  | 70 => ⟨S2048, .f32⟩
  | 71 => ⟨S2048, .f32⟩
  | 72 => ⟨S2048, .f32⟩
  | 73 => ⟨S_, .i32⟩
  | 74 => ⟨S2048, .i32⟩
  | 75 => ⟨S2048, .i32⟩
  | 76 => ⟨S2048, .i32⟩
  | 77 => ⟨S2048, .i32⟩
  | 78 => ⟨S_, .i32⟩
  | 79 => ⟨S2048, .i32⟩
  | 80 => ⟨S2048, .i32⟩
  | 81 => ⟨S_, .i32⟩
  | 82 => ⟨S2048, .i32⟩
  | 83 => ⟨S2048, .i1⟩
  | 84 => ⟨S2048x1, .i32⟩
  | 85 => ⟨S_, .i32⟩
  | 86 => ⟨S2048x1, .i32⟩
  | 87 => ⟨S2048x1, .i1⟩
  | 88 => ⟨S_, .i32⟩
  | 89 => ⟨S2048x1, .i32⟩
  | 90 => ⟨S2048x1, .i32⟩
  | 91 => ⟨S2048x1, .i32⟩
  | 92 => ⟨S2048x1x1, .i32⟩
  | 93 => ⟨S1, .i32⟩
  | 94 => ⟨S_, .i32⟩
  | 95 => ⟨S2048x1x1, .i32⟩
  | 96 => ⟨S2048x1x1, .i1⟩
  | 97 => ⟨S1x1x1, .i32⟩
  | 98 => ⟨S2048x1x1, .i32⟩
  | 99 => ⟨S2048x1x1, .i1⟩
  | 100 => ⟨S2048x1x1, .i1⟩
  | 101 => ⟨S_, .i1⟩
  | 102 => ⟨S2048x1, .i1⟩
  | 103 => ⟨S2048x1, .f32⟩
  | 104 => ⟨S_, .f32⟩
  | 105 => ⟨S2048x1, .f32⟩
  | 106 => ⟨S2048x1, .f32⟩
  | 107 => ⟨S2048, .f32⟩
  | 108 => ⟨S_, .f32⟩
  | 109 => ⟨S2048, .f32⟩
  | 110 => ⟨S2048, .f32⟩
  | 111 => ⟨S2048, .f32⟩
  | 112 => ⟨S2048, .f32⟩
  | 113 => ⟨S_, .i32⟩
  | 114 => ⟨S2048, .i32⟩
  | 115 => ⟨S2048, .i32⟩
  | 116 => ⟨S2048, .i32⟩
  | 117 => ⟨S2048, .i32⟩
  | 118 => ⟨S_, .i32⟩
  | 119 => ⟨S2048, .i32⟩
  | 120 => ⟨S2048, .i32⟩
  | 121 => ⟨S_, .i32⟩
  | 122 => ⟨S2048, .i32⟩
  | 123 => ⟨S2048, .i1⟩
  | 124 => ⟨S2048x1, .i32⟩
  | 125 => ⟨S_, .i32⟩
  | 126 => ⟨S2048x1, .i32⟩
  | 127 => ⟨S2048x1, .i1⟩
  | _ => ⟨S2048x65536, .f32⟩

abbrev hbmTy0_3 (i : Nat) : BufTy := match i % 128 with
  | 0 => ⟨S_, .i32⟩
  | 1 => ⟨S2048x1, .i32⟩
  | 2 => ⟨S2048x1, .i32⟩
  | 3 => ⟨S2048x1, .i32⟩
  | 4 => ⟨S2048x1x1, .i32⟩
  | 5 => ⟨S1, .i32⟩
  | 6 => ⟨S_, .i32⟩
  | 7 => ⟨S2048x1x1, .i32⟩
  | 8 => ⟨S2048x1x1, .i1⟩
  | 9 => ⟨S1x1x1, .i32⟩
  | 10 => ⟨S2048x1x1, .i32⟩
  | 11 => ⟨S2048x1x1, .i1⟩
  | 12 => ⟨S2048x1x1, .i1⟩
  | 13 => ⟨S_, .i1⟩
  | 14 => ⟨S2048x1, .i1⟩
  | 15 => ⟨S2048x1, .f32⟩
  | 16 => ⟨S_, .f32⟩
  | 17 => ⟨S2048x1, .f32⟩
  | 18 => ⟨S2048x1, .f32⟩
  | 19 => ⟨S2048, .f32⟩
  | 20 => ⟨S_, .f32⟩
  | 21 => ⟨S2048, .f32⟩
  | 22 => ⟨S2048, .f32⟩
  | 23 => ⟨S2048, .f32⟩
  | 24 => ⟨S2048, .f32⟩
  | 25 => ⟨S_, .i32⟩
  | 26 => ⟨S2048, .i32⟩
  | 27 => ⟨S2048, .i32⟩
  | 28 => ⟨S2048, .i32⟩
  | 29 => ⟨S2048, .i32⟩
  | 30 => ⟨S_, .i32⟩
  | 31 => ⟨S2048, .i32⟩
  | 32 => ⟨S2048, .i32⟩
  | 33 => ⟨S_, .i32⟩
  | 34 => ⟨S2048, .i32⟩
  | 35 => ⟨S2048, .i1⟩
  | 36 => ⟨S2048x1, .i32⟩
  | 37 => ⟨S_, .i32⟩
  | 38 => ⟨S2048x1, .i32⟩
  | 39 => ⟨S2048x1, .i1⟩
  | 40 => ⟨S_, .i32⟩
  | 41 => ⟨S2048x1, .i32⟩
  | 42 => ⟨S2048x1, .i32⟩
  | 43 => ⟨S2048x1, .i32⟩
  | 44 => ⟨S2048x1x1, .i32⟩
  | 45 => ⟨S1, .i32⟩
  | 46 => ⟨S_, .i32⟩
  | 47 => ⟨S2048x1x1, .i32⟩
  | 48 => ⟨S2048x1x1, .i1⟩
  | 49 => ⟨S1x1x1, .i32⟩
  | 50 => ⟨S2048x1x1, .i32⟩
  | 51 => ⟨S2048x1x1, .i1⟩
  | 52 => ⟨S2048x1x1, .i1⟩
  | 53 => ⟨S_, .i1⟩
  | 54 => ⟨S2048x1, .i1⟩
  | 55 => ⟨S2048x1, .f32⟩
  | 56 => ⟨S_, .f32⟩
  | 57 => ⟨S2048x1, .f32⟩
  | 58 => ⟨S2048x1, .f32⟩
  | 59 => ⟨S2048, .f32⟩
  | 60 => ⟨S_, .f32⟩
  | 61 => ⟨S2048, .f32⟩
  | 62 => ⟨S2048, .f32⟩
  | 63 => ⟨S2048, .f32⟩
  | 64 => ⟨S2048, .f32⟩
  | 65 => ⟨S_, .i32⟩
  | 66 => ⟨S2048, .i32⟩
  | 67 => ⟨S2048, .i32⟩
  | 68 => ⟨S2048, .i32⟩
  | 69 => ⟨S2048, .i32⟩
  | 70 => ⟨S_, .i32⟩
  | 71 => ⟨S2048, .i32⟩
  | 72 => ⟨S2048, .i32⟩
  | 73 => ⟨S_, .i32⟩
  | 74 => ⟨S2048, .i32⟩
  | 75 => ⟨S2048, .i1⟩
  | 76 => ⟨S2048x1, .i32⟩
  | 77 => ⟨S_, .i32⟩
  | 78 => ⟨S2048x1, .i32⟩
  | 79 => ⟨S2048x1, .i1⟩
  | 80 => ⟨S_, .i32⟩
  | 81 => ⟨S2048x1, .i32⟩
  | 82 => ⟨S2048x1, .i32⟩
  | 83 => ⟨S2048x1, .i32⟩
  | 84 => ⟨S2048x1x1, .i32⟩
  | 85 => ⟨S1, .i32⟩
  | 86 => ⟨S_, .i32⟩
  | 87 => ⟨S2048x1x1, .i32⟩
  | 88 => ⟨S2048x1x1, .i1⟩
  | 89 => ⟨S1x1x1, .i32⟩
  | 90 => ⟨S2048x1x1, .i32⟩
  | 91 => ⟨S2048x1x1, .i1⟩
  | 92 => ⟨S2048x1x1, .i1⟩
  | 93 => ⟨S_, .i1⟩
  | 94 => ⟨S2048x1, .i1⟩
  | 95 => ⟨S2048x1, .f32⟩
  | 96 => ⟨S_, .f32⟩
  | 97 => ⟨S2048x1, .f32⟩
  | 98 => ⟨S2048x1, .f32⟩
  | 99 => ⟨S2048, .f32⟩
  | 100 => ⟨S_, .f32⟩
  | 101 => ⟨S2048, .f32⟩
  | 102 => ⟨S2048, .f32⟩
  | 103 => ⟨S2048, .f32⟩
  | 104 => ⟨S2048, .f32⟩
  | 105 => ⟨S_, .i32⟩
  | 106 => ⟨S2048, .i32⟩
  | 107 => ⟨S2048, .i32⟩
  | 108 => ⟨S2048, .i32⟩
  | 109 => ⟨S2048, .i32⟩
  | 110 => ⟨S_, .i32⟩
  | 111 => ⟨S2048, .i32⟩
  | 112 => ⟨S2048, .i32⟩
  | 113 => ⟨S_, .i32⟩
  | 114 => ⟨S2048, .i32⟩
  | 115 => ⟨S2048, .i1⟩
  | 116 => ⟨S2048x1, .i32⟩
  | 117 => ⟨S_, .i32⟩
  | 118 => ⟨S2048x1, .i32⟩
  | 119 => ⟨S2048x1, .i1⟩
  | 120 => ⟨S_, .i32⟩
  | 121 => ⟨S2048x1, .i32⟩
  | 122 => ⟨S2048x1, .i32⟩
  | 123 => ⟨S2048x1, .i32⟩
  | 124 => ⟨S2048x1x1, .i32⟩
  | 125 => ⟨S1, .i32⟩
  | 126 => ⟨S_, .i32⟩
  | 127 => ⟨S2048x1x1, .i32⟩
  | _ => ⟨S2048x65536, .f32⟩

abbrev hbmTy0_4 (i : Nat) : BufTy := match i % 128 with
  | 0 => ⟨S2048x1x1, .i1⟩
  | 1 => ⟨S1x1x1, .i32⟩
  | 2 => ⟨S2048x1x1, .i32⟩
  | 3 => ⟨S2048x1x1, .i1⟩
  | 4 => ⟨S2048x1x1, .i1⟩
  | 5 => ⟨S_, .i1⟩
  | 6 => ⟨S2048x1, .i1⟩
  | 7 => ⟨S2048x1, .f32⟩
  | 8 => ⟨S_, .f32⟩
  | 9 => ⟨S2048x1, .f32⟩
  | 10 => ⟨S2048x1, .f32⟩
  | 11 => ⟨S2048, .f32⟩
  | 12 => ⟨S_, .f32⟩
  | 13 => ⟨S2048, .f32⟩
  | 14 => ⟨S2048, .f32⟩
  | 15 => ⟨S2048, .f32⟩
  | 16 => ⟨S2048, .f32⟩
  | 17 => ⟨S_, .i32⟩
  | 18 => ⟨S2048, .i32⟩
  | 19 => ⟨S2048, .i32⟩
  | 20 => ⟨S2048, .i32⟩
  | 21 => ⟨S2048, .i32⟩
  | 22 => ⟨S_, .i32⟩
  | 23 => ⟨S2048, .i32⟩
  | 24 => ⟨S2048, .i32⟩
  | 25 => ⟨S_, .i32⟩
  | 26 => ⟨S2048, .i32⟩
  | 27 => ⟨S2048, .i1⟩
  | 28 => ⟨S2048x1, .i32⟩
  | 29 => ⟨S_, .i32⟩
  | 30 => ⟨S2048x1, .i32⟩
  | 31 => ⟨S2048x1, .i1⟩
  | 32 => ⟨S_, .i32⟩
  | 33 => ⟨S2048x1, .i32⟩
  | 34 => ⟨S2048x1, .i32⟩
  | 35 => ⟨S2048x1, .i32⟩
  | 36 => ⟨S2048x1x1, .i32⟩
  | 37 => ⟨S1, .i32⟩
  | 38 => ⟨S_, .i32⟩
  | 39 => ⟨S2048x1x1, .i32⟩
  | 40 => ⟨S2048x1x1, .i1⟩
  | 41 => ⟨S1x1x1, .i32⟩
  | 42 => ⟨S2048x1x1, .i32⟩
  | 43 => ⟨S2048x1x1, .i1⟩
  | 44 => ⟨S2048x1x1, .i1⟩
  | 45 => ⟨S_, .i1⟩
  | 46 => ⟨S2048x1, .i1⟩
  | 47 => ⟨S2048x1, .f32⟩
  | 48 => ⟨S_, .f32⟩
  | 49 => ⟨S2048x1, .f32⟩
  | 50 => ⟨S2048x1, .f32⟩
  | 51 => ⟨S2048, .f32⟩
  | 52 => ⟨S_, .f32⟩
  | 53 => ⟨S2048, .f32⟩
  | 54 => ⟨S2048, .f32⟩
  | 55 => ⟨S2048, .f32⟩
  | 56 => ⟨S2048, .f32⟩
  | 57 => ⟨S_, .i32⟩
  | 58 => ⟨S2048, .i32⟩
  | 59 => ⟨S2048, .i32⟩
  | 60 => ⟨S2048, .i32⟩
  | 61 => ⟨S2048, .i32⟩
  | 62 => ⟨S_, .i32⟩
  | 63 => ⟨S2048, .i32⟩
  | 64 => ⟨S2048, .i32⟩
  | 65 => ⟨S_, .i32⟩
  | 66 => ⟨S2048, .i32⟩
  | 67 => ⟨S2048, .i1⟩
  | 68 => ⟨S2048x1, .i32⟩
  | 69 => ⟨S_, .i32⟩
  | 70 => ⟨S2048x1, .i32⟩
  | 71 => ⟨S2048x1, .i1⟩
  | 72 => ⟨S_, .i32⟩
  | 73 => ⟨S2048x1, .i32⟩
  | 74 => ⟨S2048x1, .i32⟩
  | 75 => ⟨S2048x1, .i32⟩
  | 76 => ⟨S2048x1x1, .i32⟩
  | 77 => ⟨S1, .i32⟩
  | 78 => ⟨S_, .i32⟩
  | 79 => ⟨S2048x1x1, .i32⟩
  | 80 => ⟨S2048x1x1, .i1⟩
  | 81 => ⟨S1x1x1, .i32⟩
  | 82 => ⟨S2048x1x1, .i32⟩
  | 83 => ⟨S2048x1x1, .i1⟩
  | 84 => ⟨S2048x1x1, .i1⟩
  | 85 => ⟨S_, .i1⟩
  | 86 => ⟨S2048x1, .i1⟩
  | 87 => ⟨S2048x1, .f32⟩
  | 88 => ⟨S_, .f32⟩
  | 89 => ⟨S2048x1, .f32⟩
  | 90 => ⟨S2048x1, .f32⟩
  | 91 => ⟨S2048, .f32⟩
  | 92 => ⟨S_, .f32⟩
  | 93 => ⟨S2048, .f32⟩
  | 94 => ⟨S2048, .f32⟩
  | 95 => ⟨S2048, .f32⟩
  | 96 => ⟨S2048, .f32⟩
  | 97 => ⟨S_, .i32⟩
  | 98 => ⟨S2048, .i32⟩
  | 99 => ⟨S2048, .i32⟩
  | 100 => ⟨S2048, .i32⟩
  | 101 => ⟨S2048, .i32⟩
  | 102 => ⟨S_, .i32⟩
  | 103 => ⟨S2048, .i32⟩
  | 104 => ⟨S2048, .i32⟩
  | 105 => ⟨S_, .i32⟩
  | 106 => ⟨S2048, .i32⟩
  | 107 => ⟨S2048, .i1⟩
  | 108 => ⟨S2048x1, .i32⟩
  | 109 => ⟨S_, .i32⟩
  | 110 => ⟨S2048x1, .i32⟩
  | 111 => ⟨S2048x1, .i1⟩
  | 112 => ⟨S_, .i32⟩
  | 113 => ⟨S2048x1, .i32⟩
  | 114 => ⟨S2048x1, .i32⟩
  | 115 => ⟨S2048x1, .i32⟩
  | 116 => ⟨S2048x1x1, .i32⟩
  | 117 => ⟨S1, .i32⟩
  | 118 => ⟨S_, .i32⟩
  | 119 => ⟨S2048x1x1, .i32⟩
  | 120 => ⟨S2048x1x1, .i1⟩
  | 121 => ⟨S1x1x1, .i32⟩
  | 122 => ⟨S2048x1x1, .i32⟩
  | 123 => ⟨S2048x1x1, .i1⟩
  | 124 => ⟨S2048x1x1, .i1⟩
  | 125 => ⟨S_, .i1⟩
  | 126 => ⟨S2048x1, .i1⟩
  | 127 => ⟨S2048x1, .f32⟩
  | _ => ⟨S2048x65536, .f32⟩

abbrev hbmTy0_5 (i : Nat) : BufTy := match i % 128 with
  | 0 => ⟨S_, .f32⟩
  | 1 => ⟨S2048x1, .f32⟩
  | 2 => ⟨S2048x1, .f32⟩
  | 3 => ⟨S2048, .f32⟩
  | 4 => ⟨S_, .f32⟩
  | 5 => ⟨S2048, .f32⟩
  | 6 => ⟨S2048, .f32⟩
  | 7 => ⟨S2048, .f32⟩
  | 8 => ⟨S2048, .f32⟩
  | 9 => ⟨S_, .i32⟩
  | 10 => ⟨S2048, .i32⟩
  | 11 => ⟨S2048, .i32⟩
  | 12 => ⟨S2048, .i32⟩
  | 13 => ⟨S2048, .i32⟩
  | 14 => ⟨S2048, .f32⟩
  | 15 => ⟨S2048, .f32⟩
  | 16 => ⟨S_, .f32⟩
  | 17 => ⟨S_, .f32⟩
  | 18 => ⟨S_, .f32⟩
  | 19 => ⟨S_, .f32⟩
  | _ => ⟨S2048x65536, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | _ => ⟨S2048x65536, .f32⟩

abbrev bufTy : (tb : Table) → Fin (tcTables nBuf tb) → BufTy
  | .hbm, ⟨i, _⟩ => hbmTy i
  | _, _ => ⟨S2048x65536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_c : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_c_2 : Ref sig .tc := ⟨.hbm, 14, rfl⟩
abbrev main_v8 : Ref sig .tc := ⟨.hbm, 15, rfl⟩
abbrev main_v9 : Ref sig .tc := ⟨.hbm, 16, rfl⟩
abbrev main_c_3 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_call0_c : Ref sig .tc := ⟨.hbm, 21, rfl⟩
abbrev main_call0_v0 : Ref sig .tc := ⟨.hbm, 22, rfl⟩
abbrev main_call0_v1 : Ref sig .tc := ⟨.hbm, 23, rfl⟩
abbrev main_call0_c_0 : Ref sig .tc := ⟨.hbm, 24, rfl⟩
abbrev main_call0_v2 : Ref sig .tc := ⟨.hbm, 25, rfl⟩
abbrev main_call0_v3 : Ref sig .tc := ⟨.hbm, 26, rfl⟩
abbrev main_call0_v4 : Ref sig .tc := ⟨.hbm, 27, rfl⟩
abbrev main_call0_v5 : Ref sig .tc := ⟨.hbm, 28, rfl⟩
abbrev main_call0_c_1 : Ref sig .tc := ⟨.hbm, 29, rfl⟩
abbrev main_call0_c_2 : Ref sig .tc := ⟨.hbm, 30, rfl⟩
abbrev main_call0_v6 : Ref sig .tc := ⟨.hbm, 31, rfl⟩
abbrev main_call0_v7 : Ref sig .tc := ⟨.hbm, 32, rfl⟩
abbrev main_call0_v8 : Ref sig .tc := ⟨.hbm, 33, rfl⟩
abbrev main_call0_v9 : Ref sig .tc := ⟨.hbm, 34, rfl⟩
abbrev main_call0_v10 : Ref sig .tc := ⟨.hbm, 35, rfl⟩
abbrev main_call0_v11 : Ref sig .tc := ⟨.hbm, 36, rfl⟩
abbrev main_call0_c_3 : Ref sig .tc := ⟨.hbm, 37, rfl⟩
abbrev main_call0_v12 : Ref sig .tc := ⟨.hbm, 38, rfl⟩
abbrev main_call0_v13 : Ref sig .tc := ⟨.hbm, 39, rfl⟩
abbrev main_call0_cst : Ref sig .tc := ⟨.hbm, 40, rfl⟩
abbrev main_call0_v14 : Ref sig .tc := ⟨.hbm, 41, rfl⟩
abbrev main_v13 : Ref sig .tc := ⟨.hbm, 42, rfl⟩
abbrev main_v14 : Ref sig .tc := ⟨.hbm, 43, rfl⟩
abbrev main_cst_4 : Ref sig .tc := ⟨.hbm, 44, rfl⟩
abbrev main_v15 : Ref sig .tc := ⟨.hbm, 45, rfl⟩
abbrev main_v16 : Ref sig .tc := ⟨.hbm, 46, rfl⟩
abbrev main_v17 : Ref sig .tc := ⟨.hbm, 47, rfl⟩
abbrev main_v18 : Ref sig .tc := ⟨.hbm, 48, rfl⟩
abbrev main_c_5 : Ref sig .tc := ⟨.hbm, 49, rfl⟩
abbrev main_v19 : Ref sig .tc := ⟨.hbm, 50, rfl⟩
abbrev main_v20 : Ref sig .tc := ⟨.hbm, 51, rfl⟩
abbrev main_v21 : Ref sig .tc := ⟨.hbm, 52, rfl⟩
abbrev main_v22 : Ref sig .tc := ⟨.hbm, 53, rfl⟩
abbrev main_c_6 : Ref sig .tc := ⟨.hbm, 54, rfl⟩
abbrev main_v23 : Ref sig .tc := ⟨.hbm, 55, rfl⟩
abbrev main_v24 : Ref sig .tc := ⟨.hbm, 56, rfl⟩
abbrev main_c_7 : Ref sig .tc := ⟨.hbm, 57, rfl⟩
abbrev main_v25 : Ref sig .tc := ⟨.hbm, 58, rfl⟩
abbrev main_v26 : Ref sig .tc := ⟨.hbm, 59, rfl⟩
abbrev main_v27 : Ref sig .tc := ⟨.hbm, 60, rfl⟩
abbrev main_call2_c : Ref sig .tc := ⟨.hbm, 61, rfl⟩
abbrev main_call2_v0 : Ref sig .tc := ⟨.hbm, 62, rfl⟩
abbrev main_call2_v1 : Ref sig .tc := ⟨.hbm, 63, rfl⟩
abbrev main_call2_c_0 : Ref sig .tc := ⟨.hbm, 64, rfl⟩
abbrev main_call2_v2 : Ref sig .tc := ⟨.hbm, 65, rfl⟩
abbrev main_call2_v3 : Ref sig .tc := ⟨.hbm, 66, rfl⟩
abbrev main_call2_v4 : Ref sig .tc := ⟨.hbm, 67, rfl⟩
abbrev main_call2_v5 : Ref sig .tc := ⟨.hbm, 68, rfl⟩
abbrev main_call2_c_1 : Ref sig .tc := ⟨.hbm, 69, rfl⟩
abbrev main_call2_c_2 : Ref sig .tc := ⟨.hbm, 70, rfl⟩
abbrev main_call2_v6 : Ref sig .tc := ⟨.hbm, 71, rfl⟩
abbrev main_call2_v7 : Ref sig .tc := ⟨.hbm, 72, rfl⟩
abbrev main_call2_v8 : Ref sig .tc := ⟨.hbm, 73, rfl⟩
abbrev main_call2_v9 : Ref sig .tc := ⟨.hbm, 74, rfl⟩
abbrev main_call2_v10 : Ref sig .tc := ⟨.hbm, 75, rfl⟩
abbrev main_call2_v11 : Ref sig .tc := ⟨.hbm, 76, rfl⟩
abbrev main_call2_c_3 : Ref sig .tc := ⟨.hbm, 77, rfl⟩
abbrev main_call2_v12 : Ref sig .tc := ⟨.hbm, 78, rfl⟩
abbrev main_call2_v13 : Ref sig .tc := ⟨.hbm, 79, rfl⟩
abbrev main_call2_cst : Ref sig .tc := ⟨.hbm, 80, rfl⟩
abbrev main_call2_v14 : Ref sig .tc := ⟨.hbm, 81, rfl⟩
abbrev main_v28 : Ref sig .tc := ⟨.hbm, 82, rfl⟩
abbrev main_v29 : Ref sig .tc := ⟨.hbm, 83, rfl⟩
abbrev main_cst_8 : Ref sig .tc := ⟨.hbm, 84, rfl⟩
abbrev main_v30 : Ref sig .tc := ⟨.hbm, 85, rfl⟩
abbrev main_v31 : Ref sig .tc := ⟨.hbm, 86, rfl⟩
abbrev main_v32 : Ref sig .tc := ⟨.hbm, 87, rfl⟩
abbrev main_v33 : Ref sig .tc := ⟨.hbm, 88, rfl⟩
abbrev main_c_9 : Ref sig .tc := ⟨.hbm, 89, rfl⟩
abbrev main_v34 : Ref sig .tc := ⟨.hbm, 90, rfl⟩
abbrev main_v35 : Ref sig .tc := ⟨.hbm, 91, rfl⟩
abbrev main_v36 : Ref sig .tc := ⟨.hbm, 92, rfl⟩
abbrev main_v37 : Ref sig .tc := ⟨.hbm, 93, rfl⟩
abbrev main_c_10 : Ref sig .tc := ⟨.hbm, 94, rfl⟩
abbrev main_v38 : Ref sig .tc := ⟨.hbm, 95, rfl⟩
abbrev main_v39 : Ref sig .tc := ⟨.hbm, 96, rfl⟩
abbrev main_c_11 : Ref sig .tc := ⟨.hbm, 97, rfl⟩
abbrev main_v40 : Ref sig .tc := ⟨.hbm, 98, rfl⟩
abbrev main_v41 : Ref sig .tc := ⟨.hbm, 99, rfl⟩
abbrev main_v42 : Ref sig .tc := ⟨.hbm, 100, rfl⟩
abbrev main_call4_c : Ref sig .tc := ⟨.hbm, 101, rfl⟩
abbrev main_call4_v0 : Ref sig .tc := ⟨.hbm, 102, rfl⟩
abbrev main_call4_v1 : Ref sig .tc := ⟨.hbm, 103, rfl⟩
abbrev main_call4_c_0 : Ref sig .tc := ⟨.hbm, 104, rfl⟩
abbrev main_call4_v2 : Ref sig .tc := ⟨.hbm, 105, rfl⟩
abbrev main_call4_v3 : Ref sig .tc := ⟨.hbm, 106, rfl⟩
abbrev main_call4_v4 : Ref sig .tc := ⟨.hbm, 107, rfl⟩
abbrev main_call4_v5 : Ref sig .tc := ⟨.hbm, 108, rfl⟩
abbrev main_call4_c_1 : Ref sig .tc := ⟨.hbm, 109, rfl⟩
abbrev main_call4_c_2 : Ref sig .tc := ⟨.hbm, 110, rfl⟩
abbrev main_call4_v6 : Ref sig .tc := ⟨.hbm, 111, rfl⟩
abbrev main_call4_v7 : Ref sig .tc := ⟨.hbm, 112, rfl⟩
abbrev main_call4_v8 : Ref sig .tc := ⟨.hbm, 113, rfl⟩
abbrev main_call4_v9 : Ref sig .tc := ⟨.hbm, 114, rfl⟩
abbrev main_call4_v10 : Ref sig .tc := ⟨.hbm, 115, rfl⟩
abbrev main_call4_v11 : Ref sig .tc := ⟨.hbm, 116, rfl⟩
abbrev main_call4_c_3 : Ref sig .tc := ⟨.hbm, 117, rfl⟩
abbrev main_call4_v12 : Ref sig .tc := ⟨.hbm, 118, rfl⟩
abbrev main_call4_v13 : Ref sig .tc := ⟨.hbm, 119, rfl⟩
abbrev main_call4_cst : Ref sig .tc := ⟨.hbm, 120, rfl⟩
abbrev main_call4_v14 : Ref sig .tc := ⟨.hbm, 121, rfl⟩
abbrev main_v43 : Ref sig .tc := ⟨.hbm, 122, rfl⟩
abbrev main_v44 : Ref sig .tc := ⟨.hbm, 123, rfl⟩
abbrev main_cst_12 : Ref sig .tc := ⟨.hbm, 124, rfl⟩
abbrev main_v45 : Ref sig .tc := ⟨.hbm, 125, rfl⟩
abbrev main_v46 : Ref sig .tc := ⟨.hbm, 126, rfl⟩
abbrev main_v47 : Ref sig .tc := ⟨.hbm, 127, rfl⟩
abbrev main_v48 : Ref sig .tc := ⟨.hbm, 128, rfl⟩
abbrev main_c_13 : Ref sig .tc := ⟨.hbm, 129, rfl⟩
abbrev main_v49 : Ref sig .tc := ⟨.hbm, 130, rfl⟩
abbrev main_v50 : Ref sig .tc := ⟨.hbm, 131, rfl⟩
abbrev main_v51 : Ref sig .tc := ⟨.hbm, 132, rfl⟩
abbrev main_v52 : Ref sig .tc := ⟨.hbm, 133, rfl⟩
abbrev main_c_14 : Ref sig .tc := ⟨.hbm, 134, rfl⟩
abbrev main_v53 : Ref sig .tc := ⟨.hbm, 135, rfl⟩
abbrev main_v54 : Ref sig .tc := ⟨.hbm, 136, rfl⟩
abbrev main_c_15 : Ref sig .tc := ⟨.hbm, 137, rfl⟩
abbrev main_v55 : Ref sig .tc := ⟨.hbm, 138, rfl⟩
abbrev main_v56 : Ref sig .tc := ⟨.hbm, 139, rfl⟩
abbrev main_v57 : Ref sig .tc := ⟨.hbm, 140, rfl⟩
abbrev main_call6_c : Ref sig .tc := ⟨.hbm, 141, rfl⟩
abbrev main_call6_v0 : Ref sig .tc := ⟨.hbm, 142, rfl⟩
abbrev main_call6_v1 : Ref sig .tc := ⟨.hbm, 143, rfl⟩
abbrev main_call6_c_0 : Ref sig .tc := ⟨.hbm, 144, rfl⟩
abbrev main_call6_v2 : Ref sig .tc := ⟨.hbm, 145, rfl⟩
abbrev main_call6_v3 : Ref sig .tc := ⟨.hbm, 146, rfl⟩
abbrev main_call6_v4 : Ref sig .tc := ⟨.hbm, 147, rfl⟩
abbrev main_call6_v5 : Ref sig .tc := ⟨.hbm, 148, rfl⟩
abbrev main_call6_c_1 : Ref sig .tc := ⟨.hbm, 149, rfl⟩
abbrev main_call6_c_2 : Ref sig .tc := ⟨.hbm, 150, rfl⟩
abbrev main_call6_v6 : Ref sig .tc := ⟨.hbm, 151, rfl⟩
abbrev main_call6_v7 : Ref sig .tc := ⟨.hbm, 152, rfl⟩
abbrev main_call6_v8 : Ref sig .tc := ⟨.hbm, 153, rfl⟩
abbrev main_call6_v9 : Ref sig .tc := ⟨.hbm, 154, rfl⟩
abbrev main_call6_v10 : Ref sig .tc := ⟨.hbm, 155, rfl⟩
abbrev main_call6_v11 : Ref sig .tc := ⟨.hbm, 156, rfl⟩
abbrev main_call6_c_3 : Ref sig .tc := ⟨.hbm, 157, rfl⟩
abbrev main_call6_v12 : Ref sig .tc := ⟨.hbm, 158, rfl⟩
abbrev main_call6_v13 : Ref sig .tc := ⟨.hbm, 159, rfl⟩
abbrev main_call6_cst : Ref sig .tc := ⟨.hbm, 160, rfl⟩
abbrev main_call6_v14 : Ref sig .tc := ⟨.hbm, 161, rfl⟩
abbrev main_v58 : Ref sig .tc := ⟨.hbm, 162, rfl⟩
abbrev main_v59 : Ref sig .tc := ⟨.hbm, 163, rfl⟩
abbrev main_cst_16 : Ref sig .tc := ⟨.hbm, 164, rfl⟩
abbrev main_v60 : Ref sig .tc := ⟨.hbm, 165, rfl⟩
abbrev main_v61 : Ref sig .tc := ⟨.hbm, 166, rfl⟩
abbrev main_v62 : Ref sig .tc := ⟨.hbm, 167, rfl⟩
abbrev main_v63 : Ref sig .tc := ⟨.hbm, 168, rfl⟩
abbrev main_c_17 : Ref sig .tc := ⟨.hbm, 169, rfl⟩
abbrev main_v64 : Ref sig .tc := ⟨.hbm, 170, rfl⟩
abbrev main_v65 : Ref sig .tc := ⟨.hbm, 171, rfl⟩
abbrev main_v66 : Ref sig .tc := ⟨.hbm, 172, rfl⟩
abbrev main_v67 : Ref sig .tc := ⟨.hbm, 173, rfl⟩
abbrev main_c_18 : Ref sig .tc := ⟨.hbm, 174, rfl⟩
abbrev main_v68 : Ref sig .tc := ⟨.hbm, 175, rfl⟩
abbrev main_v69 : Ref sig .tc := ⟨.hbm, 176, rfl⟩
abbrev main_c_19 : Ref sig .tc := ⟨.hbm, 177, rfl⟩
abbrev main_v70 : Ref sig .tc := ⟨.hbm, 178, rfl⟩
abbrev main_v71 : Ref sig .tc := ⟨.hbm, 179, rfl⟩
abbrev main_v72 : Ref sig .tc := ⟨.hbm, 180, rfl⟩
abbrev main_call8_c : Ref sig .tc := ⟨.hbm, 181, rfl⟩
abbrev main_call8_v0 : Ref sig .tc := ⟨.hbm, 182, rfl⟩
abbrev main_call8_v1 : Ref sig .tc := ⟨.hbm, 183, rfl⟩
abbrev main_call8_c_0 : Ref sig .tc := ⟨.hbm, 184, rfl⟩
abbrev main_call8_v2 : Ref sig .tc := ⟨.hbm, 185, rfl⟩
abbrev main_call8_v3 : Ref sig .tc := ⟨.hbm, 186, rfl⟩
abbrev main_call8_v4 : Ref sig .tc := ⟨.hbm, 187, rfl⟩
abbrev main_call8_v5 : Ref sig .tc := ⟨.hbm, 188, rfl⟩
abbrev main_call8_c_1 : Ref sig .tc := ⟨.hbm, 189, rfl⟩
abbrev main_call8_c_2 : Ref sig .tc := ⟨.hbm, 190, rfl⟩
abbrev main_call8_v6 : Ref sig .tc := ⟨.hbm, 191, rfl⟩
abbrev main_call8_v7 : Ref sig .tc := ⟨.hbm, 192, rfl⟩
abbrev main_call8_v8 : Ref sig .tc := ⟨.hbm, 193, rfl⟩
abbrev main_call8_v9 : Ref sig .tc := ⟨.hbm, 194, rfl⟩
abbrev main_call8_v10 : Ref sig .tc := ⟨.hbm, 195, rfl⟩
abbrev main_call8_v11 : Ref sig .tc := ⟨.hbm, 196, rfl⟩
abbrev main_call8_c_3 : Ref sig .tc := ⟨.hbm, 197, rfl⟩
abbrev main_call8_v12 : Ref sig .tc := ⟨.hbm, 198, rfl⟩
abbrev main_call8_v13 : Ref sig .tc := ⟨.hbm, 199, rfl⟩
abbrev main_call8_cst : Ref sig .tc := ⟨.hbm, 200, rfl⟩
abbrev main_call8_v14 : Ref sig .tc := ⟨.hbm, 201, rfl⟩
abbrev main_v73 : Ref sig .tc := ⟨.hbm, 202, rfl⟩
abbrev main_v74 : Ref sig .tc := ⟨.hbm, 203, rfl⟩
abbrev main_cst_20 : Ref sig .tc := ⟨.hbm, 204, rfl⟩
abbrev main_v75 : Ref sig .tc := ⟨.hbm, 205, rfl⟩
abbrev main_v76 : Ref sig .tc := ⟨.hbm, 206, rfl⟩
abbrev main_v77 : Ref sig .tc := ⟨.hbm, 207, rfl⟩
abbrev main_v78 : Ref sig .tc := ⟨.hbm, 208, rfl⟩
abbrev main_c_21 : Ref sig .tc := ⟨.hbm, 209, rfl⟩
abbrev main_v79 : Ref sig .tc := ⟨.hbm, 210, rfl⟩
abbrev main_v80 : Ref sig .tc := ⟨.hbm, 211, rfl⟩
abbrev main_v81 : Ref sig .tc := ⟨.hbm, 212, rfl⟩
abbrev main_v82 : Ref sig .tc := ⟨.hbm, 213, rfl⟩
abbrev main_c_22 : Ref sig .tc := ⟨.hbm, 214, rfl⟩
abbrev main_v83 : Ref sig .tc := ⟨.hbm, 215, rfl⟩
abbrev main_v84 : Ref sig .tc := ⟨.hbm, 216, rfl⟩
abbrev main_c_23 : Ref sig .tc := ⟨.hbm, 217, rfl⟩
abbrev main_v85 : Ref sig .tc := ⟨.hbm, 218, rfl⟩
abbrev main_v86 : Ref sig .tc := ⟨.hbm, 219, rfl⟩
abbrev main_v87 : Ref sig .tc := ⟨.hbm, 220, rfl⟩
abbrev main_call10_c : Ref sig .tc := ⟨.hbm, 221, rfl⟩
abbrev main_call10_v0 : Ref sig .tc := ⟨.hbm, 222, rfl⟩
abbrev main_call10_v1 : Ref sig .tc := ⟨.hbm, 223, rfl⟩
abbrev main_call10_c_0 : Ref sig .tc := ⟨.hbm, 224, rfl⟩
abbrev main_call10_v2 : Ref sig .tc := ⟨.hbm, 225, rfl⟩
abbrev main_call10_v3 : Ref sig .tc := ⟨.hbm, 226, rfl⟩
abbrev main_call10_v4 : Ref sig .tc := ⟨.hbm, 227, rfl⟩
abbrev main_call10_v5 : Ref sig .tc := ⟨.hbm, 228, rfl⟩
abbrev main_call10_c_1 : Ref sig .tc := ⟨.hbm, 229, rfl⟩
abbrev main_call10_c_2 : Ref sig .tc := ⟨.hbm, 230, rfl⟩
abbrev main_call10_v6 : Ref sig .tc := ⟨.hbm, 231, rfl⟩
abbrev main_call10_v7 : Ref sig .tc := ⟨.hbm, 232, rfl⟩
abbrev main_call10_v8 : Ref sig .tc := ⟨.hbm, 233, rfl⟩
abbrev main_call10_v9 : Ref sig .tc := ⟨.hbm, 234, rfl⟩
abbrev main_call10_v10 : Ref sig .tc := ⟨.hbm, 235, rfl⟩
abbrev main_call10_v11 : Ref sig .tc := ⟨.hbm, 236, rfl⟩
abbrev main_call10_c_3 : Ref sig .tc := ⟨.hbm, 237, rfl⟩
abbrev main_call10_v12 : Ref sig .tc := ⟨.hbm, 238, rfl⟩
abbrev main_call10_v13 : Ref sig .tc := ⟨.hbm, 239, rfl⟩
abbrev main_call10_cst : Ref sig .tc := ⟨.hbm, 240, rfl⟩
abbrev main_call10_v14 : Ref sig .tc := ⟨.hbm, 241, rfl⟩
abbrev main_v88 : Ref sig .tc := ⟨.hbm, 242, rfl⟩
abbrev main_v89 : Ref sig .tc := ⟨.hbm, 243, rfl⟩
abbrev main_cst_24 : Ref sig .tc := ⟨.hbm, 244, rfl⟩
abbrev main_v90 : Ref sig .tc := ⟨.hbm, 245, rfl⟩
abbrev main_v91 : Ref sig .tc := ⟨.hbm, 246, rfl⟩
abbrev main_v92 : Ref sig .tc := ⟨.hbm, 247, rfl⟩
abbrev main_v93 : Ref sig .tc := ⟨.hbm, 248, rfl⟩
abbrev main_c_25 : Ref sig .tc := ⟨.hbm, 249, rfl⟩
abbrev main_v94 : Ref sig .tc := ⟨.hbm, 250, rfl⟩
abbrev main_v95 : Ref sig .tc := ⟨.hbm, 251, rfl⟩
abbrev main_v96 : Ref sig .tc := ⟨.hbm, 252, rfl⟩
abbrev main_v97 : Ref sig .tc := ⟨.hbm, 253, rfl⟩
abbrev main_c_26 : Ref sig .tc := ⟨.hbm, 254, rfl⟩
abbrev main_v98 : Ref sig .tc := ⟨.hbm, 255, rfl⟩
abbrev main_v99 : Ref sig .tc := ⟨.hbm, 256, rfl⟩
abbrev main_c_27 : Ref sig .tc := ⟨.hbm, 257, rfl⟩
abbrev main_v100 : Ref sig .tc := ⟨.hbm, 258, rfl⟩
abbrev main_v101 : Ref sig .tc := ⟨.hbm, 259, rfl⟩
abbrev main_v102 : Ref sig .tc := ⟨.hbm, 260, rfl⟩
abbrev main_call12_c : Ref sig .tc := ⟨.hbm, 261, rfl⟩
abbrev main_call12_v0 : Ref sig .tc := ⟨.hbm, 262, rfl⟩
abbrev main_call12_v1 : Ref sig .tc := ⟨.hbm, 263, rfl⟩
abbrev main_call12_c_0 : Ref sig .tc := ⟨.hbm, 264, rfl⟩
abbrev main_call12_v2 : Ref sig .tc := ⟨.hbm, 265, rfl⟩
abbrev main_call12_v3 : Ref sig .tc := ⟨.hbm, 266, rfl⟩
abbrev main_call12_v4 : Ref sig .tc := ⟨.hbm, 267, rfl⟩
abbrev main_call12_v5 : Ref sig .tc := ⟨.hbm, 268, rfl⟩
abbrev main_call12_c_1 : Ref sig .tc := ⟨.hbm, 269, rfl⟩
abbrev main_call12_c_2 : Ref sig .tc := ⟨.hbm, 270, rfl⟩
abbrev main_call12_v6 : Ref sig .tc := ⟨.hbm, 271, rfl⟩
abbrev main_call12_v7 : Ref sig .tc := ⟨.hbm, 272, rfl⟩
abbrev main_call12_v8 : Ref sig .tc := ⟨.hbm, 273, rfl⟩
abbrev main_call12_v9 : Ref sig .tc := ⟨.hbm, 274, rfl⟩
abbrev main_call12_v10 : Ref sig .tc := ⟨.hbm, 275, rfl⟩
abbrev main_call12_v11 : Ref sig .tc := ⟨.hbm, 276, rfl⟩
abbrev main_call12_c_3 : Ref sig .tc := ⟨.hbm, 277, rfl⟩
abbrev main_call12_v12 : Ref sig .tc := ⟨.hbm, 278, rfl⟩
abbrev main_call12_v13 : Ref sig .tc := ⟨.hbm, 279, rfl⟩
abbrev main_call12_cst : Ref sig .tc := ⟨.hbm, 280, rfl⟩
abbrev main_call12_v14 : Ref sig .tc := ⟨.hbm, 281, rfl⟩
abbrev main_v103 : Ref sig .tc := ⟨.hbm, 282, rfl⟩
abbrev main_v104 : Ref sig .tc := ⟨.hbm, 283, rfl⟩
abbrev main_cst_28 : Ref sig .tc := ⟨.hbm, 284, rfl⟩
abbrev main_v105 : Ref sig .tc := ⟨.hbm, 285, rfl⟩
abbrev main_v106 : Ref sig .tc := ⟨.hbm, 286, rfl⟩
abbrev main_v107 : Ref sig .tc := ⟨.hbm, 287, rfl⟩
abbrev main_v108 : Ref sig .tc := ⟨.hbm, 288, rfl⟩
abbrev main_c_29 : Ref sig .tc := ⟨.hbm, 289, rfl⟩
abbrev main_v109 : Ref sig .tc := ⟨.hbm, 290, rfl⟩
abbrev main_v110 : Ref sig .tc := ⟨.hbm, 291, rfl⟩
abbrev main_v111 : Ref sig .tc := ⟨.hbm, 292, rfl⟩
abbrev main_v112 : Ref sig .tc := ⟨.hbm, 293, rfl⟩
abbrev main_c_30 : Ref sig .tc := ⟨.hbm, 294, rfl⟩
abbrev main_v113 : Ref sig .tc := ⟨.hbm, 295, rfl⟩
abbrev main_v114 : Ref sig .tc := ⟨.hbm, 296, rfl⟩
abbrev main_c_31 : Ref sig .tc := ⟨.hbm, 297, rfl⟩
abbrev main_v115 : Ref sig .tc := ⟨.hbm, 298, rfl⟩
abbrev main_v116 : Ref sig .tc := ⟨.hbm, 299, rfl⟩
abbrev main_v117 : Ref sig .tc := ⟨.hbm, 300, rfl⟩
abbrev main_call14_c : Ref sig .tc := ⟨.hbm, 301, rfl⟩
abbrev main_call14_v0 : Ref sig .tc := ⟨.hbm, 302, rfl⟩
abbrev main_call14_v1 : Ref sig .tc := ⟨.hbm, 303, rfl⟩
abbrev main_call14_c_0 : Ref sig .tc := ⟨.hbm, 304, rfl⟩
abbrev main_call14_v2 : Ref sig .tc := ⟨.hbm, 305, rfl⟩
abbrev main_call14_v3 : Ref sig .tc := ⟨.hbm, 306, rfl⟩
abbrev main_call14_v4 : Ref sig .tc := ⟨.hbm, 307, rfl⟩
abbrev main_call14_v5 : Ref sig .tc := ⟨.hbm, 308, rfl⟩
abbrev main_call14_c_1 : Ref sig .tc := ⟨.hbm, 309, rfl⟩
abbrev main_call14_c_2 : Ref sig .tc := ⟨.hbm, 310, rfl⟩
abbrev main_call14_v6 : Ref sig .tc := ⟨.hbm, 311, rfl⟩
abbrev main_call14_v7 : Ref sig .tc := ⟨.hbm, 312, rfl⟩
abbrev main_call14_v8 : Ref sig .tc := ⟨.hbm, 313, rfl⟩
abbrev main_call14_v9 : Ref sig .tc := ⟨.hbm, 314, rfl⟩
abbrev main_call14_v10 : Ref sig .tc := ⟨.hbm, 315, rfl⟩
abbrev main_call14_v11 : Ref sig .tc := ⟨.hbm, 316, rfl⟩
abbrev main_call14_c_3 : Ref sig .tc := ⟨.hbm, 317, rfl⟩
abbrev main_call14_v12 : Ref sig .tc := ⟨.hbm, 318, rfl⟩
abbrev main_call14_v13 : Ref sig .tc := ⟨.hbm, 319, rfl⟩
abbrev main_call14_cst : Ref sig .tc := ⟨.hbm, 320, rfl⟩
abbrev main_call14_v14 : Ref sig .tc := ⟨.hbm, 321, rfl⟩
abbrev main_v118 : Ref sig .tc := ⟨.hbm, 322, rfl⟩
abbrev main_v119 : Ref sig .tc := ⟨.hbm, 323, rfl⟩
abbrev main_cst_32 : Ref sig .tc := ⟨.hbm, 324, rfl⟩
abbrev main_v120 : Ref sig .tc := ⟨.hbm, 325, rfl⟩
abbrev main_v121 : Ref sig .tc := ⟨.hbm, 326, rfl⟩
abbrev main_v122 : Ref sig .tc := ⟨.hbm, 327, rfl⟩
abbrev main_v123 : Ref sig .tc := ⟨.hbm, 328, rfl⟩
abbrev main_c_33 : Ref sig .tc := ⟨.hbm, 329, rfl⟩
abbrev main_v124 : Ref sig .tc := ⟨.hbm, 330, rfl⟩
abbrev main_v125 : Ref sig .tc := ⟨.hbm, 331, rfl⟩
abbrev main_v126 : Ref sig .tc := ⟨.hbm, 332, rfl⟩
abbrev main_v127 : Ref sig .tc := ⟨.hbm, 333, rfl⟩
abbrev main_c_34 : Ref sig .tc := ⟨.hbm, 334, rfl⟩
abbrev main_v128 : Ref sig .tc := ⟨.hbm, 335, rfl⟩
abbrev main_v129 : Ref sig .tc := ⟨.hbm, 336, rfl⟩
abbrev main_c_35 : Ref sig .tc := ⟨.hbm, 337, rfl⟩
abbrev main_v130 : Ref sig .tc := ⟨.hbm, 338, rfl⟩
abbrev main_v131 : Ref sig .tc := ⟨.hbm, 339, rfl⟩
abbrev main_v132 : Ref sig .tc := ⟨.hbm, 340, rfl⟩
abbrev main_call16_c : Ref sig .tc := ⟨.hbm, 341, rfl⟩
abbrev main_call16_v0 : Ref sig .tc := ⟨.hbm, 342, rfl⟩
abbrev main_call16_v1 : Ref sig .tc := ⟨.hbm, 343, rfl⟩
abbrev main_call16_c_0 : Ref sig .tc := ⟨.hbm, 344, rfl⟩
abbrev main_call16_v2 : Ref sig .tc := ⟨.hbm, 345, rfl⟩
abbrev main_call16_v3 : Ref sig .tc := ⟨.hbm, 346, rfl⟩
abbrev main_call16_v4 : Ref sig .tc := ⟨.hbm, 347, rfl⟩
abbrev main_call16_v5 : Ref sig .tc := ⟨.hbm, 348, rfl⟩
abbrev main_call16_c_1 : Ref sig .tc := ⟨.hbm, 349, rfl⟩
abbrev main_call16_c_2 : Ref sig .tc := ⟨.hbm, 350, rfl⟩
abbrev main_call16_v6 : Ref sig .tc := ⟨.hbm, 351, rfl⟩
abbrev main_call16_v7 : Ref sig .tc := ⟨.hbm, 352, rfl⟩
abbrev main_call16_v8 : Ref sig .tc := ⟨.hbm, 353, rfl⟩
abbrev main_call16_v9 : Ref sig .tc := ⟨.hbm, 354, rfl⟩
abbrev main_call16_v10 : Ref sig .tc := ⟨.hbm, 355, rfl⟩
abbrev main_call16_v11 : Ref sig .tc := ⟨.hbm, 356, rfl⟩
abbrev main_call16_c_3 : Ref sig .tc := ⟨.hbm, 357, rfl⟩
abbrev main_call16_v12 : Ref sig .tc := ⟨.hbm, 358, rfl⟩
abbrev main_call16_v13 : Ref sig .tc := ⟨.hbm, 359, rfl⟩
abbrev main_call16_cst : Ref sig .tc := ⟨.hbm, 360, rfl⟩
abbrev main_call16_v14 : Ref sig .tc := ⟨.hbm, 361, rfl⟩
abbrev main_v133 : Ref sig .tc := ⟨.hbm, 362, rfl⟩
abbrev main_v134 : Ref sig .tc := ⟨.hbm, 363, rfl⟩
abbrev main_cst_36 : Ref sig .tc := ⟨.hbm, 364, rfl⟩
abbrev main_v135 : Ref sig .tc := ⟨.hbm, 365, rfl⟩
abbrev main_v136 : Ref sig .tc := ⟨.hbm, 366, rfl⟩
abbrev main_v137 : Ref sig .tc := ⟨.hbm, 367, rfl⟩
abbrev main_v138 : Ref sig .tc := ⟨.hbm, 368, rfl⟩
abbrev main_c_37 : Ref sig .tc := ⟨.hbm, 369, rfl⟩
abbrev main_v139 : Ref sig .tc := ⟨.hbm, 370, rfl⟩
abbrev main_v140 : Ref sig .tc := ⟨.hbm, 371, rfl⟩
abbrev main_v141 : Ref sig .tc := ⟨.hbm, 372, rfl⟩
abbrev main_v142 : Ref sig .tc := ⟨.hbm, 373, rfl⟩
abbrev main_c_38 : Ref sig .tc := ⟨.hbm, 374, rfl⟩
abbrev main_v143 : Ref sig .tc := ⟨.hbm, 375, rfl⟩
abbrev main_v144 : Ref sig .tc := ⟨.hbm, 376, rfl⟩
abbrev main_c_39 : Ref sig .tc := ⟨.hbm, 377, rfl⟩
abbrev main_v145 : Ref sig .tc := ⟨.hbm, 378, rfl⟩
abbrev main_v146 : Ref sig .tc := ⟨.hbm, 379, rfl⟩
abbrev main_v147 : Ref sig .tc := ⟨.hbm, 380, rfl⟩
abbrev main_call18_c : Ref sig .tc := ⟨.hbm, 381, rfl⟩
abbrev main_call18_v0 : Ref sig .tc := ⟨.hbm, 382, rfl⟩
abbrev main_call18_v1 : Ref sig .tc := ⟨.hbm, 383, rfl⟩
abbrev main_call18_c_0 : Ref sig .tc := ⟨.hbm, 384, rfl⟩
abbrev main_call18_v2 : Ref sig .tc := ⟨.hbm, 385, rfl⟩
abbrev main_call18_v3 : Ref sig .tc := ⟨.hbm, 386, rfl⟩
abbrev main_call18_v4 : Ref sig .tc := ⟨.hbm, 387, rfl⟩
abbrev main_call18_v5 : Ref sig .tc := ⟨.hbm, 388, rfl⟩
abbrev main_call18_c_1 : Ref sig .tc := ⟨.hbm, 389, rfl⟩
abbrev main_call18_c_2 : Ref sig .tc := ⟨.hbm, 390, rfl⟩
abbrev main_call18_v6 : Ref sig .tc := ⟨.hbm, 391, rfl⟩
abbrev main_call18_v7 : Ref sig .tc := ⟨.hbm, 392, rfl⟩
abbrev main_call18_v8 : Ref sig .tc := ⟨.hbm, 393, rfl⟩
abbrev main_call18_v9 : Ref sig .tc := ⟨.hbm, 394, rfl⟩
abbrev main_call18_v10 : Ref sig .tc := ⟨.hbm, 395, rfl⟩
abbrev main_call18_v11 : Ref sig .tc := ⟨.hbm, 396, rfl⟩
abbrev main_call18_c_3 : Ref sig .tc := ⟨.hbm, 397, rfl⟩
abbrev main_call18_v12 : Ref sig .tc := ⟨.hbm, 398, rfl⟩
abbrev main_call18_v13 : Ref sig .tc := ⟨.hbm, 399, rfl⟩
abbrev main_call18_cst : Ref sig .tc := ⟨.hbm, 400, rfl⟩
abbrev main_call18_v14 : Ref sig .tc := ⟨.hbm, 401, rfl⟩
abbrev main_v148 : Ref sig .tc := ⟨.hbm, 402, rfl⟩
abbrev main_v149 : Ref sig .tc := ⟨.hbm, 403, rfl⟩
abbrev main_cst_40 : Ref sig .tc := ⟨.hbm, 404, rfl⟩
abbrev main_v150 : Ref sig .tc := ⟨.hbm, 405, rfl⟩
abbrev main_v151 : Ref sig .tc := ⟨.hbm, 406, rfl⟩
abbrev main_v152 : Ref sig .tc := ⟨.hbm, 407, rfl⟩
abbrev main_v153 : Ref sig .tc := ⟨.hbm, 408, rfl⟩
abbrev main_c_41 : Ref sig .tc := ⟨.hbm, 409, rfl⟩
abbrev main_v154 : Ref sig .tc := ⟨.hbm, 410, rfl⟩
abbrev main_v155 : Ref sig .tc := ⟨.hbm, 411, rfl⟩
abbrev main_v156 : Ref sig .tc := ⟨.hbm, 412, rfl⟩
abbrev main_v157 : Ref sig .tc := ⟨.hbm, 413, rfl⟩
abbrev main_c_42 : Ref sig .tc := ⟨.hbm, 414, rfl⟩
abbrev main_v158 : Ref sig .tc := ⟨.hbm, 415, rfl⟩
abbrev main_v159 : Ref sig .tc := ⟨.hbm, 416, rfl⟩
abbrev main_c_43 : Ref sig .tc := ⟨.hbm, 417, rfl⟩
abbrev main_v160 : Ref sig .tc := ⟨.hbm, 418, rfl⟩
abbrev main_v161 : Ref sig .tc := ⟨.hbm, 419, rfl⟩
abbrev main_v162 : Ref sig .tc := ⟨.hbm, 420, rfl⟩
abbrev main_call20_c : Ref sig .tc := ⟨.hbm, 421, rfl⟩
abbrev main_call20_v0 : Ref sig .tc := ⟨.hbm, 422, rfl⟩
abbrev main_call20_v1 : Ref sig .tc := ⟨.hbm, 423, rfl⟩
abbrev main_call20_c_0 : Ref sig .tc := ⟨.hbm, 424, rfl⟩
abbrev main_call20_v2 : Ref sig .tc := ⟨.hbm, 425, rfl⟩
abbrev main_call20_v3 : Ref sig .tc := ⟨.hbm, 426, rfl⟩
abbrev main_call20_v4 : Ref sig .tc := ⟨.hbm, 427, rfl⟩
abbrev main_call20_v5 : Ref sig .tc := ⟨.hbm, 428, rfl⟩
abbrev main_call20_c_1 : Ref sig .tc := ⟨.hbm, 429, rfl⟩
abbrev main_call20_c_2 : Ref sig .tc := ⟨.hbm, 430, rfl⟩
abbrev main_call20_v6 : Ref sig .tc := ⟨.hbm, 431, rfl⟩
abbrev main_call20_v7 : Ref sig .tc := ⟨.hbm, 432, rfl⟩
abbrev main_call20_v8 : Ref sig .tc := ⟨.hbm, 433, rfl⟩
abbrev main_call20_v9 : Ref sig .tc := ⟨.hbm, 434, rfl⟩
abbrev main_call20_v10 : Ref sig .tc := ⟨.hbm, 435, rfl⟩
abbrev main_call20_v11 : Ref sig .tc := ⟨.hbm, 436, rfl⟩
abbrev main_call20_c_3 : Ref sig .tc := ⟨.hbm, 437, rfl⟩
abbrev main_call20_v12 : Ref sig .tc := ⟨.hbm, 438, rfl⟩
abbrev main_call20_v13 : Ref sig .tc := ⟨.hbm, 439, rfl⟩
abbrev main_call20_cst : Ref sig .tc := ⟨.hbm, 440, rfl⟩
abbrev main_call20_v14 : Ref sig .tc := ⟨.hbm, 441, rfl⟩
abbrev main_v163 : Ref sig .tc := ⟨.hbm, 442, rfl⟩
abbrev main_v164 : Ref sig .tc := ⟨.hbm, 443, rfl⟩
abbrev main_cst_44 : Ref sig .tc := ⟨.hbm, 444, rfl⟩
abbrev main_v165 : Ref sig .tc := ⟨.hbm, 445, rfl⟩
abbrev main_v166 : Ref sig .tc := ⟨.hbm, 446, rfl⟩
abbrev main_v167 : Ref sig .tc := ⟨.hbm, 447, rfl⟩
abbrev main_v168 : Ref sig .tc := ⟨.hbm, 448, rfl⟩
abbrev main_c_45 : Ref sig .tc := ⟨.hbm, 449, rfl⟩
abbrev main_v169 : Ref sig .tc := ⟨.hbm, 450, rfl⟩
abbrev main_v170 : Ref sig .tc := ⟨.hbm, 451, rfl⟩
abbrev main_v171 : Ref sig .tc := ⟨.hbm, 452, rfl⟩
abbrev main_v172 : Ref sig .tc := ⟨.hbm, 453, rfl⟩
abbrev main_c_46 : Ref sig .tc := ⟨.hbm, 454, rfl⟩
abbrev main_v173 : Ref sig .tc := ⟨.hbm, 455, rfl⟩
abbrev main_v174 : Ref sig .tc := ⟨.hbm, 456, rfl⟩
abbrev main_c_47 : Ref sig .tc := ⟨.hbm, 457, rfl⟩
abbrev main_v175 : Ref sig .tc := ⟨.hbm, 458, rfl⟩
abbrev main_v176 : Ref sig .tc := ⟨.hbm, 459, rfl⟩
abbrev main_v177 : Ref sig .tc := ⟨.hbm, 460, rfl⟩
abbrev main_call22_c : Ref sig .tc := ⟨.hbm, 461, rfl⟩
abbrev main_call22_v0 : Ref sig .tc := ⟨.hbm, 462, rfl⟩
abbrev main_call22_v1 : Ref sig .tc := ⟨.hbm, 463, rfl⟩
abbrev main_call22_c_0 : Ref sig .tc := ⟨.hbm, 464, rfl⟩
abbrev main_call22_v2 : Ref sig .tc := ⟨.hbm, 465, rfl⟩
abbrev main_call22_v3 : Ref sig .tc := ⟨.hbm, 466, rfl⟩
abbrev main_call22_v4 : Ref sig .tc := ⟨.hbm, 467, rfl⟩
abbrev main_call22_v5 : Ref sig .tc := ⟨.hbm, 468, rfl⟩
abbrev main_call22_c_1 : Ref sig .tc := ⟨.hbm, 469, rfl⟩
abbrev main_call22_c_2 : Ref sig .tc := ⟨.hbm, 470, rfl⟩
abbrev main_call22_v6 : Ref sig .tc := ⟨.hbm, 471, rfl⟩
abbrev main_call22_v7 : Ref sig .tc := ⟨.hbm, 472, rfl⟩
abbrev main_call22_v8 : Ref sig .tc := ⟨.hbm, 473, rfl⟩
abbrev main_call22_v9 : Ref sig .tc := ⟨.hbm, 474, rfl⟩
abbrev main_call22_v10 : Ref sig .tc := ⟨.hbm, 475, rfl⟩
abbrev main_call22_v11 : Ref sig .tc := ⟨.hbm, 476, rfl⟩
abbrev main_call22_c_3 : Ref sig .tc := ⟨.hbm, 477, rfl⟩
abbrev main_call22_v12 : Ref sig .tc := ⟨.hbm, 478, rfl⟩
abbrev main_call22_v13 : Ref sig .tc := ⟨.hbm, 479, rfl⟩
abbrev main_call22_cst : Ref sig .tc := ⟨.hbm, 480, rfl⟩
abbrev main_call22_v14 : Ref sig .tc := ⟨.hbm, 481, rfl⟩
abbrev main_v178 : Ref sig .tc := ⟨.hbm, 482, rfl⟩
abbrev main_v179 : Ref sig .tc := ⟨.hbm, 483, rfl⟩
abbrev main_cst_48 : Ref sig .tc := ⟨.hbm, 484, rfl⟩
abbrev main_v180 : Ref sig .tc := ⟨.hbm, 485, rfl⟩
abbrev main_v181 : Ref sig .tc := ⟨.hbm, 486, rfl⟩
abbrev main_v182 : Ref sig .tc := ⟨.hbm, 487, rfl⟩
abbrev main_v183 : Ref sig .tc := ⟨.hbm, 488, rfl⟩
abbrev main_c_49 : Ref sig .tc := ⟨.hbm, 489, rfl⟩
abbrev main_v184 : Ref sig .tc := ⟨.hbm, 490, rfl⟩
abbrev main_v185 : Ref sig .tc := ⟨.hbm, 491, rfl⟩
abbrev main_v186 : Ref sig .tc := ⟨.hbm, 492, rfl⟩
abbrev main_v187 : Ref sig .tc := ⟨.hbm, 493, rfl⟩
abbrev main_c_50 : Ref sig .tc := ⟨.hbm, 494, rfl⟩
abbrev main_v188 : Ref sig .tc := ⟨.hbm, 495, rfl⟩
abbrev main_v189 : Ref sig .tc := ⟨.hbm, 496, rfl⟩
abbrev main_c_51 : Ref sig .tc := ⟨.hbm, 497, rfl⟩
abbrev main_v190 : Ref sig .tc := ⟨.hbm, 498, rfl⟩
abbrev main_v191 : Ref sig .tc := ⟨.hbm, 499, rfl⟩
abbrev main_v192 : Ref sig .tc := ⟨.hbm, 500, rfl⟩
abbrev main_call24_c : Ref sig .tc := ⟨.hbm, 501, rfl⟩
abbrev main_call24_v0 : Ref sig .tc := ⟨.hbm, 502, rfl⟩
abbrev main_call24_v1 : Ref sig .tc := ⟨.hbm, 503, rfl⟩
abbrev main_call24_c_0 : Ref sig .tc := ⟨.hbm, 504, rfl⟩
abbrev main_call24_v2 : Ref sig .tc := ⟨.hbm, 505, rfl⟩
abbrev main_call24_v3 : Ref sig .tc := ⟨.hbm, 506, rfl⟩
abbrev main_call24_v4 : Ref sig .tc := ⟨.hbm, 507, rfl⟩
abbrev main_call24_v5 : Ref sig .tc := ⟨.hbm, 508, rfl⟩
abbrev main_call24_c_1 : Ref sig .tc := ⟨.hbm, 509, rfl⟩
abbrev main_call24_c_2 : Ref sig .tc := ⟨.hbm, 510, rfl⟩
abbrev main_call24_v6 : Ref sig .tc := ⟨.hbm, 511, rfl⟩
abbrev main_call24_v7 : Ref sig .tc := ⟨.hbm, 512, rfl⟩
abbrev main_call24_v8 : Ref sig .tc := ⟨.hbm, 513, rfl⟩
abbrev main_call24_v9 : Ref sig .tc := ⟨.hbm, 514, rfl⟩
abbrev main_call24_v10 : Ref sig .tc := ⟨.hbm, 515, rfl⟩
abbrev main_call24_v11 : Ref sig .tc := ⟨.hbm, 516, rfl⟩
abbrev main_call24_c_3 : Ref sig .tc := ⟨.hbm, 517, rfl⟩
abbrev main_call24_v12 : Ref sig .tc := ⟨.hbm, 518, rfl⟩
abbrev main_call24_v13 : Ref sig .tc := ⟨.hbm, 519, rfl⟩
abbrev main_call24_cst : Ref sig .tc := ⟨.hbm, 520, rfl⟩
abbrev main_call24_v14 : Ref sig .tc := ⟨.hbm, 521, rfl⟩
abbrev main_v193 : Ref sig .tc := ⟨.hbm, 522, rfl⟩
abbrev main_v194 : Ref sig .tc := ⟨.hbm, 523, rfl⟩
abbrev main_cst_52 : Ref sig .tc := ⟨.hbm, 524, rfl⟩
abbrev main_v195 : Ref sig .tc := ⟨.hbm, 525, rfl⟩
abbrev main_v196 : Ref sig .tc := ⟨.hbm, 526, rfl⟩
abbrev main_v197 : Ref sig .tc := ⟨.hbm, 527, rfl⟩
abbrev main_v198 : Ref sig .tc := ⟨.hbm, 528, rfl⟩
abbrev main_c_53 : Ref sig .tc := ⟨.hbm, 529, rfl⟩
abbrev main_v199 : Ref sig .tc := ⟨.hbm, 530, rfl⟩
abbrev main_v200 : Ref sig .tc := ⟨.hbm, 531, rfl⟩
abbrev main_v201 : Ref sig .tc := ⟨.hbm, 532, rfl⟩
abbrev main_v202 : Ref sig .tc := ⟨.hbm, 533, rfl⟩
abbrev main_c_54 : Ref sig .tc := ⟨.hbm, 534, rfl⟩
abbrev main_v203 : Ref sig .tc := ⟨.hbm, 535, rfl⟩
abbrev main_v204 : Ref sig .tc := ⟨.hbm, 536, rfl⟩
abbrev main_c_55 : Ref sig .tc := ⟨.hbm, 537, rfl⟩
abbrev main_v205 : Ref sig .tc := ⟨.hbm, 538, rfl⟩
abbrev main_v206 : Ref sig .tc := ⟨.hbm, 539, rfl⟩
abbrev main_v207 : Ref sig .tc := ⟨.hbm, 540, rfl⟩
abbrev main_call26_c : Ref sig .tc := ⟨.hbm, 541, rfl⟩
abbrev main_call26_v0 : Ref sig .tc := ⟨.hbm, 542, rfl⟩
abbrev main_call26_v1 : Ref sig .tc := ⟨.hbm, 543, rfl⟩
abbrev main_call26_c_0 : Ref sig .tc := ⟨.hbm, 544, rfl⟩
abbrev main_call26_v2 : Ref sig .tc := ⟨.hbm, 545, rfl⟩
abbrev main_call26_v3 : Ref sig .tc := ⟨.hbm, 546, rfl⟩
abbrev main_call26_v4 : Ref sig .tc := ⟨.hbm, 547, rfl⟩
abbrev main_call26_v5 : Ref sig .tc := ⟨.hbm, 548, rfl⟩
abbrev main_call26_c_1 : Ref sig .tc := ⟨.hbm, 549, rfl⟩
abbrev main_call26_c_2 : Ref sig .tc := ⟨.hbm, 550, rfl⟩
abbrev main_call26_v6 : Ref sig .tc := ⟨.hbm, 551, rfl⟩
abbrev main_call26_v7 : Ref sig .tc := ⟨.hbm, 552, rfl⟩
abbrev main_call26_v8 : Ref sig .tc := ⟨.hbm, 553, rfl⟩
abbrev main_call26_v9 : Ref sig .tc := ⟨.hbm, 554, rfl⟩
abbrev main_call26_v10 : Ref sig .tc := ⟨.hbm, 555, rfl⟩
abbrev main_call26_v11 : Ref sig .tc := ⟨.hbm, 556, rfl⟩
abbrev main_call26_c_3 : Ref sig .tc := ⟨.hbm, 557, rfl⟩
abbrev main_call26_v12 : Ref sig .tc := ⟨.hbm, 558, rfl⟩
abbrev main_call26_v13 : Ref sig .tc := ⟨.hbm, 559, rfl⟩
abbrev main_call26_cst : Ref sig .tc := ⟨.hbm, 560, rfl⟩
abbrev main_call26_v14 : Ref sig .tc := ⟨.hbm, 561, rfl⟩
abbrev main_v208 : Ref sig .tc := ⟨.hbm, 562, rfl⟩
abbrev main_v209 : Ref sig .tc := ⟨.hbm, 563, rfl⟩
abbrev main_cst_56 : Ref sig .tc := ⟨.hbm, 564, rfl⟩
abbrev main_v210 : Ref sig .tc := ⟨.hbm, 565, rfl⟩
abbrev main_v211 : Ref sig .tc := ⟨.hbm, 566, rfl⟩
abbrev main_v212 : Ref sig .tc := ⟨.hbm, 567, rfl⟩
abbrev main_v213 : Ref sig .tc := ⟨.hbm, 568, rfl⟩
abbrev main_c_57 : Ref sig .tc := ⟨.hbm, 569, rfl⟩
abbrev main_v214 : Ref sig .tc := ⟨.hbm, 570, rfl⟩
abbrev main_v215 : Ref sig .tc := ⟨.hbm, 571, rfl⟩
abbrev main_v216 : Ref sig .tc := ⟨.hbm, 572, rfl⟩
abbrev main_v217 : Ref sig .tc := ⟨.hbm, 573, rfl⟩
abbrev main_c_58 : Ref sig .tc := ⟨.hbm, 574, rfl⟩
abbrev main_v218 : Ref sig .tc := ⟨.hbm, 575, rfl⟩
abbrev main_v219 : Ref sig .tc := ⟨.hbm, 576, rfl⟩
abbrev main_c_59 : Ref sig .tc := ⟨.hbm, 577, rfl⟩
abbrev main_v220 : Ref sig .tc := ⟨.hbm, 578, rfl⟩
abbrev main_v221 : Ref sig .tc := ⟨.hbm, 579, rfl⟩
abbrev main_v222 : Ref sig .tc := ⟨.hbm, 580, rfl⟩
abbrev main_call28_c : Ref sig .tc := ⟨.hbm, 581, rfl⟩
abbrev main_call28_v0 : Ref sig .tc := ⟨.hbm, 582, rfl⟩
abbrev main_call28_v1 : Ref sig .tc := ⟨.hbm, 583, rfl⟩
abbrev main_call28_c_0 : Ref sig .tc := ⟨.hbm, 584, rfl⟩
abbrev main_call28_v2 : Ref sig .tc := ⟨.hbm, 585, rfl⟩
abbrev main_call28_v3 : Ref sig .tc := ⟨.hbm, 586, rfl⟩
abbrev main_call28_v4 : Ref sig .tc := ⟨.hbm, 587, rfl⟩
abbrev main_call28_v5 : Ref sig .tc := ⟨.hbm, 588, rfl⟩
abbrev main_call28_c_1 : Ref sig .tc := ⟨.hbm, 589, rfl⟩
abbrev main_call28_c_2 : Ref sig .tc := ⟨.hbm, 590, rfl⟩
abbrev main_call28_v6 : Ref sig .tc := ⟨.hbm, 591, rfl⟩
abbrev main_call28_v7 : Ref sig .tc := ⟨.hbm, 592, rfl⟩
abbrev main_call28_v8 : Ref sig .tc := ⟨.hbm, 593, rfl⟩
abbrev main_call28_v9 : Ref sig .tc := ⟨.hbm, 594, rfl⟩
abbrev main_call28_v10 : Ref sig .tc := ⟨.hbm, 595, rfl⟩
abbrev main_call28_v11 : Ref sig .tc := ⟨.hbm, 596, rfl⟩
abbrev main_call28_c_3 : Ref sig .tc := ⟨.hbm, 597, rfl⟩
abbrev main_call28_v12 : Ref sig .tc := ⟨.hbm, 598, rfl⟩
abbrev main_call28_v13 : Ref sig .tc := ⟨.hbm, 599, rfl⟩
abbrev main_call28_cst : Ref sig .tc := ⟨.hbm, 600, rfl⟩
abbrev main_call28_v14 : Ref sig .tc := ⟨.hbm, 601, rfl⟩
abbrev main_v223 : Ref sig .tc := ⟨.hbm, 602, rfl⟩
abbrev main_v224 : Ref sig .tc := ⟨.hbm, 603, rfl⟩
abbrev main_cst_60 : Ref sig .tc := ⟨.hbm, 604, rfl⟩
abbrev main_v225 : Ref sig .tc := ⟨.hbm, 605, rfl⟩
abbrev main_v226 : Ref sig .tc := ⟨.hbm, 606, rfl⟩
abbrev main_v227 : Ref sig .tc := ⟨.hbm, 607, rfl⟩
abbrev main_v228 : Ref sig .tc := ⟨.hbm, 608, rfl⟩
abbrev main_c_61 : Ref sig .tc := ⟨.hbm, 609, rfl⟩
abbrev main_v229 : Ref sig .tc := ⟨.hbm, 610, rfl⟩
abbrev main_v230 : Ref sig .tc := ⟨.hbm, 611, rfl⟩
abbrev main_v231 : Ref sig .tc := ⟨.hbm, 612, rfl⟩
abbrev main_v232 : Ref sig .tc := ⟨.hbm, 613, rfl⟩
abbrev main_c_62 : Ref sig .tc := ⟨.hbm, 614, rfl⟩
abbrev main_v233 : Ref sig .tc := ⟨.hbm, 615, rfl⟩
abbrev main_v234 : Ref sig .tc := ⟨.hbm, 616, rfl⟩
abbrev main_c_63 : Ref sig .tc := ⟨.hbm, 617, rfl⟩
abbrev main_v235 : Ref sig .tc := ⟨.hbm, 618, rfl⟩
abbrev main_v236 : Ref sig .tc := ⟨.hbm, 619, rfl⟩
abbrev main_v237 : Ref sig .tc := ⟨.hbm, 620, rfl⟩
abbrev main_call30_c : Ref sig .tc := ⟨.hbm, 621, rfl⟩
abbrev main_call30_v0 : Ref sig .tc := ⟨.hbm, 622, rfl⟩
abbrev main_call30_v1 : Ref sig .tc := ⟨.hbm, 623, rfl⟩
abbrev main_call30_c_0 : Ref sig .tc := ⟨.hbm, 624, rfl⟩
abbrev main_call30_v2 : Ref sig .tc := ⟨.hbm, 625, rfl⟩
abbrev main_call30_v3 : Ref sig .tc := ⟨.hbm, 626, rfl⟩
abbrev main_call30_v4 : Ref sig .tc := ⟨.hbm, 627, rfl⟩
abbrev main_call30_v5 : Ref sig .tc := ⟨.hbm, 628, rfl⟩
abbrev main_call30_c_1 : Ref sig .tc := ⟨.hbm, 629, rfl⟩
abbrev main_call30_c_2 : Ref sig .tc := ⟨.hbm, 630, rfl⟩
abbrev main_call30_v6 : Ref sig .tc := ⟨.hbm, 631, rfl⟩
abbrev main_call30_v7 : Ref sig .tc := ⟨.hbm, 632, rfl⟩
abbrev main_call30_v8 : Ref sig .tc := ⟨.hbm, 633, rfl⟩
abbrev main_call30_v9 : Ref sig .tc := ⟨.hbm, 634, rfl⟩
abbrev main_call30_v10 : Ref sig .tc := ⟨.hbm, 635, rfl⟩
abbrev main_call30_v11 : Ref sig .tc := ⟨.hbm, 636, rfl⟩
abbrev main_call30_c_3 : Ref sig .tc := ⟨.hbm, 637, rfl⟩
abbrev main_call30_v12 : Ref sig .tc := ⟨.hbm, 638, rfl⟩
abbrev main_call30_v13 : Ref sig .tc := ⟨.hbm, 639, rfl⟩
abbrev main_call30_cst : Ref sig .tc := ⟨.hbm, 640, rfl⟩
abbrev main_call30_v14 : Ref sig .tc := ⟨.hbm, 641, rfl⟩
abbrev main_v238 : Ref sig .tc := ⟨.hbm, 642, rfl⟩
abbrev main_v239 : Ref sig .tc := ⟨.hbm, 643, rfl⟩
abbrev main_cst_64 : Ref sig .tc := ⟨.hbm, 644, rfl⟩
abbrev main_v240 : Ref sig .tc := ⟨.hbm, 645, rfl⟩
abbrev main_v241 : Ref sig .tc := ⟨.hbm, 646, rfl⟩
abbrev main_v242 : Ref sig .tc := ⟨.hbm, 647, rfl⟩
abbrev main_v243 : Ref sig .tc := ⟨.hbm, 648, rfl⟩
abbrev main_c_65 : Ref sig .tc := ⟨.hbm, 649, rfl⟩
abbrev main_v244 : Ref sig .tc := ⟨.hbm, 650, rfl⟩
abbrev main_v245 : Ref sig .tc := ⟨.hbm, 651, rfl⟩
abbrev main_v246 : Ref sig .tc := ⟨.hbm, 652, rfl⟩
abbrev main_v247 : Ref sig .tc := ⟨.hbm, 653, rfl⟩
abbrev main_v248 : Ref sig .tc := ⟨.hbm, 654, rfl⟩
abbrev main_v249 : Ref sig .tc := ⟨.hbm, 655, rfl⟩
abbrev main_cst_66 : Ref sig .tc := ⟨.hbm, 656, rfl⟩
abbrev main_v250 : Ref sig .tc := ⟨.hbm, 657, rfl⟩
abbrev main_cst_67 : Ref sig .tc := ⟨.hbm, 658, rfl⟩
abbrev main_v251 : Ref sig .tc := ⟨.hbm, 659, rfl⟩

abbrev nD : Nat := 1
abbrev τ : Topo := Topo.v7x

variable {F : FTy → Type} [FloatOps F]

class Facts₀ : Prop where
  bcast_S_S2048x65536 : S_.BroadcastsInDim S2048x65536 (![] : Fin 0 → Fin S2048x65536.rank)
  bcast_S_S2048 : S_.BroadcastsInDim S2048 (![] : Fin 0 → Fin S2048.rank)
  bcast_S2048_S2048x1_0 : S2048.BroadcastsInDim S2048x1 (![0] : Fin 1 → Fin S2048x1.rank)
  bcast_S_S2048x1 : S_.BroadcastsInDim S2048x1 (![] : Fin 0 → Fin S2048x1.rank)
  shapeCasts_S2048x1_S2048x1x1 : S2048x1.ShapeCasts S2048x1x1
  bcast_S_S2048x1x1 : S_.BroadcastsInDim S2048x1x1 (![] : Fin 0 → Fin S2048x1x1.rank)
  bcast_S1_S1x1x1_2 : S1.BroadcastsInDim S1x1x1 (![2] : Fin 1 → Fin S1x1x1.rank)
  bcast_S1x1x1_S2048x1x1_0_1_2 : S1x1x1.BroadcastsInDim S2048x1x1 (![0, 1, 2] : Fin 3 → Fin S2048x1x1.rank)
  reducesTo_S2048x1x1_S2048x1_d2 : S2048x1x1.ReducesTo [2] S2048x1
  h_S_ : 0 < S_.numel
  shapeCasts_S2048x1_S2048 : S2048x1.ShapeCasts S2048
  natLt_1_32 : 1 < 32
  reducesTo_S2048_S_d0 : S2048.ReducesTo [0] S_
  gather_S2048x65536_S2048x1x1_S2048x1_n_1_0_0_1_2_11_wf : GatherDims.WF S2048x65536 S2048x1x1 S2048x1 [] [1] [0] [1] [0] 2 ![1, 1]

variable [Facts₀]

def gather_S2048x65536_S2048x1x1_S2048x1_n_1_0_0_1_2_11 : GatherDims S2048x65536 S2048x1x1 S2048x1 where
  offsetDims := []
  collapsedSliceDims := [1]
  operandBatchingDims := [0]
  startIndicesBatchingDims := [0]
  startIndexMap := [1]
  indexVectorDim := 2
  sliceSizes := ![1, 1]
  wf := gather_S2048x65536_S2048x1x1_S2048x1_n_1_0_0_1_2_11_wf

class Facts : Prop extends Facts₀ where

variable [Facts]
-- ==== Proof.KFrame.lean ====
import proofs.«424695_j76373108457493_3_alg».proof.Proof.Gen.KernelIdeal.Launch
import proofs.«424695_j76373108457493_3_alg».proof.Proof.Gen.KernelIdeal.Skeleton
import proofs.«424695_j76373108457493_3_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

/-!
# The program's run around its one region

The program is thirty-three stretches of host operations (the node indices and signs of the walk, and the
nine 256-column windows of the scores laid side by side), one region over a grid of eight row blocks, and
four host operations after it (the sum of the rows' losses and its division by the number of rows).

The region's body reads its three input blocks whole and stores its one output block whole, so what the
output's staging buffer holds after the body is one function `rowBlock` of the three input blocks, and the
launch theorem of the library turns a triple of the body into a run of the whole program whose post names
every array the region leaves.
-/

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host operations around the region -/

/-- The stretches of host operations before the region, in order. -/
abbrev preOps : List (List (HloOp τ sig (Elt F))) :=
  [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32]

/-- The stretch of host operations after the region. -/
abbrev postOps : List (List (HloOp τ sig (Elt F))) := [hostOps1]

/-- What core `c`'s buffers hold when the region is entered: the launch contents run through the host
    operations before the region. -/
abbrev V0 (c : Dev nD) : Valuation τ sig (Elt F) := StableHlo.after (preOps (F := F)).flatten (fun b => m (c, b))
/-- The same, read at a reference. -/
abbrev V (c : Dev nD) (b : Ref sig .tc) : Buf (Elt F) ((c : Thread nD τ).loc b) := V0 m c (Proc.devRef .tc b)

/-- Every host operation before the region touches TensorCore references only. -/
theorem preOps_sub : (preOps (F := F)).Forall fun ops => ops.Forall fun op => op.bufs ⊆ StableHlo.tcRefs τ sig := by
  simp only [List.Forall]
  exact ⟨hostOps0_sub, hostOps0_1_sub, hostOps0_2_sub, hostOps0_3_sub, hostOps0_4_sub, hostOps0_5_sub, hostOps0_6_sub, hostOps0_7_sub, hostOps0_8_sub, hostOps0_9_sub, hostOps0_10_sub, hostOps0_11_sub, hostOps0_12_sub, hostOps0_13_sub, hostOps0_14_sub, hostOps0_15_sub, hostOps0_16_sub, hostOps0_17_sub, hostOps0_18_sub, hostOps0_19_sub, hostOps0_20_sub, hostOps0_21_sub, hostOps0_22_sub, hostOps0_23_sub, hostOps0_24_sub, hostOps0_25_sub, hostOps0_26_sub, hostOps0_27_sub, hostOps0_28_sub, hostOps0_29_sub, hostOps0_30_sub, hostOps0_31_sub, hostOps0_32_sub⟩

/-- No host operation before the region allocates. -/
theorem preOps_fresh : (preOps (F := F)).Forall fun ops => ops.Forall fun op => op.fresh = ∅ := by
  simp only [List.Forall]
  repeat' constructor

/-- The program is its host prefix, the region, and its host suffix. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ((postOps (F := F)).map StableHlo.seq)) :=
  Pipeline.hmain_around cfgs 0 defs₀ 𝒱₀ m main preOps postOps preOps_sub preOps_fresh (by
    intro c
    rw [main_chain]
    rfl)

/-- The operations after the region touch only the region's arrays and the buffers that bypass it. -/
theorem sfx_sub : ∀ ops ∈ (postOps (F := F)), ∀ op ∈ ops,
    op.bufs ⊆ Pipeline.tailRefs sig Pipeline.Prefetch.none spec0 := by
  intro ops hops op hop
  rw [Pipeline.tailRefs_none spec0 launch0.win.arr_unscoped]
  obtain rfl : ops = hostOps1 := List.mem_singleton.mp hops
  exact Pipeline.sub_ucRefs op (List.forall_iff_forall_mem.mp hostOps1_sub op hop)
/-- They allocate nothing. -/
theorem sfx_fresh : ∀ ops ∈ (postOps (F := F)), ∀ op ∈ ops, op.fresh = ∅ := by
  intro ops hops op hop
  obtain rfl : ops = hostOps1 := List.mem_singleton.mp hops
  simp only [List.mem_cons, List.mem_nil_iff, or_false] at hop
  rcases hop with rfl | rfl | rfl | rfl <;> rfl
/-- They write none of the region's arrays. -/
theorem sfx_keeps : ∀ ops ∈ (postOps (F := F)), ∀ op ∈ ops,
    ∀ w, Proc.devRef .tc (Pipeline.arrRef spec0 w) ∉ op.writes := by
  intro ops hops op hop w
  obtain rfl : ops = hostOps1 := List.mem_singleton.mp hops
  simp only [List.mem_cons, List.mem_nil_iff, or_false] at hop
  rcases hop with rfl | rfl | rfl | rfl
  all_goals
    simp only [StableHlo.nullary_writes, StableHlo.binary_writes, Finset.mem_singleton]
    exact StableHlo.devRef_ne_of_ne ((by decide : ∀ w, Pipeline.arrRef spec0 w ≠ _) w)

/-- A reference that no host operation before the region writes is found by the region as launched. -/
theorem V_of_not_written (c : Dev nD) (r : Ref sig .tc)
    (h : (preOps (F := F)).Forall fun ops => ops.Forall fun op => Proc.devRef (τ := τ) .tc r ∉ op.writes) :
    V m c r = m ((c : Thread nD τ).loc r) :=
  StableHlo.after_of_forall_not_mem (b := Proc.devRef .tc r) _ _ fun op hop => by
    obtain ⟨ops, hops, ho⟩ := List.mem_flatten.mp hop
    exact List.forall_iff_forall_mem.mp (List.forall_iff_forall_mem.mp h ops hops) op ho

set_option maxHeartbeats 1000000 in
/-- No host operation before the region writes the scores: the region finds them as launched. -/
theorem V_main_arg0 (c : Dev nD) : V m c main_arg0 = m ((c : Thread nD τ).loc main_arg0) := by
  refine V_of_not_written m c main_arg0 ?_
  simp only [List.Forall, StableHlo.nullary_writes, StableHlo.unary_writes, StableHlo.binary_writes, StableHlo.ternary_writes,
    StableHlo.nary_writes, StableHlo.TRef.unary, StableHlo.TRef.ternary, Finset.mem_singleton]
  repeat' apply And.intro
  all_goals exact StableHlo.devRef_ne_of_ne (by decide)
set_option maxHeartbeats 1000000 in
/-- Nor the class words. -/
theorem V_main_arg1 (c : Dev nD) : V m c main_arg1 = m ((c : Thread nD τ).loc main_arg1) := by
  refine V_of_not_written m c main_arg1 ?_
  simp only [List.Forall, StableHlo.nullary_writes, StableHlo.unary_writes, StableHlo.binary_writes, StableHlo.ternary_writes,
    StableHlo.nary_writes, StableHlo.TRef.unary, StableHlo.TRef.ternary, Finset.mem_singleton]
  repeat' apply And.intro
  all_goals exact StableHlo.devRef_ne_of_ne (by decide)

/-- No host operation after the region writes the scores: they end as launched. -/
theorem W_main_arg0 (dats : (p : Fin _) → (c : Dev nD) → Dat τ (Elt F) Unit ℕ (UR sig nD τ) ℕ (cfgs p) c) (c : Dev nD) :
    Pipeline.afterTail₀ cfgs dats 0 (V0 m) postOps c main_arg0 = m ((c : Thread nD τ).loc main_arg0) := by
  unfold Pipeline.afterTail₀
  refine (StableHlo.after_of_forall_not_mem (b := Proc.devRef .tc main_arg0) _ _ ?_).trans
    ((Pipeline.withArrays_of_ne _ c (V0 m c) _ main_arg0 (by decide)).trans (V_main_arg0 m c))
  intro op hop
  simp only [List.flatten_cons, List.flatten_nil, List.append_nil, List.mem_cons, List.mem_nil_iff, or_false] at hop
  rcases hop with rfl | rfl | rfl | rfl
  all_goals
    simp only [StableHlo.nullary_writes, StableHlo.binary_writes, Finset.mem_singleton]
    exact StableHlo.devRef_ne_of_ne (by decide)
/-- Nor the class words. -/
theorem W_main_arg1 (dats : (p : Fin _) → (c : Dev nD) → Dat τ (Elt F) Unit ℕ (UR sig nD τ) ℕ (cfgs p) c) (c : Dev nD) :
    Pipeline.afterTail₀ cfgs dats 0 (V0 m) postOps c main_arg1 = m ((c : Thread nD τ).loc main_arg1) := by
  unfold Pipeline.afterTail₀
  refine (StableHlo.after_of_forall_not_mem (b := Proc.devRef .tc main_arg1) _ _ ?_).trans
    ((Pipeline.withArrays_of_ne _ c (V0 m c) _ main_arg1 (by decide)).trans (V_main_arg1 m c))
  intro op hop
  simp only [List.flatten_cons, List.flatten_nil, List.append_nil, List.mem_cons, List.mem_nil_iff, or_false] at hop
  rcases hop with rfl | rfl | rfl | rfl
  all_goals
    simp only [StableHlo.nullary_writes, StableHlo.binary_writes, Finset.mem_singleton]
    exact StableHlo.devRef_ne_of_ne (by decide)

/-! ## The windows' blocks -/

/-- Window `w`'s block at grid point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## What the body leaves in the output's staging buffer -/

/-- The whole block of the output's staging buffer. -/
abbrev rOut : Rect S256x1 := Rect.unit (s := S256x1) ![0, 0] S256x1.size inb_S256x1_S256x1_0_0
/-- The nine windows of the slab's block, by their first column. -/
abbrev rWin (k : Fin 9) : Rect S256x2304 := match k with
  | 0 => Rect.unit (s := S256x2304) ![0, 0] S256x256.size inb_S256x2304_S256x256_0_0
  | 1 => Rect.unit (s := S256x2304) ![0, 256] S256x256.size inb_S256x2304_S256x256_0_256
  | 2 => Rect.unit (s := S256x2304) ![0, 512] S256x256.size inb_S256x2304_S256x256_0_512
  | 3 => Rect.unit (s := S256x2304) ![0, 768] S256x256.size inb_S256x2304_S256x256_0_768
  | 4 => Rect.unit (s := S256x2304) ![0, 1024] S256x256.size inb_S256x2304_S256x256_0_1024
  | 5 => Rect.unit (s := S256x2304) ![0, 1280] S256x256.size inb_S256x2304_S256x256_0_1280
  | 6 => Rect.unit (s := S256x2304) ![0, 1536] S256x256.size inb_S256x2304_S256x256_0_1536
  | 7 => Rect.unit (s := S256x2304) ![0, 1792] S256x256.size inb_S256x2304_S256x256_0_1792
  | 8 => Rect.unit (s := S256x2304) ![0, 2048] S256x256.size inb_S256x2304_S256x256_0_2048
/-- The whole block of the index and sign windows. -/
abbrev rCode : Rect S256x16 := Rect.unit (s := S256x16) ![0, 0] S256x16.size inb_S256x16_S256x16_0_0

/-- The body's one stored value from its three input blocks: the slab block `x0` read window by window (the
    first window eight times, once per level that shares it), the window-relative node indices `x1`, the signs
    `x2`. -/
def rowBlock (x0 : Vec F S256x2304 .f32) (x1 : Vec F S256x16 .i32) (x2 : Vec F S256x16 .f32) : Vec F S256x1 .f32 :=
  k0_pay1 (k0_pay16 (k0_pay2 (View.ld x1 rCode)) (k0_pay3 (View.ld x2 rCode))
    (k0_pay4 (View.ld x0 (rWin 0))) (k0_pay5 (View.ld x0 (rWin 0))) (k0_pay6 (View.ld x0 (rWin 0))) (k0_pay7 (View.ld x0 (rWin 0)))
    (k0_pay8 (View.ld x0 (rWin 0))) (k0_pay9 (View.ld x0 (rWin 0))) (k0_pay10 (View.ld x0 (rWin 0))) (k0_pay11 (View.ld x0 (rWin 0)))
    (k0_pay12 (View.ld x0 (rWin 1))) (k0_pay13 (View.ld x0 (rWin 2))) (k0_pay14 (View.ld x0 (rWin 3))) (k0_pay15 (View.ld x0 (rWin 4)))
    (View.ld x0 (rWin 5)) (View.ld x0 (rWin 6)) (View.ld x0 (rWin 7)) (View.ld x0 (rWin 8)))

/-- The output's staging buffer after the body: its one store, over the whole block. -/
def out0_3 (x0 : Vec F S256x2304 .f32) (x1 : Vec F S256x16 .i32) (x2 : Vec F S256x16 .f32) : Vec F S256x1 .f32 :=
  View.canon [⟨rOut, rowBlock x0 x1 x2⟩]

/-! ## The proof data, the run and the frame -/

/-- The proof data of the region on core `c`: each input's buffer at its block after the body, the output's at
    `out0_3` of the three input blocks. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => out0_3 (iblk m c 0 t) (iblk m c 1 t) (iblk m c 2 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_3 (c : Dev nD) (t : Fin cfg0.N) :
    (dats m 0 c).after 3 t = out0_3 (iblk m c 0 t) (iblk m c 1 t) (iblk m c 2 t) := by dsimp only [dats]

/-- The one store of the body is over the whole block, so it covers it. -/
theorem cover_out (p : Vec F S256x1 .f32) (y : S256x1.Idx) :
    ∃ pc ∈ ([⟨rOut, p⟩] : List (View.Piece (Elt F) S256x1 .f32)), y ∈ pc.1.set :=
  View.cover_of_tiled [⟨rOut, p⟩] S256x1.size (by rfl) y

set_option maxHeartbeats 1000000 in
/-- The body on whole staging buffers: the three inputs read `x0`, `x1`, `x2` and are left as they were, and the
    output's buffer, whatever it held, is left reading `out0_3 x0 x1 x2`. -/
theorem sound_kernel (c : Dev nD) (E : Set ℕ) (i : grid0.Coords)
    (arg1 : Memref sig .tc .vmem S256x2304 .f32) (harg1 : arg1.IsWhole) (arg2 : Memref sig .tc .vmem S256x16 .i32) (harg2 : arg2.IsWhole)
    (arg3 : Memref sig .tc .vmem S256x16 .f32) (harg3 : arg3.IsWhole) (arg4 : Memref sig .tc .vmem S256x1 .f32) (harg4 : arg4.IsWhole)
    (x0 : Vec F S256x2304 .f32) (x1 : Vec F S256x16 .i32) (x2 : Vec F S256x16 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1
            ∗ owns (c : Thread nD τ) arg3 fullShare x2 ∗ owns (c : Thread nD τ) arg4 fullShare (out0_3 x0 x1 x2)) -∗ K ⟨⟩))
      ⊢ wp frame (wpE (defs₀ (F := F)) Variants.none c none) E (cc0__hsm_kernel i arg1 harg1 arg2 harg2 arg3 harg3 arg4 harg4) K := by
  simp only [cc0__hsm_kernel_eq_skeleton]; unfold cc0__hsm_kernel_skel
  simp only [k0_part1_eq_skeleton]; unfold k0_part1_skel
  simp only [k0_part2_eq_skeleton]; unfold k0_part2_skel
  unfold owns
  iintro ⟨⟨%f1, %hf1, H1⟩, ⟨%f2, %hf2, H2⟩, ⟨%f3, %hf3, H3⟩, ⟨%d4, %f4, -, H4⟩, Hk⟩
  subst hf1 hf2 hf3
  sl_exec
  sl_step
  iapply Hk
  isplitl [H1]
  · iexists f1; isplitr
    · ipureintro; rfl
    · iexact H1
  isplitl [H2]
  · iexists f2; isplitr
    · ipureintro; rfl
    · iexact H2
  isplitl [H3]
  · iexists f3; isplitr
    · ipureintro; rfl
    · iexact H3
  iexists _; isplitr
  swap
  · iexact H4
  ipureintro
  dsimp only
  exact View.read_writes_eq_canon _ _ _ (cover_out _)

/-- What each input window's staging buffer is left holding by the body: its block. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]

/-- The slab's staging buffer holds the slab's block when the body is called, fetched at that point or not: the
    body leaves the block in place and the window's block index moves only at a fetch. -/
theorem before0_0 (c : Dev nD) (t : Fin cfg0.N) (d) : (dats m 0 c).before 0 t d = iblk m c 0 t := by
  have hkeep : ∀ t, (cfg0.win 0).cut (cfg0.grid.coords t) ((dats m 0 c).after 0 t) = (dats m 0 c).blockOf 0 t := by
    intro t; rw [after0_0]; unfold Dat.blockOf iblk; rw [A_eq]; try rfl
  rw [(dats m 0 c).before_in_eq_fetched 0 rfl (fun _ => rfl) (fun _ _ _ => rfl) hkeep t d]
  unfold Dat.fetched Dat.blockOf iblk; rw [A_eq]; try rfl
/-- Likewise the node indices' block. -/
theorem before0_1 (c : Dev nD) (t : Fin cfg0.N) (d) : (dats m 0 c).before 1 t d = iblk m c 1 t := by
  have hkeep : ∀ t, (cfg0.win 1).cut (cfg0.grid.coords t) ((dats m 0 c).after 1 t) = (dats m 0 c).blockOf 1 t := by
    intro t; rw [after0_1]; unfold Dat.blockOf iblk; rw [A_eq]; try rfl
  rw [(dats m 0 c).before_in_eq_fetched 1 rfl (fun _ => rfl) (fun _ _ _ => rfl) hkeep t d]
  unfold Dat.fetched Dat.blockOf iblk; rw [A_eq]; try rfl
/-- Likewise the signs' block. -/
theorem before0_2 (c : Dev nD) (t : Fin cfg0.N) (d) : (dats m 0 c).before 2 t d = iblk m c 2 t := by
  have hkeep : ∀ t, (cfg0.win 2).cut (cfg0.grid.coords t) ((dats m 0 c).after 2 t) = (dats m 0 c).blockOf 2 t := by
    intro t; rw [after0_2]; unfold Dat.blockOf iblk; rw [A_eq]; try rfl
  rw [(dats m 0 c).before_in_eq_fetched 2 rfl (fun _ => rfl) (fun _ _ _ => rfl) hkeep t d]
  unfold Dat.fetched Dat.blockOf iblk; rw [A_eq]; try rfl

/-- The body at grid point `t`, on the four staging buffers the pipeline hands it: the invariant and what the core
    owes pass through untouched, the inputs' buffers hold their blocks and keep them, the output's is left at
    `out0_3` of the three blocks. -/
theorem sound_body (c : Dev nD) (t : Fin cfg0.N) :
    iprop((dats m 0 c).Φ t.castSucc ∗ (dats m 0 c).owesAt () t.castSucc
        ∗ (∃ d, owns (c : Thread nD τ) (st0_0 t) fullShare ((dats m 0 c).before 0 t d))
        ∗ (∃ d, owns (c : Thread nD τ) (st0_1 t) fullShare ((dats m 0 c).before 1 t d))
        ∗ (∃ d, owns (c : Thread nD τ) (st0_2 t) fullShare ((dats m 0 c).before 2 t d))
        ∗ (∃ d, owns (c : Thread nD τ) (st0_3 t) fullShare ((dats m 0 c).before 3 t d)))
      ⊢ wp frame (wpE (defs₀ (F := F)) Variants.none c none) Set.univ (bodyAt0 t) (fun _ =>
          iprop((dats m 0 c).Φ t.succ ∗ (dats m 0 c).owesAt () t.succ
            ∗ owns (c : Thread nD τ) (st0_0 t) fullShare ((dats m 0 c).after 0 t)
            ∗ owns (c : Thread nD τ) (st0_1 t) fullShare ((dats m 0 c).after 1 t)
            ∗ owns (c : Thread nD τ) (st0_2 t) fullShare ((dats m 0 c).after 2 t)
            ∗ owns (c : Thread nD τ) (st0_3 t) fullShare ((dats m 0 c).after 3 t))) := by
  unfold bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel c Set.univ (grid0.coords t) _ _ _ _ _ _ _ _ (iblk m c 0 t) (iblk m c 1 t) (iblk m c 2 t) _)
  isplitl [H0]
  · iexact H0
  isplitl [H1]
  · iexact H1
  isplitl [H2]
  · iexact H2
  isplitl [H3]
  · iexists _; iexact H3
  iintro ⟨H0, H1, H2, H3⟩
  isplitl [HΦ]
  · iexact HΦ
  isplitl [Ho]
  · iexact Ho
  isplitl [H0]
  · iexact H0
  isplitl [H1]
  · iexact H1
  isplitl [H2]
  · iexact H2
  iexact H3

/-- The library's body obligation at every grid point. -/
theorem body_obligation (c : Dev nD) : BodyObligation (dats (F := F) m 0 c) (defs₀ (F := F)) Variants.none () Set.univ := fun t => by
  rw [bigSep_W0, bigSep_W0]
  exact sound_body m c t

set_option backward.isDefEq.respectTransparency.types false in
/-- Every weakly fair execution of the program terminates, and leaves every array of the region at what the
    proof data computes and every other buffer as the operations after the region leave it. -/
theorem run_main : θ_run defs (onTc (τ := τ) (main (F := F))) (s₀ m ρ)
    (Pipeline.FramePost cfgs (dats m) 0 (Pipeline.afterTail₀ cfgs (dats m) 0 (V0 m) postOps)) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := postOps) (hsub := sfx_sub) (hfresh := sfx_fresh) (hkeep := sfx_keeps)
    (hmain := hmain m Variants.none) (hA := A_eq m) (hΦ := fun _ _ => rfl)

/-- The program runs, and its two arguments end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c)⟩)
    (run_main m ρ)

end Cert.KernelIdeal.Frm

end
-- ==== Proof.Spec.lean ====
import Idealize.ShloMosaic.PureOps.Ideal
import Idealize.ShloMosaic.PureOps.Ideal.Laws
import Mathlib.Analysis.SpecialFunctions.Log.Basic
import Mathlib.Analysis.SpecialFunctions.Exp

/-!
# The hierarchical-softmax walk, as mathematics

A class word `w` selects a root-to-leaf path in a binary tree of depth 16 stored flat in one row of
scores: at level `s` the walk stands at node `node w s`, turns right when bit `15 - s` of `w` is
set, and moves to `node w s + 2 ^ s` (left) or one further (right). Every node of level `s` lies in
`[2 ^ s - 1, 2 ^ s - 1 + s]`, because the offset inside the level counts the right turns made so far.

The loss of one row is the negative log-likelihood of the path. It is written here twice:
`rowSoftplus`, a sum over the levels of `softplus (∓ x)`, and `rowNegLog`, minus the logarithm of the
product over the levels of `σ x` or `1 - σ x`. On finite scores the two agree, since
`-log (σ x) = softplus (-x)`, `1 - σ x = σ (-x)`, and the logarithm of a product of positive reals
is the sum of the logarithms.
-/

noncomputable section

namespace Cert.Hsm

open Idealize.ShloMosaic

/-- The bit of the class word that decides the turn at level `s`: bit `15 - s`. -/
def levelMask (s : ℕ) : BitVec 32 := BitVec.ofNat 32 (2 ^ (15 - s))

/-- `1` when the walk turns right at level `s` (the masked word is positive as a signed number). -/
def turn (w : BitVec 32) (s : ℕ) : BitVec 1 := IntOp.cmpi .sgt (IntOp.andi w (levelMask s)) 0#32

/-- The node the walk stands at when it reaches level `s`. -/
def node (w : BitVec 32) : ℕ → BitVec 32
  | 0 => 0#32
  | s + 1 => IntOp.addi (IntOp.addi (node w s) (BitVec.ofNat 32 (2 ^ s))) ((turn w s).setWidth 32)

/-- A turn bit widened to a word is `0` or `1`. -/
theorem turn_setWidth_toNat_le (w : BitVec 32) (s : ℕ) : ((turn w s).setWidth 32).toNat ≤ 1 := by
  -- a one-bit word is below 2, and widening keeps its value
  have h := (turn w s).isLt
  have hm := Nat.mod_le (turn w s).toNat (2 ^ 32)
  rw [BitVec.toNat_setWidth]
  omega

/-- Level `s` occupies the nodes `2 ^ s - 1, …, 2 ^ s - 1 + s`. -/
theorem node_bounds (w : BitVec 32) (s : ℕ) (hs : s ≤ 16) :
    2 ^ s - 1 ≤ (node w s).toNat ∧ (node w s).toNat ≤ 2 ^ s - 1 + s := by
  induction s with
  | zero => simp [node]
  | succ s ih =>
    obtain ⟨lo, hi⟩ := ih (by omega)
    have he := turn_setWidth_toNat_le w s
    have hp : 2 ^ s ≤ 2 ^ 16 := Nat.pow_le_pow_right (by norm_num) (by omega)
    have hpos : 0 < 2 ^ s := Nat.two_pow_pos s
    have h2 : (BitVec.ofNat 32 (2 ^ s)).toNat = 2 ^ s := by
      rw [BitVec.toNat_ofNat]
      exact Nat.mod_eq_of_lt (by omega)
    -- no addition of the step wraps: everything stays far below 2 ^ 32
    have hstep : (node w (s + 1)).toNat
        = (node w s).toNat + 2 ^ s + ((turn w s).setWidth 32).toNat := by
      show (IntOp.addi (IntOp.addi (node w s) (BitVec.ofNat 32 (2 ^ s)))
        ((turn w s).setWidth 32)).toNat = _
      unfold IntOp.addi
      rw [BitVec.toNat_add, BitVec.toNat_add, h2,
        Nat.mod_eq_of_lt (show (node w s).toNat + 2 ^ s < 2 ^ 32 by omega)]
      exact Nat.mod_eq_of_lt (by omega)
    rw [hstep, Nat.pow_succ]
    omega

/-- The first column of the 256-wide, 128-aligned window that holds level `s`. -/
def winStart (s : ℕ) : ℕ := (2 ^ s - 1) / 128 * 128

/-- The window of level `s` holds every node of the level. -/
theorem node_in_window (w : BitVec 32) (s : ℕ) (hs : s < 16) :
    winStart s ≤ (node w s).toNat ∧ (node w s).toNat < winStart s + 256 := by
  obtain ⟨lo, hi⟩ := node_bounds w s (by omega)
  interval_cases s <;> simp only [winStart] <;> omega

/-- Every node of the walk is a column of the row, and is nonnegative as a signed word. -/
theorem node_lt (w : BitVec 32) (s : ℕ) (hs : s < 16) : (node w s).toNat < 32783 := by
  obtain ⟨_, hi⟩ := node_bounds w s (by omega)
  have hp : 2 ^ s ≤ 2 ^ 15 := Nat.pow_le_pow_right (by norm_num) (by omega)
  omega

/-! ## One row's loss, in the two forms the programs compute -/

/-- The sign the kernel multiplies a score by: `-1` on a right turn, `1` on a left turn. -/
def sgn (r : BitVec 1) : EReal := Scalar.select r ((-1 : ℝ) : EReal) ((1 : ℝ) : EReal)

/-- `softplus z = max z 0 + log (1 + exp (-|z|))`, spelt as the stable form computes it
    (the first branch is the not-a-number guard of that form; no extended real takes it). -/
def softplus (z : EReal) : EReal :=
  Scalar.select (Ideal.cmp .one (z - 0) (z - 0)) (z + 0)
    (max z 0 + Ideal.log1p (Ideal.exp (0 - max (z - 0) (-(z - 0)))))

/-- One level's term of the sum form: `softplus (-(sgn r) * y)`. -/
def termSoftplus (r : BitVec 1) (y : EReal) : EReal := softplus ((0 - sgn r) * y)

/-- The sum form of a row's loss: over the levels, the softplus term of the score at the node. -/
def rowSoftplus (x : ℕ → EReal) (w : BitVec 32) : EReal :=
  0 + ∑ s : Fin 16, termSoftplus (turn w s) (x (node w s).toNat)

/-- The logistic function `σ y = 1 / (1 + exp (-y))`. -/
def sigm (y : EReal) : EReal := Ideal.div 1 (1 + Ideal.exp (-y))

/-- One level's factor of the product form: `1 - σ y` on a right turn, `σ y` on a left turn. -/
def factor (r : BitVec 1) (y : EReal) : EReal := Scalar.select r (1 - sigm y) (sigm y)

/-- The likelihood of the path down to (not including) level `n`, multiplied up level by level. -/
def pathProb (x : ℕ → EReal) (w : BitVec 32) : ℕ → EReal
  | 0 => 1
  | n + 1 => pathProb x w n * factor (turn w n) (x (node w n).toNat)

/-- The product form of a row's loss: minus the logarithm of the path's likelihood. -/
def rowNegLog (x : ℕ → EReal) (w : BitVec 32) : EReal := -(Ideal.log (pathProb x w 16))

/-! ## The same two forms on the reals -/

/-- The logistic function on the reals. -/
private def sigR (y : ℝ) : ℝ := (1 + Real.exp (-y))⁻¹

private theorem sigR_pos (y : ℝ) : 0 < sigR y := by
  unfold sigR
  positivity

/-- `1 - σ y = σ (-y)`: multiply numerator and denominator by `exp y`. -/
private theorem one_sub_sigR (y : ℝ) : 1 - sigR y = sigR (-y) := by
  unfold sigR
  have h1 : (0 : ℝ) < 1 + Real.exp (-y) := by positivity
  have h2 : (0 : ℝ) < 1 + Real.exp y := by positivity
  have he : Real.exp y * Real.exp (-y) = 1 := by rw [← Real.exp_add, add_neg_cancel, Real.exp_zero]
  rw [neg_neg]
  field_simp
  linear_combination he

/-- `-log (σ (-z)) = log (1 + exp z)`. -/
private theorem neg_log_sigR (z : ℝ) : -Real.log (sigR (-z)) = Real.log (1 + Real.exp z) := by
  unfold sigR
  rw [neg_neg, Real.log_inv, neg_neg]

/-- The stable form of softplus on the reals. -/
private def spR (z : ℝ) : ℝ := max z 0 + Real.log (1 + Real.exp (-(max z (-z))))

/-- The stable form is `log (1 + exp z)`: for `z ≥ 0` the factor `exp z` is taken out of the
    logarithm, for `z < 0` nothing is. -/
private theorem spR_eq (z : ℝ) : spR z = Real.log (1 + Real.exp z) := by
  unfold spR
  rcases le_or_gt 0 z with hz | hz
  · rw [max_eq_left hz, max_eq_left (by linarith : -z ≤ z)]
    have hp : (0 : ℝ) < 1 + Real.exp (-z) := by positivity
    have he : Real.exp z * Real.exp (-z) = 1 := by rw [← Real.exp_add, add_neg_cancel, Real.exp_zero]
    calc z + Real.log (1 + Real.exp (-z))
        = Real.log (Real.exp z) + Real.log (1 + Real.exp (-z)) := by rw [Real.log_exp]
      _ = Real.log (Real.exp z * (1 + Real.exp (-z))) :=
          (Real.log_mul (Real.exp_pos z).ne' hp.ne').symm
      _ = Real.log (1 + Real.exp z) := by
          congr 1
          linear_combination he
  · rw [max_eq_right hz.le, max_eq_right (by linarith : z ≤ -z), neg_neg, zero_add]

/-! ## The extended-real forms at a finite score -/

/-- The score with the sign of the turn: `y` on a right turn, `-y` on a left turn. -/
private def zR (r : BitVec 1) (y : ℝ) : ℝ := if r = 1 then y else -y

private theorem sigm_coe (y : ℝ) : sigm (y : EReal) = ((sigR y : ℝ) : EReal) :=
  Ideal.logistic_coe y

/-- A level's factor is `σ (-z)` for the signed score `z`, on either turn. -/
private theorem factor_coe (r : BitVec 1) (y : ℝ) :
    factor r (y : EReal) = ((sigR (-(zR r y)) : ℝ) : EReal) := by
  unfold factor Scalar.select zR
  by_cases h : r = 1
  · simp only [if_pos h]
    rw [sigm_coe, ← EReal.coe_one, ← EReal.coe_sub, one_sub_sigR]
  · simp only [if_neg h]
    rw [sigm_coe, neg_neg]

/-- The sign the sum form multiplies by turns the score into the signed score. -/
private theorem sgn_mul_coe (r : BitVec 1) (y : ℝ) :
    (0 - sgn r) * (y : EReal) = ((zR r y : ℝ) : EReal) := by
  unfold sgn Scalar.select zR
  by_cases h : r = 1
  · simp only [if_pos h]
    rw [← EReal.coe_zero, ← EReal.coe_sub, ← EReal.coe_mul]
    norm_num
  · simp only [if_neg h]
    rw [← EReal.coe_zero, ← EReal.coe_sub, ← EReal.coe_mul]
    norm_num

/-- On a real the stable form takes its second branch (a real equals itself) and every
    operation in it stays real. -/
private theorem softplus_coe (z : ℝ) : softplus (z : EReal) = ((spR z : ℝ) : EReal) := by
  have e0 : (z : EReal) - 0 = z := by rw [← EReal.coe_zero, ← EReal.coe_sub, sub_zero]
  have hc : Ideal.cmp .one (z : EReal) (z : EReal) = 0 := by simp [Ideal.cmp]
  have hm0 : max (z : EReal) 0 = ((max z 0 : ℝ) : EReal) := by
    rw [← EReal.coe_zero]
    exact (EReal.coe_strictMono.monotone.map_max).symm
  have hm : max (z : EReal) (-(z : EReal)) = ((max z (-z) : ℝ) : EReal) := by
    rw [← EReal.coe_neg]
    exact (EReal.coe_strictMono.monotone.map_max).symm
  have hpos : ¬ (1 + Real.exp (-(max z (-z))) ≤ 0) := by
    have : (0 : ℝ) < 1 + Real.exp (-(max z (-z))) := by positivity
    linarith
  unfold softplus Scalar.select Ideal.log1p spR
  rw [e0, hc, if_neg (show ¬ ((0 : BitVec 1) = 1) by decide), hm0, hm, ← EReal.coe_zero,
    ← EReal.coe_sub, zero_sub, Ideal.exp_coe, ← EReal.coe_one, ← EReal.coe_add, Ideal.log_coe,
    if_neg hpos, ← EReal.coe_add]

private theorem termSoftplus_coe (r : BitVec 1) (y : ℝ) :
    termSoftplus r (y : EReal) = ((spR (zR r y) : ℝ) : EReal) := by
  unfold termSoftplus
  rw [sgn_mul_coe, softplus_coe]

/-- One level at a finite score: the factor is a positive real, and the level's softplus term is
    minus its logarithm. -/
private theorem level_eq (r : BitVec 1) (y : ℝ) :
    ∃ f : ℝ, 0 < f ∧ factor r (y : EReal) = (f : EReal) ∧
      termSoftplus r (y : EReal) = ((-Real.log f : ℝ) : EReal) :=
  ⟨sigR (-(zR r y)), sigR_pos _, factor_coe r y, by
    rw [termSoftplus_coe, spR_eq, neg_log_sigR]⟩

/-- Down to any level the likelihood is a positive real, and minus its logarithm is the sum of the
    softplus terms of the levels passed: the logarithm of a product of positive reals is the sum
    of the logarithms. -/
private theorem path_eq (x : ℕ → EReal) (w : BitVec 32)
    (hx : ∀ j, j < 32783 → ∃ r : ℝ, x j = (r : EReal)) (n : ℕ) (hn : n ≤ 16) :
    ∃ p : ℝ, 0 < p ∧ pathProb x w n = (p : EReal) ∧
      ((-Real.log p : ℝ) : EReal)
        = ∑ s ∈ Finset.range n, termSoftplus (turn w s) (x (node w s).toNat) := by
  induction n with
  | zero => exact ⟨1, one_pos, rfl, by simp⟩
  | succ n ih =>
    obtain ⟨p, hp, hpp, hsum⟩ := ih (by omega)
    obtain ⟨y, hy⟩ := hx _ (node_lt w n (by omega))
    obtain ⟨f, hf, hff, hterm⟩ := level_eq (turn w n) y
    refine ⟨p * f, mul_pos hp hf, ?_, ?_⟩
    · show pathProb x w n * factor (turn w n) (x (node w n).toNat) = _
      rw [hpp, hy, hff, EReal.coe_mul]
    · rw [Finset.sum_range_succ, ← hsum, hy, hterm, ← EReal.coe_add,
        Real.log_mul hp.ne' hf.ne']
      congr 1
      ring

/-- On a row of finite scores the two forms of the loss agree. -/
theorem rowNegLog_eq_rowSoftplus (x : ℕ → EReal) (w : BitVec 32)
    (hx : ∀ j, j < 32783 → ∃ r : ℝ, x j = (r : EReal)) :
    rowNegLog x w = rowSoftplus x w := by
  obtain ⟨p, hp, hpp, hsum⟩ := path_eq x w hx 16 le_rfl
  unfold rowNegLog rowSoftplus
  rw [hpp, Ideal.log_coe, if_neg (not_le.mpr hp), ← EReal.coe_neg, hsum, zero_add]
  exact (Fin.sum_univ_eq_sum_range
    (fun s => termSoftplus (turn w s) (x (node w s).toNat)) 16).symm

end Cert.Hsm

end
-- ==== Proof.KHost.lean ====
import proofs.«424695_j76373108457493_3_alg».proof.Proof.KFrame
import proofs.«424695_j76373108457493_3_alg».proof.Proof.Spec
import Idealize.ShloMosaic.Lib.ValueIdx
import Idealize.ShloMosaic.Lib.ValueLayout
import Idealize.ShloMosaic.Lib.Pipeline.Value
import Idealize.ShloMosaic.Lib.StableHlo.Run

/-!
# What the region finds in its three input arrays

The host operations before the region compute, from the scores `X` and the class words `C`:
* the slab: row `b`, column `256 k + j` holds `X b (slabStart k + j)` — nine windows of 256 columns side by side;
* the window-relative node indices: row `b`, level `s` holds `node (C b) s - winStart s`;
* the signs: row `b`, level `s` holds `-1` when the walk turns right there and `1` otherwise.
-/

noncomputable section

namespace Cert.KernelIdeal.HostVal

open Cert.KernelIdeal Cert.KernelIdeal.Gen Cert.KernelIdeal.Frm Cert.Hsm
open Idealize.ShloMosaic Idealize.ShloMosaic.TcCoe Idealize.SL.Sem Idealize.ShloMosaic.ValueIdx

variable (m : (ℓ : Loc nD τ sig) → Buf (Elt Ideal) ℓ)

/-- The scores as launched, on core `c`. -/
abbrev scores (c : Dev nD) : S2048x65536.Idx → EReal := m ((c : Thread nD τ).loc main_arg0)
/-- The class words as launched, on core `c`. -/
abbrev classes (c : Dev nD) : S2048.Idx → BitVec 32 := m ((c : Thread nD τ).loc main_arg1)

/-- The first column of the slab's `k`-th window in the row of scores. -/
def slabStart (k : ℕ) : ℕ :=
  match k with
  | 0 => 0 | 1 => 128 | 2 => 384 | 3 => 896 | 4 => 1920 | 5 => 3968 | 6 => 8064 | 7 => 16256 | _ => 32640

/-- The slab window that holds level `s`: the first eight levels share window 0. -/
def slotOf (s : ℕ) : ℕ := s - 7

/-- The window of level `s` starts where the slab's window `slotOf s` starts. -/
theorem slabStart_slotOf (s : ℕ) (hs : s < 16) : slabStart (slotOf s) = winStart s := by
  interval_cases s <;> rfl

/-- The column of the scores that slab column `j` holds. -/
def slabCol (j : Fin 2304) : Fin 65536 := ⟨slabStart (j.val / 256) + j.val % 256, by
  have h1 : j.val / 256 ≤ 8 := by have := j.isLt; omega
  have h2 : j.val % 256 < 256 := Nat.mod_lt _ (by norm_num)
  have h3 : slabStart (j.val / 256) ≤ 32640 := by
    generalize j.val / 256 = k at h1
    interval_cases k <;> simp [slabStart]
  omega⟩

/-! ## The host operations cut into stretches

The buffers are numbered in program order — the two arguments first, then one buffer per operation, in the order the
operations run. So an operation writes a buffer numbered above every buffer written before it, and a buffer keeps,
through any later stretch, the contents it had when that stretch began. The operations before the region are cut into
forty stretches (the last generated stretch at its three concatenations); `cutVal m c k` is what the buffers hold after
the first `k` of them. -/

open StableHlo

/-- `n` operations of the last generated stretch, from its `a`-th on. -/
abbrev seg (a n : ℕ) : List (HloOp τ sig (Elt Ideal)) := ((hostOps0_32 (F := Ideal)).drop a).take n

/-- The host operations before the region, cut into forty stretches: the thirty-two generated ones before the last,
    and the last cut at its three concatenations. -/
def stretch : ℕ → List (HloOp τ sig (Elt Ideal))
  | 0 => hostOps0 | 1 => hostOps0_1 | 2 => hostOps0_2 | 3 => hostOps0_3 | 4 => hostOps0_4 | 5 => hostOps0_5
  | 6 => hostOps0_6 | 7 => hostOps0_7 | 8 => hostOps0_8 | 9 => hostOps0_9 | 10 => hostOps0_10 | 11 => hostOps0_11
  | 12 => hostOps0_12 | 13 => hostOps0_13 | 14 => hostOps0_14 | 15 => hostOps0_15 | 16 => hostOps0_16 | 17 => hostOps0_17
  | 18 => hostOps0_18 | 19 => hostOps0_19 | 20 => hostOps0_20 | 21 => hostOps0_21 | 22 => hostOps0_22 | 23 => hostOps0_23
  | 24 => hostOps0_24 | 25 => hostOps0_25 | 26 => hostOps0_26 | 27 => hostOps0_27 | 28 => hostOps0_28 | 29 => hostOps0_29
  | 30 => hostOps0_30 | 31 => hostOps0_31
  | 32 => seg 0 6 | 33 => seg 6 16 | 34 => seg 22 1 | 35 => seg 23 16 | 36 => seg 39 1 | 37 => seg 40 3 | 38 => seg 43 9 | 39 => seg 52 1
  | _ => []

/-- How many operations stretch `k` has. -/
def stretchLen (k : ℕ) : ℕ :=
  if k = 0 then 11 else if k < 32 then (if k % 2 = 1 then 3 else 14) else [6, 16, 1, 16, 1, 3, 9, 1].getD (k - 32) 0

/-- The number of the first buffer stretch `k` writes. -/
def firstBuf : ℕ → ℕ
  | 0 => 2
  | k + 1 => firstBuf k + stretchLen k

theorem firstBuf_mono (i j : ℕ) (h : i ≤ j) : firstBuf i ≤ firstBuf j := by
  induction h with
  | refl => exact Nat.le_refl _
  | step _ ih => exact Nat.le_trans ih (Nat.le_add_right _ _)

/-- An operation that writes exactly one buffer, numbered at least `n`. -/
def WritesFrom (n : ℕ) (op : HloOp τ sig (Elt Ideal)) : Prop :=
  ∃ r : Ref sig .tc, op.writes = {Proc.devRef .tc r} ∧ n ≤ r.idx.val

/-- A line of operations that write buffers numbered at least `n` leaves every lower-numbered buffer alone. -/
theorem after_keeps {n : ℕ} (ops : List (HloOp τ sig (Elt Ideal))) (h : ops.Forall (WritesFrom n)) (G : Valuation τ sig (Elt Ideal))
    (x : Ref sig .tc) (hx : x.idx.val < n) : after ops G (Proc.devRef .tc x) = G (Proc.devRef .tc x) :=
  after_of_forall_not_mem ops G fun op hop hb => by
    obtain ⟨r, hr, hn⟩ := List.forall_iff_forall_mem.mp h op hop
    rw [hr, Finset.mem_singleton] at hb
    have e : x = r := Proc.devRef_injective _ hb
    subst e; omega

/-- Each operation of a stretch: its one written buffer, and that buffer's number against the stretch's first. -/
local macro "stretch_writes_tac" : tactic =>
  `(tactic| (simp only [stretch, seg, hostOps0_32, List.drop_succ_cons, List.drop_zero, List.take_succ_cons, List.take_zero, List.Forall]
             repeat' (first | exact ⟨_, rfl, by decide⟩ | constructor)))

/-- Each stretch writes buffers numbered from its first on. -/
theorem stretch_writes : ∀ k, (stretch k).Forall (WritesFrom (firstBuf k))
  | 0 => by stretch_writes_tac
  | 1 => by stretch_writes_tac
  | 2 => by stretch_writes_tac
  | 3 => by stretch_writes_tac
  | 4 => by stretch_writes_tac
  | 5 => by stretch_writes_tac
  | 6 => by stretch_writes_tac
  | 7 => by stretch_writes_tac
  | 8 => by stretch_writes_tac
  | 9 => by stretch_writes_tac
  | 10 => by stretch_writes_tac
  | 11 => by stretch_writes_tac
  | 12 => by stretch_writes_tac
  | 13 => by stretch_writes_tac
  | 14 => by stretch_writes_tac
  | 15 => by stretch_writes_tac
  | 16 => by stretch_writes_tac
  | 17 => by stretch_writes_tac
  | 18 => by stretch_writes_tac
  | 19 => by stretch_writes_tac
  | 20 => by stretch_writes_tac
  | 21 => by stretch_writes_tac
  | 22 => by stretch_writes_tac
  | 23 => by stretch_writes_tac
  | 24 => by stretch_writes_tac
  | 25 => by stretch_writes_tac
  | 26 => by stretch_writes_tac
  | 27 => by stretch_writes_tac
  | 28 => by stretch_writes_tac
  | 29 => by stretch_writes_tac
  | 30 => by stretch_writes_tac
  | 31 => by stretch_writes_tac
  | 32 => by stretch_writes_tac
  | 33 => by stretch_writes_tac
  | 34 => by stretch_writes_tac
  | 35 => by stretch_writes_tac
  | 36 => by stretch_writes_tac
  | 37 => by stretch_writes_tac
  | 38 => by stretch_writes_tac
  | 39 => by stretch_writes_tac
  | (k + 40) => trivial

/-- What core `c`'s buffers hold after the first `k` stretches. -/
def cutVal (c : Dev nD) : ℕ → Valuation τ sig (Elt Ideal)
  | 0 => fun b => m (c, b)
  | k + 1 => after (stretch k) (cutVal c k)

theorem cutVal_succ (c : Dev nD) (k : ℕ) : cutVal m c (k + 1) = after (stretch k) (cutVal m c k) := rfl

/-- The last generated stretch is its eight pieces one after the other. -/
theorem after_last (G : Valuation τ sig (Elt Ideal)) :
    after (hostOps0_32 (F := Ideal)) G
      = after (seg 52 1) (after (seg 43 9) (after (seg 40 3) (after (seg 39 1) (after (seg 23 16) (after (seg 22 1) (after (seg 6 16) (after (seg 0 6) G))))))) := by
  simp only [← after_append]
  rfl

/-- The region finds the buffers as the forty stretches leave them. -/
theorem V0_eq (c : Dev nD) : V0 m c = cutVal m c 40 := by
  show after (preOps (F := Ideal)).flatten _ = _
  simp only [preOps, List.flatten_cons, List.flatten_nil, List.append_nil, after_append, after_last]
  rfl

/-- A buffer numbered below everything the stretches `j, …, j + n - 1` write is, after them, as it was before them. -/
theorem cutVal_keeps (c : Dev nD) (x : Ref sig .tc) (j : ℕ) : ∀ n : ℕ, (∀ i, i < n → x.idx.val < firstBuf (j + i)) →
    cutVal m c (j + n) (Proc.devRef .tc x) = cutVal m c j (Proc.devRef .tc x)
  | 0, _ => rfl
  | n + 1, h => by
    show after (stretch (j + n)) (cutVal m c (j + n)) _ = _
    rw [after_keeps _ (stretch_writes (j + n)) _ x (h n (Nat.lt_succ_self n))]
    exact cutVal_keeps c x j n fun i hi => h i (Nat.lt_succ_of_lt hi)

/-- A buffer numbered below what stretch `j` writes is, at any later cut, as it was at cut `j`. -/
theorem cutVal_keeps_from (c : Dev nD) (x : Ref sig .tc) (j k : ℕ) (hx : x.idx.val < firstBuf j) (hjk : j ≤ k) :
    cutVal m c k (Proc.devRef .tc x) = cutVal m c j (Proc.devRef .tc x) := by
  obtain ⟨n, rfl⟩ := Nat.exists_eq_add_of_le hjk
  exact cutVal_keeps m c x j n fun i _ => Nat.lt_of_lt_of_le hx (firstBuf_mono j (j + i) (Nat.le_add_right j i))

/-- Unfolds the stretches to their operations and rewrites each operation's result. -/
local macro "read" : tactic =>
  `(tactic| (simp only [stretch, seg, hostOps0, hostOps0_1, hostOps0_2, hostOps0_3, hostOps0_4, hostOps0_5, hostOps0_6, hostOps0_7,
               hostOps0_8, hostOps0_9, hostOps0_10, hostOps0_11, hostOps0_12, hostOps0_13, hostOps0_14, hostOps0_15, hostOps0_16,
               hostOps0_17, hostOps0_18, hostOps0_19, hostOps0_20, hostOps0_21, hostOps0_22, hostOps0_23, hostOps0_24, hostOps0_25,
               hostOps0_26, hostOps0_27, hostOps0_28, hostOps0_29, hostOps0_30, hostOps0_31, hostOps0_32,
               List.drop_succ_cons, List.drop_zero, List.take_succ_cons, List.take_zero]
             after_results))

/-! ## The walk, level by level

Level `s`'s node is buffer `main_v(10 s)`, its turn bit `main_v(10 s + 4)`, its sign `main_v(10 s + 6)`. The turn bit is
the comparison of the class word masked by bit `15 - s` with zero; the next node is the node plus `2 ^ s` plus the turn bit
widened; the sign is `-1` or `1` selected by the turn bit. -/

/-- One level's step of the walk, read at an index. -/
theorem walk_step (x : S2048.Idx → BitVec 32) (t : S2048.Idx → BitVec 1) (p : BitVec 32) (i : S2048.Idx) :
    addi (addi x (broadcastInDim S2048 ![] bcast_S_S2048 (constantI S_ 32 p))) (extui 32 t natLt_1_32) i
      = IntOp.addi (IntOp.addi (x i) p) ((t i).setWidth 32) := rfl

set_option hygiene false in
/-- A level's turn bit: its stretch read, and the class words taken back to the launch. -/
local macro "turn_level" k:num : tactic =>
  `(tactic| (rw [cutVal_succ m c $k]; read; rw [cutVal_keeps_from m c main_arg1 0 $k (by decide) (by decide)]; rfl))

set_option hygiene false in
/-- A level's node: its stretch read, the previous level's node and turn bit taken back to where they are known. -/
local macro "node_level" k:num j:num x:ident t:ident hx:ident ht:ident : tactic =>
  `(tactic| (rw [cutVal_succ m c $k]; read
             rw [cutVal_keeps_from m c $x $j $k (by decide) (by decide), cutVal_keeps_from m c $t $j $k (by decide) (by decide), walk_step,
               $hx:ident, $ht:ident]
             rfl))

set_option hygiene false in
/-- A level's sign: the three stretches that make it read one by one, and the class words taken back to the launch. -/
local macro "sign_level" k2:num k1:num k:num : tactic =>
  `(tactic| (rw [cutVal_succ m c $k2]; read; rw [cutVal_succ m c $k1]; read; rw [cutVal_succ m c $k]; read
             rw [cutVal_keeps_from m c main_arg1 0 $k (by decide) (by decide)]; rfl))

theorem turnBit0 (c : Dev nD) (b : Fin 2048) : (cutVal m c 1 (Proc.devRef .tc main_v4) : S2048.Idx → BitVec 1) (ix1 b) = turn (classes m c (ix1 b)) 0 := by
  rw [cutVal_succ m c 0]; read; rfl
theorem nodeWord0 (c : Dev nD) (b : Fin 2048) : (cutVal m c 1 (Proc.devRef .tc main_v0) : S2048.Idx → BitVec 32) (ix1 b) = node (classes m c (ix1 b)) 0 := by
  rw [cutVal_succ m c 0]; read; rfl
theorem signVal0 (c : Dev nD) (b : Fin 2048) : (cutVal m c 3 (Proc.devRef .tc main_v6) : S2048.Idx → EReal) (ix1 b)
    = Scalar.select (turn (classes m c (ix1 b)) 0) (Ideal.ofBits .f32 0xBF800000#32) (Ideal.ofBits .f32 0x3F800000#32) := by
  rw [cutVal_succ m c 2]; read; rw [cutVal_succ m c 1]; read; rw [cutVal_succ m c 0]; read; rfl

theorem turnBit1 (c : Dev nD) (b : Fin 2048) : (cutVal m c 3 (Proc.devRef .tc main_v14) : S2048.Idx → BitVec 1) (ix1 b) = turn (classes m c (ix1 b)) 1 := by
  turn_level 2
theorem nodeWord1 (c : Dev nD) (b : Fin 2048) : (cutVal m c 3 (Proc.devRef .tc main_v10) : S2048.Idx → BitVec 32) (ix1 b) = node (classes m c (ix1 b)) 1 := by
  node_level 2 1 main_v0 main_v4 nodeWord0 turnBit0
theorem signVal1 (c : Dev nD) (b : Fin 2048) : (cutVal m c 5 (Proc.devRef .tc main_v16) : S2048.Idx → EReal) (ix1 b)
    = Scalar.select (turn (classes m c (ix1 b)) 1) (Ideal.ofBits .f32 0xBF800000#32) (Ideal.ofBits .f32 0x3F800000#32) := by
  sign_level 4 3 2

theorem turnBit2 (c : Dev nD) (b : Fin 2048) : (cutVal m c 5 (Proc.devRef .tc main_v24) : S2048.Idx → BitVec 1) (ix1 b) = turn (classes m c (ix1 b)) 2 := by
  turn_level 4
theorem nodeWord2 (c : Dev nD) (b : Fin 2048) : (cutVal m c 5 (Proc.devRef .tc main_v20) : S2048.Idx → BitVec 32) (ix1 b) = node (classes m c (ix1 b)) 2 := by
  node_level 4 3 main_v10 main_v14 nodeWord1 turnBit1
theorem signVal2 (c : Dev nD) (b : Fin 2048) : (cutVal m c 7 (Proc.devRef .tc main_v26) : S2048.Idx → EReal) (ix1 b)
    = Scalar.select (turn (classes m c (ix1 b)) 2) (Ideal.ofBits .f32 0xBF800000#32) (Ideal.ofBits .f32 0x3F800000#32) := by
  sign_level 6 5 4

theorem turnBit3 (c : Dev nD) (b : Fin 2048) : (cutVal m c 7 (Proc.devRef .tc main_v34) : S2048.Idx → BitVec 1) (ix1 b) = turn (classes m c (ix1 b)) 3 := by
  turn_level 6
theorem nodeWord3 (c : Dev nD) (b : Fin 2048) : (cutVal m c 7 (Proc.devRef .tc main_v30) : S2048.Idx → BitVec 32) (ix1 b) = node (classes m c (ix1 b)) 3 := by
  node_level 6 5 main_v20 main_v24 nodeWord2 turnBit2
theorem signVal3 (c : Dev nD) (b : Fin 2048) : (cutVal m c 9 (Proc.devRef .tc main_v36) : S2048.Idx → EReal) (ix1 b)
    = Scalar.select (turn (classes m c (ix1 b)) 3) (Ideal.ofBits .f32 0xBF800000#32) (Ideal.ofBits .f32 0x3F800000#32) := by
  sign_level 8 7 6

theorem turnBit4 (c : Dev nD) (b : Fin 2048) : (cutVal m c 9 (Proc.devRef .tc main_v44) : S2048.Idx → BitVec 1) (ix1 b) = turn (classes m c (ix1 b)) 4 := by
  turn_level 8
theorem nodeWord4 (c : Dev nD) (b : Fin 2048) : (cutVal m c 9 (Proc.devRef .tc main_v40) : S2048.Idx → BitVec 32) (ix1 b) = node (classes m c (ix1 b)) 4 := by
  node_level 8 7 main_v30 main_v34 nodeWord3 turnBit3
theorem signVal4 (c : Dev nD) (b : Fin 2048) : (cutVal m c 11 (Proc.devRef .tc main_v46) : S2048.Idx → EReal) (ix1 b)
    = Scalar.select (turn (classes m c (ix1 b)) 4) (Ideal.ofBits .f32 0xBF800000#32) (Ideal.ofBits .f32 0x3F800000#32) := by
  sign_level 10 9 8

theorem turnBit5 (c : Dev nD) (b : Fin 2048) : (cutVal m c 11 (Proc.devRef .tc main_v54) : S2048.Idx → BitVec 1) (ix1 b) = turn (classes m c (ix1 b)) 5 := by
  turn_level 10
theorem nodeWord5 (c : Dev nD) (b : Fin 2048) : (cutVal m c 11 (Proc.devRef .tc main_v50) : S2048.Idx → BitVec 32) (ix1 b) = node (classes m c (ix1 b)) 5 := by
  node_level 10 9 main_v40 main_v44 nodeWord4 turnBit4
theorem signVal5 (c : Dev nD) (b : Fin 2048) : (cutVal m c 13 (Proc.devRef .tc main_v56) : S2048.Idx → EReal) (ix1 b)
    = Scalar.select (turn (classes m c (ix1 b)) 5) (Ideal.ofBits .f32 0xBF800000#32) (Ideal.ofBits .f32 0x3F800000#32) := by
  sign_level 12 11 10

theorem turnBit6 (c : Dev nD) (b : Fin 2048) : (cutVal m c 13 (Proc.devRef .tc main_v64) : S2048.Idx → BitVec 1) (ix1 b) = turn (classes m c (ix1 b)) 6 := by
  turn_level 12
theorem nodeWord6 (c : Dev nD) (b : Fin 2048) : (cutVal m c 13 (Proc.devRef .tc main_v60) : S2048.Idx → BitVec 32) (ix1 b) = node (classes m c (ix1 b)) 6 := by
  node_level 12 11 main_v50 main_v54 nodeWord5 turnBit5
theorem signVal6 (c : Dev nD) (b : Fin 2048) : (cutVal m c 15 (Proc.devRef .tc main_v66) : S2048.Idx → EReal) (ix1 b)
    = Scalar.select (turn (classes m c (ix1 b)) 6) (Ideal.ofBits .f32 0xBF800000#32) (Ideal.ofBits .f32 0x3F800000#32) := by
  sign_level 14 13 12

theorem turnBit7 (c : Dev nD) (b : Fin 2048) : (cutVal m c 15 (Proc.devRef .tc main_v74) : S2048.Idx → BitVec 1) (ix1 b) = turn (classes m c (ix1 b)) 7 := by
  turn_level 14
theorem nodeWord7 (c : Dev nD) (b : Fin 2048) : (cutVal m c 15 (Proc.devRef .tc main_v70) : S2048.Idx → BitVec 32) (ix1 b) = node (classes m c (ix1 b)) 7 := by
  node_level 14 13 main_v60 main_v64 nodeWord6 turnBit6
theorem signVal7 (c : Dev nD) (b : Fin 2048) : (cutVal m c 17 (Proc.devRef .tc main_v76) : S2048.Idx → EReal) (ix1 b)
    = Scalar.select (turn (classes m c (ix1 b)) 7) (Ideal.ofBits .f32 0xBF800000#32) (Ideal.ofBits .f32 0x3F800000#32) := by
  sign_level 16 15 14

theorem turnBit8 (c : Dev nD) (b : Fin 2048) : (cutVal m c 17 (Proc.devRef .tc main_v84) : S2048.Idx → BitVec 1) (ix1 b) = turn (classes m c (ix1 b)) 8 := by
  turn_level 16
theorem nodeWord8 (c : Dev nD) (b : Fin 2048) : (cutVal m c 17 (Proc.devRef .tc main_v80) : S2048.Idx → BitVec 32) (ix1 b) = node (classes m c (ix1 b)) 8 := by
  node_level 16 15 main_v70 main_v74 nodeWord7 turnBit7
theorem signVal8 (c : Dev nD) (b : Fin 2048) : (cutVal m c 19 (Proc.devRef .tc main_v86) : S2048.Idx → EReal) (ix1 b)
    = Scalar.select (turn (classes m c (ix1 b)) 8) (Ideal.ofBits .f32 0xBF800000#32) (Ideal.ofBits .f32 0x3F800000#32) := by
  sign_level 18 17 16

theorem turnBit9 (c : Dev nD) (b : Fin 2048) : (cutVal m c 19 (Proc.devRef .tc main_v94) : S2048.Idx → BitVec 1) (ix1 b) = turn (classes m c (ix1 b)) 9 := by
  turn_level 18
theorem nodeWord9 (c : Dev nD) (b : Fin 2048) : (cutVal m c 19 (Proc.devRef .tc main_v90) : S2048.Idx → BitVec 32) (ix1 b) = node (classes m c (ix1 b)) 9 := by
  node_level 18 17 main_v80 main_v84 nodeWord8 turnBit8
theorem signVal9 (c : Dev nD) (b : Fin 2048) : (cutVal m c 21 (Proc.devRef .tc main_v96) : S2048.Idx → EReal) (ix1 b)
    = Scalar.select (turn (classes m c (ix1 b)) 9) (Ideal.ofBits .f32 0xBF800000#32) (Ideal.ofBits .f32 0x3F800000#32) := by
  sign_level 20 19 18

theorem turnBit10 (c : Dev nD) (b : Fin 2048) : (cutVal m c 21 (Proc.devRef .tc main_v104) : S2048.Idx → BitVec 1) (ix1 b) = turn (classes m c (ix1 b)) 10 := by
  turn_level 20
theorem nodeWord10 (c : Dev nD) (b : Fin 2048) : (cutVal m c 21 (Proc.devRef .tc main_v100) : S2048.Idx → BitVec 32) (ix1 b) = node (classes m c (ix1 b)) 10 := by
  node_level 20 19 main_v90 main_v94 nodeWord9 turnBit9
theorem signVal10 (c : Dev nD) (b : Fin 2048) : (cutVal m c 23 (Proc.devRef .tc main_v106) : S2048.Idx → EReal) (ix1 b)
    = Scalar.select (turn (classes m c (ix1 b)) 10) (Ideal.ofBits .f32 0xBF800000#32) (Ideal.ofBits .f32 0x3F800000#32) := by
  sign_level 22 21 20

theorem turnBit11 (c : Dev nD) (b : Fin 2048) : (cutVal m c 23 (Proc.devRef .tc main_v114) : S2048.Idx → BitVec 1) (ix1 b) = turn (classes m c (ix1 b)) 11 := by
  turn_level 22
theorem nodeWord11 (c : Dev nD) (b : Fin 2048) : (cutVal m c 23 (Proc.devRef .tc main_v110) : S2048.Idx → BitVec 32) (ix1 b) = node (classes m c (ix1 b)) 11 := by
  node_level 22 21 main_v100 main_v104 nodeWord10 turnBit10
theorem signVal11 (c : Dev nD) (b : Fin 2048) : (cutVal m c 25 (Proc.devRef .tc main_v116) : S2048.Idx → EReal) (ix1 b)
    = Scalar.select (turn (classes m c (ix1 b)) 11) (Ideal.ofBits .f32 0xBF800000#32) (Ideal.ofBits .f32 0x3F800000#32) := by
  sign_level 24 23 22

theorem turnBit12 (c : Dev nD) (b : Fin 2048) : (cutVal m c 25 (Proc.devRef .tc main_v124) : S2048.Idx → BitVec 1) (ix1 b) = turn (classes m c (ix1 b)) 12 := by
  turn_level 24
theorem nodeWord12 (c : Dev nD) (b : Fin 2048) : (cutVal m c 25 (Proc.devRef .tc main_v120) : S2048.Idx → BitVec 32) (ix1 b) = node (classes m c (ix1 b)) 12 := by
  node_level 24 23 main_v110 main_v114 nodeWord11 turnBit11
theorem signVal12 (c : Dev nD) (b : Fin 2048) : (cutVal m c 27 (Proc.devRef .tc main_v126) : S2048.Idx → EReal) (ix1 b)
    = Scalar.select (turn (classes m c (ix1 b)) 12) (Ideal.ofBits .f32 0xBF800000#32) (Ideal.ofBits .f32 0x3F800000#32) := by
  sign_level 26 25 24

theorem turnBit13 (c : Dev nD) (b : Fin 2048) : (cutVal m c 27 (Proc.devRef .tc main_v134) : S2048.Idx → BitVec 1) (ix1 b) = turn (classes m c (ix1 b)) 13 := by
  turn_level 26
theorem nodeWord13 (c : Dev nD) (b : Fin 2048) : (cutVal m c 27 (Proc.devRef .tc main_v130) : S2048.Idx → BitVec 32) (ix1 b) = node (classes m c (ix1 b)) 13 := by
  node_level 26 25 main_v120 main_v124 nodeWord12 turnBit12
theorem signVal13 (c : Dev nD) (b : Fin 2048) : (cutVal m c 29 (Proc.devRef .tc main_v136) : S2048.Idx → EReal) (ix1 b)
    = Scalar.select (turn (classes m c (ix1 b)) 13) (Ideal.ofBits .f32 0xBF800000#32) (Ideal.ofBits .f32 0x3F800000#32) := by
  sign_level 28 27 26

theorem turnBit14 (c : Dev nD) (b : Fin 2048) : (cutVal m c 29 (Proc.devRef .tc main_v144) : S2048.Idx → BitVec 1) (ix1 b) = turn (classes m c (ix1 b)) 14 := by
  turn_level 28
theorem nodeWord14 (c : Dev nD) (b : Fin 2048) : (cutVal m c 29 (Proc.devRef .tc main_v140) : S2048.Idx → BitVec 32) (ix1 b) = node (classes m c (ix1 b)) 14 := by
  node_level 28 27 main_v130 main_v134 nodeWord13 turnBit13
theorem signVal14 (c : Dev nD) (b : Fin 2048) : (cutVal m c 31 (Proc.devRef .tc main_v146) : S2048.Idx → EReal) (ix1 b)
    = Scalar.select (turn (classes m c (ix1 b)) 14) (Ideal.ofBits .f32 0xBF800000#32) (Ideal.ofBits .f32 0x3F800000#32) := by
  sign_level 30 29 28

theorem turnBit15 (c : Dev nD) (b : Fin 2048) : (cutVal m c 31 (Proc.devRef .tc main_v154) : S2048.Idx → BitVec 1) (ix1 b) = turn (classes m c (ix1 b)) 15 := by
  turn_level 30
theorem nodeWord15 (c : Dev nD) (b : Fin 2048) : (cutVal m c 31 (Proc.devRef .tc main_v150) : S2048.Idx → BitVec 32) (ix1 b) = node (classes m c (ix1 b)) 15 := by
  node_level 30 29 main_v140 main_v144 nodeWord14 turnBit14
theorem signVal15 (c : Dev nD) (b : Fin 2048) : (cutVal m c 33 (Proc.devRef .tc main_v156) : S2048.Idx → EReal) (ix1 b)
    = Scalar.select (turn (classes m c (ix1 b)) 15) (Ideal.ofBits .f32 0xBF800000#32) (Ideal.ofBits .f32 0x3F800000#32) := by
  sign_level 32 31 30

/-! ## The three arrays read at an index -/

/-- A column made of a vector reads the vector's element of the row. -/
theorem col_apply {α : Type} (x : S2048.Idx → α) (b : Fin 2048) (z : Fin 1) :
    broadcastInDim S2048x1 ![0] bcast_S2048_S2048x1_0 x (ix2 b z) = x (ix1 b) :=
  broadcastInDim_apply _ _ _ _ _ (fun a => match a with | ⟨0, _⟩ => rfl)

/-- A difference of integer arrays at an index. -/
theorem subi_apply {s : Shape} {w : ℕ} (x y : IVec s w) (i : s.Idx) : subi x y i = x i - y i := rfl

/-- Off the second axis, a piece's index `(b, z)` and the whole's index `(b, y)` have the same coordinate. -/
theorem off_axis {R w N : ℕ} (b : Fin R) (z : Fin w) (y : Fin N)
    (hr : (⟨2, ![R, w]⟩ : Shape).rank = (⟨2, ![R, N]⟩ : Shape).rank) :
    ∀ a : Fin (⟨2, ![R, w]⟩ : Shape).rank, a.cast hr ≠ (1 : Fin 2) →
      ((ix2 b z : (⟨2, ![R, w]⟩ : Shape).Idx) a).val = ((ix2 b y : (⟨2, ![R, N]⟩ : Shape).Idx) (a.cast hr)).val
  | ⟨0, _⟩, _ => rfl
  | ⟨1, _⟩, h => (h rfl).elim

/-- Sixteen columns side by side read, at `(b, s)`, the `s`-th column at row `b`: the `s` columns before it are one wide each. -/
theorem piece_col {α : Type} (xs : List ((s : Shape) × (s.Idx → α))) (h : Shape.Concatenates (xs.map (·.1)) S2048x16 1)
    (b : Fin 2048) (s : Fin 16) (hsh : xs.map (·.1) = List.replicate 16 S2048x1) (hlen : xs.length = 16) (x₁ : S2048x1.Idx → α)
    (hxk : xs[s.val]'(Nat.lt_of_lt_of_eq s.isLt hlen.symm) = ⟨S2048x1, x₁⟩)
    (v : α) (hv : x₁ (ix2 b 0) = v) : concatenate S2048x16 1 xs h (ix2 b s) = v := by
  have hpre : (((xs.take s.val).map (·.1)).map fun u => if h : u.rank = S2048x16.rank then u.size ((1 : Fin S2048x16.rank).cast h.symm) else 0).sum = s.val := by
    rw [List.map_take, hsh, List.take_replicate, List.map_replicate, List.sum_replicate, Nat.min_eq_left (Nat.le_of_lt s.isLt)]
    exact Nat.mul_one _
  exact (concatenate_apply_piece 1 xs h (ix2 b s) s.val (Nat.lt_of_lt_of_eq s.isLt hlen.symm) S2048x1 x₁ hxk rfl s.val hpre (ix2 b 0)
    (off_axis b (0 : Fin 1) s rfl) rfl).trans hv

/-- Nine windows side by side read, at `(b, j)`, window `j / 256` at `(b, j % 256)`. -/
theorem piece_win {α : Type} (xs : List ((s : Shape) × (s.Idx → α))) (h : Shape.Concatenates (xs.map (·.1)) S2048x2304 1)
    (b : Fin 2048) (j : Fin 2304) (k : Fin 9) (hk : j.val / 256 = k.val) (hm : j.val % 256 < 256) (hlen : xs.length = 9)
    (x₁ : S2048x256.Idx → α) (hxk : xs[k.val]'(Nat.lt_of_lt_of_eq k.isLt hlen.symm) = ⟨S2048x256, x₁⟩)
    (hpre : (((xs.take k.val).map (·.1)).map fun u => if h : u.rank = S2048x2304.rank then u.size ((1 : Fin S2048x2304.rank).cast h.symm) else 0).sum = 256 * k.val)
    (v : α) (hv : x₁ (ix2 b ⟨j.val % 256, hm⟩) = v) : concatenate S2048x2304 1 xs h (ix2 b j) = v :=
  (concatenate_apply_piece 1 xs h (ix2 b j) k.val (Nat.lt_of_lt_of_eq k.isLt hlen.symm) S2048x256 x₁ hxk rfl (256 * k.val) hpre
    (ix2 b ⟨j.val % 256, hm⟩) (off_axis b (⟨j.val % 256, hm⟩ : Fin 256) j rfl)
    (by show 256 * k.val + j.val % 256 = j.val; omega)).trans hv

set_option hygiene false in
/-- A node column: the column is the level's node buffer, which is as the level's stretch left it. -/
local macro "node_col" x:ident j:num h:ident : tactic =>
  `(tactic| (rw [cutVal_succ m c 33]; read
             rw [col_apply, cutVal_keeps_from m c $x $j 33 (by decide) (by decide)]
             exact $h m c b))

set_option hygiene false in
/-- A sign column: the column is the level's sign buffer, which is as its stretch left it. -/
local macro "sign_col" x:ident j:num h:ident : tactic =>
  `(tactic| (rw [cutVal_succ m c 35]; read
             rw [col_apply, cutVal_keeps_from m c $x $j 35 (by decide) (by decide)]
             exact $h m c b))

theorem nodeCol0 (c : Dev nD) (b : Fin 2048) (z : Fin 1) : (cutVal m c 34 (Proc.devRef .tc main_v161) : S2048x1.Idx → BitVec 32) (ix2 b z) = node (classes m c (ix1 b)) 0 := by
  node_col main_v0 1 nodeWord0
theorem nodeCol1 (c : Dev nD) (b : Fin 2048) (z : Fin 1) : (cutVal m c 34 (Proc.devRef .tc main_v162) : S2048x1.Idx → BitVec 32) (ix2 b z) = node (classes m c (ix1 b)) 1 := by
  node_col main_v10 3 nodeWord1
theorem nodeCol2 (c : Dev nD) (b : Fin 2048) (z : Fin 1) : (cutVal m c 34 (Proc.devRef .tc main_v163) : S2048x1.Idx → BitVec 32) (ix2 b z) = node (classes m c (ix1 b)) 2 := by
  node_col main_v20 5 nodeWord2
theorem nodeCol3 (c : Dev nD) (b : Fin 2048) (z : Fin 1) : (cutVal m c 34 (Proc.devRef .tc main_v164) : S2048x1.Idx → BitVec 32) (ix2 b z) = node (classes m c (ix1 b)) 3 := by
  node_col main_v30 7 nodeWord3
theorem nodeCol4 (c : Dev nD) (b : Fin 2048) (z : Fin 1) : (cutVal m c 34 (Proc.devRef .tc main_v165) : S2048x1.Idx → BitVec 32) (ix2 b z) = node (classes m c (ix1 b)) 4 := by
  node_col main_v40 9 nodeWord4
theorem nodeCol5 (c : Dev nD) (b : Fin 2048) (z : Fin 1) : (cutVal m c 34 (Proc.devRef .tc main_v166) : S2048x1.Idx → BitVec 32) (ix2 b z) = node (classes m c (ix1 b)) 5 := by
  node_col main_v50 11 nodeWord5
theorem nodeCol6 (c : Dev nD) (b : Fin 2048) (z : Fin 1) : (cutVal m c 34 (Proc.devRef .tc main_v167) : S2048x1.Idx → BitVec 32) (ix2 b z) = node (classes m c (ix1 b)) 6 := by
  node_col main_v60 13 nodeWord6
theorem nodeCol7 (c : Dev nD) (b : Fin 2048) (z : Fin 1) : (cutVal m c 34 (Proc.devRef .tc main_v168) : S2048x1.Idx → BitVec 32) (ix2 b z) = node (classes m c (ix1 b)) 7 := by
  node_col main_v70 15 nodeWord7
theorem nodeCol8 (c : Dev nD) (b : Fin 2048) (z : Fin 1) : (cutVal m c 34 (Proc.devRef .tc main_v169) : S2048x1.Idx → BitVec 32) (ix2 b z) = node (classes m c (ix1 b)) 8 := by
  node_col main_v80 17 nodeWord8
theorem nodeCol9 (c : Dev nD) (b : Fin 2048) (z : Fin 1) : (cutVal m c 34 (Proc.devRef .tc main_v170) : S2048x1.Idx → BitVec 32) (ix2 b z) = node (classes m c (ix1 b)) 9 := by
  node_col main_v90 19 nodeWord9
theorem nodeCol10 (c : Dev nD) (b : Fin 2048) (z : Fin 1) : (cutVal m c 34 (Proc.devRef .tc main_v171) : S2048x1.Idx → BitVec 32) (ix2 b z) = node (classes m c (ix1 b)) 10 := by
  node_col main_v100 21 nodeWord10
theorem nodeCol11 (c : Dev nD) (b : Fin 2048) (z : Fin 1) : (cutVal m c 34 (Proc.devRef .tc main_v172) : S2048x1.Idx → BitVec 32) (ix2 b z) = node (classes m c (ix1 b)) 11 := by
  node_col main_v110 23 nodeWord11
theorem nodeCol12 (c : Dev nD) (b : Fin 2048) (z : Fin 1) : (cutVal m c 34 (Proc.devRef .tc main_v173) : S2048x1.Idx → BitVec 32) (ix2 b z) = node (classes m c (ix1 b)) 12 := by
  node_col main_v120 25 nodeWord12
theorem nodeCol13 (c : Dev nD) (b : Fin 2048) (z : Fin 1) : (cutVal m c 34 (Proc.devRef .tc main_v174) : S2048x1.Idx → BitVec 32) (ix2 b z) = node (classes m c (ix1 b)) 13 := by
  node_col main_v130 27 nodeWord13
theorem nodeCol14 (c : Dev nD) (b : Fin 2048) (z : Fin 1) : (cutVal m c 34 (Proc.devRef .tc main_v175) : S2048x1.Idx → BitVec 32) (ix2 b z) = node (classes m c (ix1 b)) 14 := by
  node_col main_v140 29 nodeWord14
theorem nodeCol15 (c : Dev nD) (b : Fin 2048) (z : Fin 1) : (cutVal m c 34 (Proc.devRef .tc main_v176) : S2048x1.Idx → BitVec 32) (ix2 b z) = node (classes m c (ix1 b)) 15 := by
  node_col main_v150 31 nodeWord15

theorem signCol0 (c : Dev nD) (b : Fin 2048) (z : Fin 1) : (cutVal m c 36 (Proc.devRef .tc main_v178) : S2048x1.Idx → EReal) (ix2 b z)
    = Scalar.select (turn (classes m c (ix1 b)) 0) (Ideal.ofBits .f32 0xBF800000#32) (Ideal.ofBits .f32 0x3F800000#32) := by
  sign_col main_v6 3 signVal0
theorem signCol1 (c : Dev nD) (b : Fin 2048) (z : Fin 1) : (cutVal m c 36 (Proc.devRef .tc main_v179) : S2048x1.Idx → EReal) (ix2 b z)
    = Scalar.select (turn (classes m c (ix1 b)) 1) (Ideal.ofBits .f32 0xBF800000#32) (Ideal.ofBits .f32 0x3F800000#32) := by
  sign_col main_v16 5 signVal1
theorem signCol2 (c : Dev nD) (b : Fin 2048) (z : Fin 1) : (cutVal m c 36 (Proc.devRef .tc main_v180) : S2048x1.Idx → EReal) (ix2 b z)
    = Scalar.select (turn (classes m c (ix1 b)) 2) (Ideal.ofBits .f32 0xBF800000#32) (Ideal.ofBits .f32 0x3F800000#32) := by
  sign_col main_v26 7 signVal2
theorem signCol3 (c : Dev nD) (b : Fin 2048) (z : Fin 1) : (cutVal m c 36 (Proc.devRef .tc main_v181) : S2048x1.Idx → EReal) (ix2 b z)
    = Scalar.select (turn (classes m c (ix1 b)) 3) (Ideal.ofBits .f32 0xBF800000#32) (Ideal.ofBits .f32 0x3F800000#32) := by
  sign_col main_v36 9 signVal3
theorem signCol4 (c : Dev nD) (b : Fin 2048) (z : Fin 1) : (cutVal m c 36 (Proc.devRef .tc main_v182) : S2048x1.Idx → EReal) (ix2 b z)
    = Scalar.select (turn (classes m c (ix1 b)) 4) (Ideal.ofBits .f32 0xBF800000#32) (Ideal.ofBits .f32 0x3F800000#32) := by
  sign_col main_v46 11 signVal4
theorem signCol5 (c : Dev nD) (b : Fin 2048) (z : Fin 1) : (cutVal m c 36 (Proc.devRef .tc main_v183) : S2048x1.Idx → EReal) (ix2 b z)
    = Scalar.select (turn (classes m c (ix1 b)) 5) (Ideal.ofBits .f32 0xBF800000#32) (Ideal.ofBits .f32 0x3F800000#32) := by
  sign_col main_v56 13 signVal5
theorem signCol6 (c : Dev nD) (b : Fin 2048) (z : Fin 1) : (cutVal m c 36 (Proc.devRef .tc main_v184) : S2048x1.Idx → EReal) (ix2 b z)
    = Scalar.select (turn (classes m c (ix1 b)) 6) (Ideal.ofBits .f32 0xBF800000#32) (Ideal.ofBits .f32 0x3F800000#32) := by
  sign_col main_v66 15 signVal6
theorem signCol7 (c : Dev nD) (b : Fin 2048) (z : Fin 1) : (cutVal m c 36 (Proc.devRef .tc main_v185) : S2048x1.Idx → EReal) (ix2 b z)
    = Scalar.select (turn (classes m c (ix1 b)) 7) (Ideal.ofBits .f32 0xBF800000#32) (Ideal.ofBits .f32 0x3F800000#32) := by
  sign_col main_v76 17 signVal7
theorem signCol8 (c : Dev nD) (b : Fin 2048) (z : Fin 1) : (cutVal m c 36 (Proc.devRef .tc main_v186) : S2048x1.Idx → EReal) (ix2 b z)
    = Scalar.select (turn (classes m c (ix1 b)) 8) (Ideal.ofBits .f32 0xBF800000#32) (Ideal.ofBits .f32 0x3F800000#32) := by
  sign_col main_v86 19 signVal8
theorem signCol9 (c : Dev nD) (b : Fin 2048) (z : Fin 1) : (cutVal m c 36 (Proc.devRef .tc main_v187) : S2048x1.Idx → EReal) (ix2 b z)
    = Scalar.select (turn (classes m c (ix1 b)) 9) (Ideal.ofBits .f32 0xBF800000#32) (Ideal.ofBits .f32 0x3F800000#32) := by
  sign_col main_v96 21 signVal9
theorem signCol10 (c : Dev nD) (b : Fin 2048) (z : Fin 1) : (cutVal m c 36 (Proc.devRef .tc main_v188) : S2048x1.Idx → EReal) (ix2 b z)
    = Scalar.select (turn (classes m c (ix1 b)) 10) (Ideal.ofBits .f32 0xBF800000#32) (Ideal.ofBits .f32 0x3F800000#32) := by
  sign_col main_v106 23 signVal10
theorem signCol11 (c : Dev nD) (b : Fin 2048) (z : Fin 1) : (cutVal m c 36 (Proc.devRef .tc main_v189) : S2048x1.Idx → EReal) (ix2 b z)
    = Scalar.select (turn (classes m c (ix1 b)) 11) (Ideal.ofBits .f32 0xBF800000#32) (Ideal.ofBits .f32 0x3F800000#32) := by
  sign_col main_v116 25 signVal11
theorem signCol12 (c : Dev nD) (b : Fin 2048) (z : Fin 1) : (cutVal m c 36 (Proc.devRef .tc main_v190) : S2048x1.Idx → EReal) (ix2 b z)
    = Scalar.select (turn (classes m c (ix1 b)) 12) (Ideal.ofBits .f32 0xBF800000#32) (Ideal.ofBits .f32 0x3F800000#32) := by
  sign_col main_v126 27 signVal12
theorem signCol13 (c : Dev nD) (b : Fin 2048) (z : Fin 1) : (cutVal m c 36 (Proc.devRef .tc main_v191) : S2048x1.Idx → EReal) (ix2 b z)
    = Scalar.select (turn (classes m c (ix1 b)) 13) (Ideal.ofBits .f32 0xBF800000#32) (Ideal.ofBits .f32 0x3F800000#32) := by
  sign_col main_v136 29 signVal13
theorem signCol14 (c : Dev nD) (b : Fin 2048) (z : Fin 1) : (cutVal m c 36 (Proc.devRef .tc main_v192) : S2048x1.Idx → EReal) (ix2 b z)
    = Scalar.select (turn (classes m c (ix1 b)) 14) (Ideal.ofBits .f32 0xBF800000#32) (Ideal.ofBits .f32 0x3F800000#32) := by
  sign_col main_v146 31 signVal14
theorem signCol15 (c : Dev nD) (b : Fin 2048) (z : Fin 1) : (cutVal m c 36 (Proc.devRef .tc main_v193) : S2048x1.Idx → EReal) (ix2 b z)
    = Scalar.select (turn (classes m c (ix1 b)) 15) (Ideal.ofBits .f32 0xBF800000#32) (Ideal.ofBits .f32 0x3F800000#32) := by
  sign_col main_v156 33 signVal15

set_option hygiene false in
/-- A window of the slab: the slice of the scores from the window's first column, the scores being as launched. -/
local macro "slab_win" st:num : tactic =>
  `(tactic| (rw [cutVal_succ m c 38]; read
             rw [slice2_axis1_eq, cutVal_keeps_from m c main_arg0 0 38 (by decide) (by decide)]
             refine congrArg (scores m c) (congrArg (ix2 b) (Fin.ext ?_))
             show $st + j.val % 256 = slabStart (j.val / 256) + j.val % 256
             rw [hk]; rfl))

theorem slabWin0 (c : Dev nD) (b : Fin 2048) (j : Fin 2304) (hm : j.val % 256 < 256) (hk : j.val / 256 = 0) :
    (cutVal m c 39 (Proc.devRef .tc main_v198) : S2048x256.Idx → EReal) (ix2 b ⟨j.val % 256, hm⟩) = scores m c (ix2 b (slabCol j)) := by
  slab_win 0
theorem slabWin1 (c : Dev nD) (b : Fin 2048) (j : Fin 2304) (hm : j.val % 256 < 256) (hk : j.val / 256 = 1) :
    (cutVal m c 39 (Proc.devRef .tc main_v199) : S2048x256.Idx → EReal) (ix2 b ⟨j.val % 256, hm⟩) = scores m c (ix2 b (slabCol j)) := by
  slab_win 128
theorem slabWin2 (c : Dev nD) (b : Fin 2048) (j : Fin 2304) (hm : j.val % 256 < 256) (hk : j.val / 256 = 2) :
    (cutVal m c 39 (Proc.devRef .tc main_v200) : S2048x256.Idx → EReal) (ix2 b ⟨j.val % 256, hm⟩) = scores m c (ix2 b (slabCol j)) := by
  slab_win 384
theorem slabWin3 (c : Dev nD) (b : Fin 2048) (j : Fin 2304) (hm : j.val % 256 < 256) (hk : j.val / 256 = 3) :
    (cutVal m c 39 (Proc.devRef .tc main_v201) : S2048x256.Idx → EReal) (ix2 b ⟨j.val % 256, hm⟩) = scores m c (ix2 b (slabCol j)) := by
  slab_win 896
theorem slabWin4 (c : Dev nD) (b : Fin 2048) (j : Fin 2304) (hm : j.val % 256 < 256) (hk : j.val / 256 = 4) :
    (cutVal m c 39 (Proc.devRef .tc main_v202) : S2048x256.Idx → EReal) (ix2 b ⟨j.val % 256, hm⟩) = scores m c (ix2 b (slabCol j)) := by
  slab_win 1920
theorem slabWin5 (c : Dev nD) (b : Fin 2048) (j : Fin 2304) (hm : j.val % 256 < 256) (hk : j.val / 256 = 5) :
    (cutVal m c 39 (Proc.devRef .tc main_v203) : S2048x256.Idx → EReal) (ix2 b ⟨j.val % 256, hm⟩) = scores m c (ix2 b (slabCol j)) := by
  slab_win 3968
theorem slabWin6 (c : Dev nD) (b : Fin 2048) (j : Fin 2304) (hm : j.val % 256 < 256) (hk : j.val / 256 = 6) :
    (cutVal m c 39 (Proc.devRef .tc main_v204) : S2048x256.Idx → EReal) (ix2 b ⟨j.val % 256, hm⟩) = scores m c (ix2 b (slabCol j)) := by
  slab_win 8064
theorem slabWin7 (c : Dev nD) (b : Fin 2048) (j : Fin 2304) (hm : j.val % 256 < 256) (hk : j.val / 256 = 7) :
    (cutVal m c 39 (Proc.devRef .tc main_v205) : S2048x256.Idx → EReal) (ix2 b ⟨j.val % 256, hm⟩) = scores m c (ix2 b (slabCol j)) := by
  slab_win 16256
theorem slabWin8 (c : Dev nD) (b : Fin 2048) (j : Fin 2304) (hm : j.val % 256 < 256) (hk : j.val / 256 = 8) :
    (cutVal m c 39 (Proc.devRef .tc main_v206) : S2048x256.Idx → EReal) (ix2 b ⟨j.val % 256, hm⟩) = scores m c (ix2 b (slabCol j)) := by
  slab_win 32640

/-- The slab at row `b`, column `j` is the score at row `b`, column `slabCol j`. -/
theorem slab_apply (c : Dev nD) (b : Fin 2048) (j : Fin 2304) :
    (V m c main_v207 : S2048x2304.Idx → EReal) (ix2 b j) = scores m c (ix2 b (slabCol j)) := by
  show (V0 m c (Proc.devRef .tc main_v207) : S2048x2304.Idx → EReal) _ = _
  rw [V0_eq, cutVal_succ m c 39]
  read
  have hq : j.val / 256 < 9 := by have := j.isLt; omega
  have hm : j.val % 256 < 256 := Nat.mod_lt _ (by norm_num)
  obtain ⟨k, hk⟩ : ∃ k : Fin 9, j.val / 256 = k.val := ⟨⟨_, hq⟩, rfl⟩
  fin_cases k
  · exact piece_win _ _ b j _ hk hm rfl _ rfl rfl _ (slabWin0 m c b j hm hk)
  · exact piece_win _ _ b j _ hk hm rfl _ rfl rfl _ (slabWin1 m c b j hm hk)
  · exact piece_win _ _ b j _ hk hm rfl _ rfl rfl _ (slabWin2 m c b j hm hk)
  · exact piece_win _ _ b j _ hk hm rfl _ rfl rfl _ (slabWin3 m c b j hm hk)
  · exact piece_win _ _ b j _ hk hm rfl _ rfl rfl _ (slabWin4 m c b j hm hk)
  · exact piece_win _ _ b j _ hk hm rfl _ rfl rfl _ (slabWin5 m c b j hm hk)
  · exact piece_win _ _ b j _ hk hm rfl _ rfl rfl _ (slabWin6 m c b j hm hk)
  · exact piece_win _ _ b j _ hk hm rfl _ rfl rfl _ (slabWin7 m c b j hm hk)
  · exact piece_win _ _ b j _ hk hm rfl _ rfl rfl _ (slabWin8 m c b j hm hk)

/-- The index array at row `b`, level `s` is the node of level `s` relative to its window's first column. -/
theorem lidx_apply (c : Dev nD) (b : Fin 2048) (s : Fin 16) :
    (V m c main_v197 : S2048x16.Idx → BitVec 32) (ix2 b s)
      = node (classes m c (ix1 b)) s.val - BitVec.ofNat 32 (winStart s.val) := by
  show (V0 m c (Proc.devRef .tc main_v197) : S2048x16.Idx → BitVec 32) _ = _
  rw [V0_eq, cutVal_keeps_from m c main_v197 38 40 (by decide) (by decide), cutVal_succ m c 37]
  read
  rw [cutVal_keeps_from m c main_v177 35 37 (by decide) (by decide), cutVal_keeps_from m c main_c 1 37 (by decide) (by decide),
    cutVal_succ m c 34, cutVal_succ m c 0]
  read
  rw [subi_apply]
  fin_cases s
  · exact congrArg₂ (· - ·) (piece_col _ _ b _ rfl rfl _ rfl _ (nodeCol0 m c b 0)) rfl
  · exact congrArg₂ (· - ·) (piece_col _ _ b _ rfl rfl _ rfl _ (nodeCol1 m c b 0)) rfl
  · exact congrArg₂ (· - ·) (piece_col _ _ b _ rfl rfl _ rfl _ (nodeCol2 m c b 0)) rfl
  · exact congrArg₂ (· - ·) (piece_col _ _ b _ rfl rfl _ rfl _ (nodeCol3 m c b 0)) rfl
  · exact congrArg₂ (· - ·) (piece_col _ _ b _ rfl rfl _ rfl _ (nodeCol4 m c b 0)) rfl
  · exact congrArg₂ (· - ·) (piece_col _ _ b _ rfl rfl _ rfl _ (nodeCol5 m c b 0)) rfl
  · exact congrArg₂ (· - ·) (piece_col _ _ b _ rfl rfl _ rfl _ (nodeCol6 m c b 0)) rfl
  · exact congrArg₂ (· - ·) (piece_col _ _ b _ rfl rfl _ rfl _ (nodeCol7 m c b 0)) rfl
  · exact congrArg₂ (· - ·) (piece_col _ _ b _ rfl rfl _ rfl _ (nodeCol8 m c b 0)) rfl
  · exact congrArg₂ (· - ·) (piece_col _ _ b _ rfl rfl _ rfl _ (nodeCol9 m c b 0)) rfl
  · exact congrArg₂ (· - ·) (piece_col _ _ b _ rfl rfl _ rfl _ (nodeCol10 m c b 0)) rfl
  · exact congrArg₂ (· - ·) (piece_col _ _ b _ rfl rfl _ rfl _ (nodeCol11 m c b 0)) rfl
  · exact congrArg₂ (· - ·) (piece_col _ _ b _ rfl rfl _ rfl _ (nodeCol12 m c b 0)) rfl
  · exact congrArg₂ (· - ·) (piece_col _ _ b _ rfl rfl _ rfl _ (nodeCol13 m c b 0)) rfl
  · exact congrArg₂ (· - ·) (piece_col _ _ b _ rfl rfl _ rfl _ (nodeCol14 m c b 0)) rfl
  · exact congrArg₂ (· - ·) (piece_col _ _ b _ rfl rfl _ rfl _ (nodeCol15 m c b 0)) rfl

/-- The sign array at row `b`, level `s` is `-1` on a right turn and `1` on a left turn. -/
theorem sign_apply (c : Dev nD) (b : Fin 2048) (s : Fin 16) :
    (V m c main_v194 : S2048x16.Idx → EReal) (ix2 b s)
      = Scalar.select (turn (classes m c (ix1 b)) s.val) (Ideal.ofBits .f32 0xBF800000#32) (Ideal.ofBits .f32 0x3F800000#32) := by
  show (V0 m c (Proc.devRef .tc main_v194) : S2048x16.Idx → EReal) _ = _
  rw [V0_eq, cutVal_keeps_from m c main_v194 37 40 (by decide) (by decide), cutVal_succ m c 36]
  read
  fin_cases s
  · exact piece_col _ _ b _ rfl rfl _ rfl _ (signCol0 m c b 0)
  · exact piece_col _ _ b _ rfl rfl _ rfl _ (signCol1 m c b 0)
  · exact piece_col _ _ b _ rfl rfl _ rfl _ (signCol2 m c b 0)
  · exact piece_col _ _ b _ rfl rfl _ rfl _ (signCol3 m c b 0)
  · exact piece_col _ _ b _ rfl rfl _ rfl _ (signCol4 m c b 0)
  · exact piece_col _ _ b _ rfl rfl _ rfl _ (signCol5 m c b 0)
  · exact piece_col _ _ b _ rfl rfl _ rfl _ (signCol6 m c b 0)
  · exact piece_col _ _ b _ rfl rfl _ rfl _ (signCol7 m c b 0)
  · exact piece_col _ _ b _ rfl rfl _ rfl _ (signCol8 m c b 0)
  · exact piece_col _ _ b _ rfl rfl _ rfl _ (signCol9 m c b 0)
  · exact piece_col _ _ b _ rfl rfl _ rfl _ (signCol10 m c b 0)
  · exact piece_col _ _ b _ rfl rfl _ rfl _ (signCol11 m c b 0)
  · exact piece_col _ _ b _ rfl rfl _ rfl _ (signCol12 m c b 0)
  · exact piece_col _ _ b _ rfl rfl _ rfl _ (signCol13 m c b 0)
  · exact piece_col _ _ b _ rfl rfl _ rfl _ (signCol14 m c b 0)
  · exact piece_col _ _ b _ rfl rfl _ rfl _ (signCol15 m c b 0)

end Cert.KernelIdeal.HostVal

end
-- ==== Proof.KBody.lean ====
import proofs.«424695_j76373108457493_3_alg».proof.Proof.KFrame
import proofs.«424695_j76373108457493_3_alg».proof.Proof.Spec
import Idealize.ShloMosaic.Lib.ValueIdx
import Idealize.ShloMosaic.Lib.ValueLayout
import Idealize.ShloMosaic.Lib.Pipeline.Value
import Idealize.ShloMosaic.PureOps.Ideal.Laws

/-!
# One row of the body's stored block

From a slab block `x0`, a block of window-relative node indices `x1` (each below 256) and a block of signs
`x2`, the body stores, at row `r`, the sum over the sixteen levels `s` of
`softplus (-(x2 r s) * x0 r (256 * slot s + x1 r s))`: the comparison of the column counter with the index
keeps exactly one of the 256 columns of the level's window, the sum over the window is that one score, and
the level's term is the softplus of minus the sign times it.
-/

noncomputable section

namespace Cert.KernelIdeal.BodyVal

open Cert.KernelIdeal Cert.KernelIdeal.Gen Cert.KernelIdeal.Frm Cert.Hsm
open Idealize.ShloMosaic Idealize.ShloMosaic.TcCoe Idealize.SL.Sem Idealize.ShloMosaic.ValueIdx

/-- The slab window that holds level `s`: the first eight levels share window 0. -/
def slot (s : ℕ) : ℕ := s - 7

/-- The slab column that level `s` reads when its window-relative index is `k`. -/
def pick (s : Fin 16) (k : ℕ) (hk : k < 256) : Fin 2304 := ⟨256 * slot s.val + k, by
  have := s.isLt
  unfold slot
  omega⟩

/-! ## The outer sum over the levels -/

/-- The stored column: row `r` of the block is the sum over the sixteen levels of the row's terms. -/
theorem pay1_apply (v76 : FVec Ideal S256x16 .f32) (r : Fin 256) :
    k0_pay1 v76 (ix2 r (0 : Fin 1)) = ∑ s : Fin 16, v76 (ix2 r s) := by
  unfold k0_pay1
  refine (shapeCast_apply _ _ (ix2 r (0 : Fin 1)) (ix1 r) ?_).trans ?_
  · rw [Shape.rowMajor_val_one, Shape.rowMajor_val_two]
    show r.val = r.val * 1 + 0
    omega
  refine (Ideal.multiReduction_add_single _ _ _ _ _ _).trans ?_
  refine Finset.sum_congr rfl fun s _ => ?_
  congr 1
  funext a
  match a with
  | ⟨0, _⟩ => rfl
  | ⟨1, _⟩ => rfl

/-! ## One window of the slab block -/

/-- A load of the 256-column window that starts at column `c` reads, at row `r` and column `j`, the block at column `c + j`. -/
theorem ld_win (x0 : Vec Ideal S256x2304 .f32) (c : ℕ) (inb : ∀ a, (![0, c] : Fin 2 → Nat) a + S256x256.size a ≤ S256x2304.size a)
    (r j : Fin 256) (h : c + j.val < 2304) :
    View.ld x0 (Rect.unit (s := S256x2304) ![0, c] S256x256.size inb) (ix2 r j) = x0 (ix2 r ⟨c + j.val, h⟩) := by
  show x0 _ = x0 _
  congr 1
  funext a
  match a with
  | ⟨0, _⟩ => exact Fin.ext (by show 0 + 1 * r.val = r.val; omega)
  | ⟨1, _⟩ => exact Fin.ext (by show c + 1 * j.val = c + j.val; omega)

/-- A window through a cast to its own shape is the window. -/
theorem cast_win (x0 : Vec Ideal S256x2304 .f32) (c : ℕ) (inb : ∀ a, (![0, c] : Fin 2 → Nat) a + S256x256.size a ≤ S256x2304.size a)
    (r j : Fin 256) (h : c + j.val < 2304) :
    shapeCast S256x256 (View.ld x0 (Rect.unit (s := S256x2304) ![0, c] S256x256.size inb)) shapeCasts_S256x256_S256x256 (ix2 r j)
      = x0 (ix2 r ⟨c + j.val, h⟩) := by
  refine (congrFun (shapeCast_self (s := S256x256)
    (View.ld x0 (Rect.unit (s := S256x2304) ![0, c] S256x256.size inb)) shapeCasts_S256x256_S256x256) (ix2 r j)).trans ?_
  exact ld_win x0 c inb r j h
/-- Level `s`'s window at row `r` and column `j` is the slab block at column `256 * slot s + j`: the first eight
    levels read the first 256 columns, each later level the next 256. -/
theorem win_apply (x0 : Vec Ideal S256x2304 .f32) (r : Fin 256) (s : Fin 16) (j : Fin 256) :
    (([k0_pay4 (View.ld x0 (rWin 0)), k0_pay5 (View.ld x0 (rWin 0)), k0_pay6 (View.ld x0 (rWin 0)), k0_pay7 (View.ld x0 (rWin 0)), k0_pay8 (View.ld x0 (rWin 0)), k0_pay9 (View.ld x0 (rWin 0)), k0_pay10 (View.ld x0 (rWin 0)), k0_pay11 (View.ld x0 (rWin 0)), k0_pay12 (View.ld x0 (rWin 1)), k0_pay13 (View.ld x0 (rWin 2)), k0_pay14 (View.ld x0 (rWin 3)), k0_pay15 (View.ld x0 (rWin 4)), View.ld x0 (rWin 5), View.ld x0 (rWin 6), View.ld x0 (rWin 7), View.ld x0 (rWin 8)] : List (FVec Ideal S256x256 .f32))[s.val]'s.isLt) (ix2 r j)
      = x0 (ix2 r (pick s j.val j.isLt)) := by
  have hj := j.isLt
  fin_cases s
  · exact cast_win x0 0 _ r j (by omega)
  · exact cast_win x0 0 _ r j (by omega)
  · exact cast_win x0 0 _ r j (by omega)
  · exact cast_win x0 0 _ r j (by omega)
  · exact cast_win x0 0 _ r j (by omega)
  · exact cast_win x0 0 _ r j (by omega)
  · exact cast_win x0 0 _ r j (by omega)
  · exact cast_win x0 0 _ r j (by omega)
  · exact cast_win x0 256 _ r j (by omega)
  · exact cast_win x0 512 _ r j (by omega)
  · exact cast_win x0 768 _ r j (by omega)
  · exact cast_win x0 1024 _ r j (by omega)
  · exact ld_win x0 1280 _ r j (by omega)
  · exact ld_win x0 1536 _ r j (by omega)
  · exact ld_win x0 1792 _ r j (by omega)
  · exact ld_win x0 2048 _ r j (by omega)

/-! ## The column the index keeps -/

/-- The comparison of a column number below 256 with a word is `1` exactly when the word's value is that number. -/
theorem cmpi_eq_col (j : ℕ) (hj : j < 256) (w : BitVec 32) :
    IntOp.cmpi .eq (BitVec.ofNat 32 j) w = if j = w.toNat then 1#1 else 0#1 := by
  unfold IntOp.cmpi
  by_cases e : j = w.toNat
  · subst e
    rw [if_pos rfl]
    have : BitVec.ofNat 32 w.toNat = w := by simp
    rw [this]
    simp
  · rw [if_neg e]
    have : ¬ BitVec.ofNat 32 j = w := fun hw => e (by
      have := congrArg BitVec.toNat hw
      rw [BitVec.toNat_ofNat] at this
      omega)
    rw [beq_eq_false_iff_ne.mpr this]
    rfl

/-- The comparison of the column counter with a window-relative index below 256 keeps exactly that column:
    the sum over the 256 columns of the selected values is the value at the index. -/
theorem gather_apply (v1 : IVec S256x16 32) (v52 : FVec Ideal S256x16x256 .f32) (r : Fin 256) (s : Fin 16)
    (h : (v1 (ix2 r s)).toNat < 256) :
    multiReduction (F := Ideal) .add [2] S256x16
      (select (cmpi .eq (iota .tc S256x16x256 32 [2] iota_S256x16x256_d2_w32)
          (broadcastTo S256x16x256 (shapeCast S256x16x1 v1 shapeCasts_S256x16_S256x16x1) broadcasts_S256x16x1_S256x16x256))
        v52 (broadcast S256x16x256 (Scalar.ofBits .f32 0x00000000#32)))
      0x00000000#32 reduces_S256x16x256_S256x16 (.inl rfl) rfl (ix2 r s)
      = v52 (ix3 r s ⟨(v1 (ix2 r s)).toNat, h⟩) := by
  refine (Ideal.multiReduction_add_single _ _ _ _ _ _).trans ?_
  -- the reduced index with column `j` put back
  have hl : ∀ j : Fin 256, reduces_S256x16x256_S256x16.lift (ix2 r s) j = ix3 r s j := fun j => by
    funext a
    match a with
    | ⟨0, _⟩ => rfl
    | ⟨1, _⟩ => rfl
    | ⟨2, _⟩ => rfl
  -- the index word broadcast along the columns
  have hb : ∀ j : Fin 256, broadcastTo S256x16x256 (shapeCast S256x16x1 v1 shapeCasts_S256x16_S256x16x1) broadcasts_S256x16x1_S256x16x256 (ix3 r s j)
      = v1 (ix2 r s) := fun j => by
    refine (broadcastTo_apply _ _ (ix3 r s j) (ix3 r s (0 : Fin 1)) ?_).trans ?_
    · intro a
      match a with
      | ⟨0, _⟩ => rfl
      | ⟨1, _⟩ => rfl
      | ⟨2, _⟩ => rfl
    refine shapeCast_apply _ _ (ix3 r s (0 : Fin 1)) (ix2 r s) ?_
    rw [Shape.rowMajor_val_two, Shape.rowMajor_val_three]
    show r.val * 16 + s.val = (r.val * 16 + s.val) * 1 + 0
    omega
  -- the column counter
  have hi : ∀ j : Fin 256, iota .tc S256x16x256 32 [2] iota_S256x16x256_d2_w32 (ix3 r s j) = BitVec.ofNat 32 j.val := fun j =>
    iota_single_apply _ _ _ _ _ _
  show ∑ j : Fin 256, _ = _
  rw [Finset.sum_eq_single (⟨(v1 (ix2 r s)).toNat, h⟩ : Fin 256)]
  · rw [hl]
    show Scalar.select (IntOp.cmpi .eq _ _) _ _ = _
    rw [hi, hb, cmpi_eq_col _ h, if_pos rfl, select_one]
  · intro j _ hj
    rw [hl]
    show Scalar.select (IntOp.cmpi .eq _ _) _ _ = _
    rw [hi, hb, cmpi_eq_col _ j.isLt, if_neg (fun e => hj (Fin.ext e)), select_zero]
    exact Ideal.ofBits_zero_f32
  · intro hn; exact absurd (Finset.mem_univ _) hn

/-! ## The sixteen windows side by side -/

/-- A window as a piece of the concatenation: the same values with a unit middle axis. -/
abbrev piece (p : FVec Ideal S256x256 .f32) : (s : Shape) × (s.Idx → EReal) :=
  ⟨S256x1x256, shapeCast S256x1x256 p shapeCasts_S256x256_S256x1x256⟩

/-- Sixteen windows laid along the middle axis, read at row `r`, level `s` and column `j`: every piece has extent one
    on that axis, so level `s` falls in the `s`-th piece, which is the `s`-th window at `(r, j)`. -/
theorem cat_apply (ws : List (FVec Ideal S256x256 .f32)) (hlen : ws.length = 16)
    (h : Shape.Concatenates ((ws.map piece).map (·.1)) S256x16x256 1) (r : Fin 256) (s : Fin 16) (j : Fin 256) :
    concatenate S256x16x256 1 (ws.map piece) h (ix3 r s j) = (ws[s.val]'(Nat.lt_of_lt_of_eq s.isLt hlen.symm)) (ix2 r j) := by
  have hk : s.val < (ws.map piece).length := by rw [List.length_map, hlen]; exact s.isLt
  refine (concatenate_apply_piece (1 : Fin S256x16x256.rank) (ws.map piece) h (ix3 r s j) s.val hk S256x1x256
    (shapeCast S256x1x256 (ws[s.val]'(Nat.lt_of_lt_of_eq s.isLt hlen.symm)) shapeCasts_S256x256_S256x1x256) ?_ rfl s.val ?_ (ix3 r (0 : Fin 1) j) ?_ ?_).trans ?_
  · rw [List.getElem_map]
  · -- every piece before the `s`-th has extent one on the middle axis
    have e : ∀ L : List (FVec Ideal S256x256 .f32),
        (((L.map piece).map (·.1)).map fun t => if h : t.rank = S256x16x256.rank then t.size ((1 : Fin S256x16x256.rank).cast h.symm) else 0).sum
          = L.length := fun L => by
      induction L with
      | nil => rfl
      | cons p L ih =>
        rw [List.map_cons, List.map_cons, List.map_cons, List.sum_cons, ih, List.length_cons]
        show 1 + L.length = L.length + 1
        omega
    rw [← List.map_take, e, List.length_take, hlen]
    have := s.isLt
    omega
  · intro b hb
    match b with
    | ⟨0, _⟩ => rfl
    | ⟨1, _⟩ => exact absurd rfl hb
    | ⟨2, _⟩ => rfl
  · show s.val + 0 = s.val
    omega
  refine shapeCast_apply _ _ (ix3 r (0 : Fin 1) j) (ix2 r j) ?_
  rw [Shape.rowMajor_val_two, Shape.rowMajor_val_three]
  show r.val * 256 + j.val = (r.val * 1 + 0) * 256 + j.val
  omega

/-! ## One level's term -/

/-- The absolute value at an index is the larger of the element and its negation. -/
theorem absf_apply {s : Shape} {φ : FTy} (a : FVec Ideal s φ) (i : s.Idx) : absf a i = max (a i) (-(a i)) := rfl
/-- The exponential at an index is the exponential of the element. -/
theorem exp_apply {s : Shape} {φ : FTy} (a : FVec Ideal s φ) (i : s.Idx) : exp a i = Ideal.exp (a i) := rfl
/-- `log (1 + ·)` at an index is that of the element. -/
theorem log1p_apply {s : Shape} {φ : FTy} (a : FVec Ideal s φ) (i : s.Idx) : log1p a i = Ideal.log1p (a i) := rfl
/-- One level's term: the softplus of minus the sign times the score that the index picks out of the level's window. -/
theorem pay16_apply (v1 : IVec S256x16 32) (v3 : FVec Ideal S256x16 .f32)
    (v5 v7 v9 v11 v13 v15 v17 v19 v21 v23 v25 v27 : FVec Ideal S256x256 .f32) (v28 v30 v32 v34 : Vec Ideal S256x256 .f32)
    (r : Fin 256) (s : Fin 16) (h : (v1 (ix2 r s)).toNat < 256) :
    k0_pay16 (F := Ideal) v1 v3 v5 v7 v9 v11 v13 v15 v17 v19 v21 v23 v25 v27 v28 v30 v32 v34 (ix2 r s)
      = softplus ((0 - v3 (ix2 r s)) *
          (([v5, v7, v9, v11, v13, v15, v17, v19, v21, v23, v25, v27, v28, v30, v32, v34] : List (FVec Ideal S256x256 .f32))[s.val]'s.isLt) (ix2 r ⟨(v1 (ix2 r s)).toNat, h⟩)) := by
  unfold k0_pay16 softplus
  simp only [select_apply, cmpf_apply, addf_apply, subf_apply, mulf_apply, maximumf_apply, broadcast_apply, absf_apply,
    exp_apply, log1p_apply]
  rw [gather_apply v1 _ r s h, shapeCast_self v28, shapeCast_self v30, shapeCast_self v32, shapeCast_self v34]
  generalize hV : concatenate S256x16x256 1 _ _ (ix3 r s ⟨(v1 (ix2 r s)).toNat, h⟩) = V
  have hV' : V = (([v5, v7, v9, v11, v13, v15, v17, v19, v21, v23, v25, v27, v28, v30, v32, v34] : List (FVec Ideal S256x256 .f32))[s.val]'s.isLt) (ix2 r ⟨(v1 (ix2 r s)).toNat, h⟩) :=
    hV.symm.trans (cat_apply [v5, v7, v9, v11, v13, v15, v17, v19, v21, v23, v25, v27, v28, v30, v32, v34] rfl _ r s ⟨(v1 (ix2 r s)).toNat, h⟩)
  rw [hV']
  simp only [Ideal.ofBits_def, Ideal.ofBits_zero_f32]
  rfl

/-! ## The row -/

/-- The zero offsets of a whole block, as the constant function. -/
theorem zero_off : (![0, 0] : Fin 2 → Nat) = fun _ => 0 :=
  funext fun a => match a with | ⟨0, _⟩ => rfl | ⟨1, _⟩ => rfl

/-- Row `r` of the block the body stores. -/
theorem rowBlock_apply (x0 : S256x2304.Idx → EReal) (x1 : S256x16.Idx → BitVec 32) (x2 : S256x16.Idx → EReal)
    (hx1 : ∀ (r : Fin 256) (s : Fin 16), (x1 (ix2 r s)).toNat < 256) (r : Fin 256) :
    rowBlock (F := Ideal) x0 x1 x2 (ix2 r (0 : Fin 1))
      = 0 + ∑ s : Fin 16, softplus ((0 - x2 (ix2 r s)) * x0 (ix2 r (pick s (x1 (ix2 r s)).toNat (hx1 r s)))) := by
  -- the index and sign blocks are read whole, through a cast to their own shape
  have h1 : k0_pay2 (F := Ideal) (View.ld x1 rCode) = x1 := by
    unfold k0_pay2
    rw [shapeCast_self]
    exact View.ld_unit_zero (Val := Elt Ideal) (S := S256x16) (e := .i32) zero_off _ x1
  have h2 : k0_pay3 (F := Ideal) (View.ld x2 rCode) = x2 := by
    unfold k0_pay3
    rw [shapeCast_self]
    exact View.ld_unit_zero (Val := Elt Ideal) (S := S256x16) (e := .f32) zero_off _ x2
  unfold rowBlock
  rw [pay1_apply, zero_add, h1, h2]
  refine Finset.sum_congr rfl fun s _ => ?_
  rw [pay16_apply _ _ _ _ _ _ _ _ _ _ _ _ _ _ _ _ _ _ r s (hx1 r s)]
  exact congrArg (fun t => softplus ((0 - x2 (ix2 r s)) * t)) (win_apply x0 r s ⟨(x1 (ix2 r s)).toNat, hx1 r s⟩)

end Cert.KernelIdeal.BodyVal

end
-- ==== Proof.Loss.lean ====
import proofs.«424695_j76373108457493_3_alg».proof.Proof.Spec
import Idealize.ShloMosaic.Lib.ValueIdx

/-!
# The loss of a batch

The mean over the 2048 rows of the row's loss along the path its class word selects: the sum of the rows'
losses divided by the row count, the one number both programs return.
-/

noncomputable section

namespace Cert.Hsm

open Idealize.ShloMosaic Idealize.ShloMosaic.ValueIdx

/-- The shape of the scores: 2048 rows of 65536 columns. -/
abbrev SX : Shape := ⟨2, ![2048, 65536]⟩
/-- The shape of the class words: one per row. -/
abbrev SC : Shape := ⟨1, ![2048]⟩

/-- Row `b` of the scores as a function of the column (zero past the last column, where nothing reads it). -/
def rowOf (X : SX.Idx → EReal) (b : Fin 2048) : ℕ → EReal :=
  fun j => if h : j < 65536 then X (ix2 b ⟨j, h⟩) else 0

/-- The loss of row `b`: the sum form, along the path the row's class word selects. -/
def rowLoss (X : SX.Idx → EReal) (C : SC.Idx → BitVec 32) (b : Fin 2048) : EReal :=
  rowSoftplus (rowOf X b) (C (ix1 b))

/-- The batch's loss: the rows' losses summed and divided by the row count `2048`. -/
def loss (X : SX.Idx → EReal) (C : SC.Idx → BitVec 32) : EReal :=
  Ideal.div (0 + ∑ b : Fin 2048, rowLoss X C b) (Ideal.ofBits .f32 0x45000000#32)

end Cert.Hsm

end
-- ==== Proof.KValue.lean ====
import proofs.«424695_j76373108457493_3_alg».proof.Proof.KFrame
import proofs.«424695_j76373108457493_3_alg».proof.Proof.KHost
import proofs.«424695_j76373108457493_3_alg».proof.Proof.KBody
import proofs.«424695_j76373108457493_3_alg».proof.Proof.Loss
import Idealize.ShloMosaic.Lib.Pipeline.Value
import Idealize.ShloMosaic.Lib.StableHlo.Run
import Idealize.ShloMosaic.PureOps.Ideal.Laws

/-!
# The kernel program's result

Grid point `t` writes back rows `256 t, …, 256 t + 255` of the output column. Row `r` of its block is the sum
form of the loss of batch row `256 t + r`: the level's window-relative index is below 256 because every node
of a level lies in the level's window, the slab column it selects holds the score at the node itself, and the
sign is `-1` exactly on a right turn. The eight blocks tile the column, so the column ends holding every
row's loss; the operations after the region sum it and divide by the row count.
-/

set_option maxRecDepth 16384

noncomputable section

namespace Cert.KernelIdeal.KVal

open Cert.KernelIdeal Cert.KernelIdeal.Gen Cert.KernelIdeal.Frm Cert.KernelIdeal.HostVal Cert.KernelIdeal.BodyVal Cert.Hsm
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- What the output column ends holding: at row `b`, the loss of batch row `b`. -/
def outArr (c : Dev nD) : S2048x1.Idx → EReal := fun i => rowLoss (scores m c) (classes m c) (i 0)

/-- The result: the batch's loss, at the one index of a scalar. -/
def result (c : Dev nD) : S_.Idx → EReal := fun _ => loss (scores m c) (classes m c)

/-- The two sign literals are `-1` and `1`. -/
theorem ofBits_neg_one : Ideal.ofBits .f32 0xBF800000#32 = ((-1 : ℝ) : EReal) := by
  simp [Ideal.ofBits, Ideal.ieee, -EReal.coe_mul]
  norm_num
theorem ofBits_one : Ideal.ofBits .f32 0x3F800000#32 = ((1 : ℝ) : EReal) := by
  simp [Ideal.ofBits, Ideal.ieee, -EReal.coe_mul]
  norm_num

/-- The index maps of the four windows, decided over the grid: point `t` takes block row `t`, block column 0. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- The three input blocks of grid point `t`, at their literal types. -/
abbrev slabBlk (c : Dev nD) (t : Fin cfg0.N) : S256x2304.Idx → EReal := iblk m c 0 t
abbrev idxBlk (c : Dev nD) (t : Fin cfg0.N) : S256x16.Idx → BitVec 32 := iblk m c 1 t
abbrev sgnBlk (c : Dev nD) (t : Fin cfg0.N) : S256x16.Idx → EReal := iblk m c 2 t

/-- Row `r`, column `j` of the slab block of point `t` is the score of batch row `256 t + r` at column `slabCol j`. -/
theorem slabBlk_apply (c : Dev nD) (t : Fin cfg0.N) (r : Fin 256) (j : Fin 2304) (hb : 256 * t.val + r.val < 2048) :
    slabBlk m c t (ix2 r j) = scores m c (ix2 ⟨256 * t.val + r.val, hb⟩ (slabCol j)) := by
  show (V m c main_v207 : S2048x2304.Idx → EReal) (((cfg0.win 0).blk t).view.emb (ix2 r j)) = _
  have he : ((cfg0.win 0).blk t).view.emb (ix2 r j) = ix2 ⟨256 * t.val + r.val, hb⟩ j := by
    obtain ⟨e0, e1, -⟩ := idx_facts t
    funext a; apply Fin.ext
    match a with
    | ⟨0, _⟩ => show win0_0.index t (0 : Fin 2) * 256 + 1 * r.val = 256 * t.val + r.val; omega
    | ⟨1, _⟩ => show win0_0.index t (1 : Fin 2) * 2304 + 1 * j.val = j.val; omega
  rw [he]
  exact slab_apply m c _ j

/-- The batch row of row `r` of block `t` is a row of the batch: the grid has eight points. -/
theorem row_lt (t : Fin cfg0.N) (r : Fin 256) : 256 * t.val + r.val < 2048 := by
  have h : t.val < grid0.N := t.isLt
  rw [N_0] at h
  omega

/-- Row `r`, level `s` of the index block of point `t`: the node of level `s` of batch row `256 t + r`, relative to
    the first column of the level's window. -/
theorem idxBlk_apply (c : Dev nD) (t : Fin cfg0.N) (r : Fin 256) (s : Fin 16) (hb : 256 * t.val + r.val < 2048) :
    idxBlk m c t (ix2 r s)
      = node (classes m c (ix1 ⟨256 * t.val + r.val, hb⟩)) s.val - BitVec.ofNat 32 (winStart s.val) := by
  show (V m c main_v197 : S2048x16.Idx → BitVec 32) (((cfg0.win 1).blk t).view.emb (ix2 r s)) = _
  have he : ((cfg0.win 1).blk t).view.emb (ix2 r s) = ix2 ⟨256 * t.val + r.val, hb⟩ s := by
    obtain ⟨-, -, e0, e1, -⟩ := idx_facts t
    funext a; apply Fin.ext
    match a with
    | ⟨0, _⟩ => show win0_1.index t (0 : Fin 2) * 256 + 1 * r.val = 256 * t.val + r.val; omega
    | ⟨1, _⟩ => show win0_1.index t (1 : Fin 2) * 16 + 1 * s.val = s.val; omega
  rw [he]
  exact lidx_apply m c _ s

/-- As a number it is the node's offset inside the window: the subtraction does not borrow, because the window
    starts at or before the node. -/
theorem idxBlk_toNat (c : Dev nD) (t : Fin cfg0.N) (r : Fin 256) (s : Fin 16) (hb : 256 * t.val + r.val < 2048) :
    (idxBlk m c t (ix2 r s)).toNat
      = (node (classes m c (ix1 ⟨256 * t.val + r.val, hb⟩)) s.val).toNat - winStart s.val := by
  rw [idxBlk_apply m c t r s hb]
  obtain ⟨lo, hi⟩ := node_in_window (classes m c (ix1 ⟨256 * t.val + r.val, hb⟩)) s.val s.isLt
  have hn := node_lt (classes m c (ix1 ⟨256 * t.val + r.val, hb⟩)) s.val s.isLt
  have hw : winStart s.val < 2 ^ 32 := by omega
  rw [BitVec.toNat_sub, BitVec.toNat_ofNat, Nat.mod_eq_of_lt hw]
  omega

/-- So it is below 256: the window is 256 columns wide. -/
theorem idxBlk_lt (c : Dev nD) (t : Fin cfg0.N) (r : Fin 256) (s : Fin 16) :
    (idxBlk m c t (ix2 r s)).toNat < 256 := by
  rw [idxBlk_toNat m c t r s (row_lt t r)]
  obtain ⟨lo, hi⟩ := node_in_window (classes m c (ix1 ⟨256 * t.val + r.val, row_lt t r⟩)) s.val s.isLt
  omega

/-- Row `r`, level `s` of the sign block of point `t`: `-1` on a right turn of batch row `256 t + r`, `1` on a left. -/
theorem sgnBlk_apply (c : Dev nD) (t : Fin cfg0.N) (r : Fin 256) (s : Fin 16) (hb : 256 * t.val + r.val < 2048) :
    sgnBlk m c t (ix2 r s) = sgn (turn (classes m c (ix1 ⟨256 * t.val + r.val, hb⟩)) s.val) := by
  show (V m c main_v194 : S2048x16.Idx → EReal) (((cfg0.win 2).blk t).view.emb (ix2 r s)) = _
  have he : ((cfg0.win 2).blk t).view.emb (ix2 r s) = ix2 ⟨256 * t.val + r.val, hb⟩ s := by
    obtain ⟨-, -, -, -, e0, e1, -⟩ := idx_facts t
    funext a; apply Fin.ext
    match a with
    | ⟨0, _⟩ => show win0_2.index t (0 : Fin 2) * 256 + 1 * r.val = 256 * t.val + r.val; omega
    | ⟨1, _⟩ => show win0_2.index t (1 : Fin 2) * 16 + 1 * s.val = s.val; omega
  rw [he, sign_apply m c _ s, ofBits_neg_one, ofBits_one]
  rfl

/-- The slab column level `s` picks at offset `k` holds the score at column `winStart s + k`: the level's slab
    window starts where the level's window of the scores starts. -/
theorem slabCol_pick (s : Fin 16) (k : ℕ) (hk : k < 256) : (slabCol (pick s k hk)).val = winStart s.val + k := by
  show slabStart ((256 * slot s.val + k) / 256) + (256 * slot s.val + k) % 256 = _
  have h1 : (256 * slot s.val + k) / 256 = slotOf s.val := by unfold slot slotOf; omega
  have h2 : (256 * slot s.val + k) % 256 = k := by omega
  rw [h1, h2, slabStart_slotOf s.val s.isLt]

/-- Row `r` of the block grid point `t` stores is the loss of batch row `256 t + r`. -/
theorem block_row (c : Dev nD) (t : Fin cfg0.N) (r : Fin 256) (hb : 256 * t.val + r.val < 2048) :
    rowBlock (F := Ideal) (iblk m c 0 t) (iblk m c 1 t) (iblk m c 2 t) (ix2 r (0 : Fin 1))
      = rowLoss (scores m c) (classes m c) ⟨256 * t.val + r.val, hb⟩ := by
  refine (rowBlock_apply (slabBlk m c t) (idxBlk m c t) (sgnBlk m c t) (idxBlk_lt m c t) r).trans ?_
  unfold rowLoss rowSoftplus
  refine congrArg (fun z : EReal => 0 + z) (Finset.sum_congr rfl fun s _ => ?_)
  unfold termSoftplus
  -- the sign, and the picked slab entry: the score at the node itself
  rw [sgnBlk_apply m c t r s hb, slabBlk_apply m c t r _ hb]
  have hn := node_lt (classes m c (ix1 ⟨256 * t.val + r.val, hb⟩)) s.val s.isLt
  obtain ⟨lo, hi⟩ := node_in_window (classes m c (ix1 ⟨256 * t.val + r.val, hb⟩)) s.val s.isLt
  have hcol : slabCol (pick s (idxBlk m c t (ix2 r s)).toNat (idxBlk_lt m c t r s))
      = ⟨(node (classes m c (ix1 ⟨256 * t.val + r.val, hb⟩)) s.val).toNat, by omega⟩ := by
    apply Fin.ext
    show (slabCol (pick s (idxBlk m c t (ix2 r s)).toNat (idxBlk_lt m c t r s))).val
      = (node (classes m c (ix1 ⟨256 * t.val + r.val, hb⟩)) s.val).toNat
    rw [slabCol_pick, idxBlk_toNat m c t r s hb]
    omega
  rw [hcol]
  unfold rowOf
  rw [dif_pos (show (node (classes m c (ix1 ⟨256 * t.val + r.val, hb⟩)) s.val).toNat < 65536 by omega)]

/-- The zero offsets of the output's one store, as the constant function. -/
theorem hz : (![0, 0] : Fin 2 → Nat) = fun _ => 0 := funext fun a => by fin_cases a <;> rfl

/-- What grid point `t` writes back is block `t` of the column of losses. -/
theorem flushed_eq (c : Dev nD) (t : Fin cfg0.N) :
    (dats m 0 c).flushed 3 t = ((cfg0.win 3).blk t).view.read (Elt Ideal) (outArr m c) := by
  show (cfg0.win 3).cut (grid0.coords t) ((dats m 0 c).after 3 t) = _
  rw [after0_3]
  unfold out0_3
  rw [View.canon_unit_zero hz]
  funext j
  obtain ⟨r, q, rfl⟩ : ∃ (r : Fin 256) (q : Fin 1), j = ix2 r q := ⟨j 0, j 1, eq_ix2 j⟩
  obtain rfl : q = 0 := Subsingleton.elim _ _
  -- the block's row `r` is the loss of batch row `256 t + r`, and that is the column's row under the block's row `r`
  have he : (((cfg0.win 3).blk t).view.emb (ix2 r (0 : Fin 1)) : S2048x1.Idx) 0 = ⟨256 * t.val + r.val, row_lt t r⟩ := by
    obtain ⟨-, -, -, -, -, -, e0, e1⟩ := idx_facts t
    apply Fin.ext
    show win0_3.index t (0 : Fin 2) * 256 + 1 * r.val = 256 * t.val + r.val
    omega
  refine (block_row m c t r (row_lt t r)).trans ?_
  exact congrArg (rowLoss (scores m c) (classes m c)) he.symm

/-- An index of the column is in point `t`'s block iff each coordinate is in the block's range on its axis. -/
theorem mem_blk (t : Fin cfg0.N) (i : S2048x1.Idx) :
    i ∈ ((cfg0.win 3).blk t).view.set ↔ ∀ a : Fin 2, win0_3.index t a * S256x1.size a ≤ (i a).val
      ∧ (i a).val < win0_3.index t a * S256x1.size a + S256x1.size a := by
  show i ∈ ((View.whole main_v208).slice (win0_3.rect t)).set ↔ _
  rw [View.set_slice_whole, Rect.mem_set_unit]
  exact Iff.rfl

/-- Every row of the column lies in some grid point's block. -/
theorem covered (i : S2048x1.Idx) :
    ∃ t : Fin cfg0.N, (cfg0.win 3).flush t = true ∧ i ∈ ((cfg0.win 3).blk t).view.set := by
  have hi0 : (i 0).val < 2048 := (i 0).isLt
  have hi1 : (i 1).val < 1 := (i 1).isLt
  -- row `b` lies in the block of point `b / 256`
  obtain ⟨t, ht⟩ : ∃ t : Fin cfg0.N, t.val = (i 0).val / 256 :=
    ⟨⟨(i 0).val / 256, by show _ < grid0.N; rw [N_0]; omega⟩, rfl⟩
  refine ⟨t, flush0_3 t, ?_⟩
  rw [mem_blk]
  obtain ⟨-, -, -, -, -, -, e0, e1⟩ := idx_facts t
  intro a
  match a with
  | ⟨0, _⟩ =>
    show win0_3.index t (0 : Fin 2) * 256 ≤ (i 0).val ∧ (i 0).val < win0_3.index t (0 : Fin 2) * 256 + 256
    omega
  | ⟨1, _⟩ =>
    show win0_3.index t (1 : Fin 2) * 1 ≤ (i 1).val ∧ (i 1).val < win0_3.index t (1 : Fin 2) * 1 + 1
    omega

/-- The column after the region: every row's loss. -/
theorem final (c : Dev nD) : (dats m 0 c).arrAt 3 cfg0.N = outArr m c :=
  (dats m 0 c).arrAt_eq_of_cover 3 (outArr m c) (fun t _ => flushed_eq m c t) covered

/-- The operations after the region turn the column of losses into the batch's loss. -/
theorem tail_eq (c : Dev nD) :
    (Pipeline.afterTail₀ cfgs (dats m) 0 (V0 m) postOps c main_v210 : S_.Idx → EReal) = result m c := by
  unfold Pipeline.afterTail₀
  show StableHlo.after (hostOps1 (F := Ideal)) _ (Proc.devRef .tc main_v210) = _
  after_results
  -- the column the four operations read is the column of losses
  have hA : Pipeline.withArrays (cfgs 0).spec c (V0 m c) (fun w => (dats m 0 c).arrAt w (cfgs 0).N)
      (Proc.devRef .tc main_v208) = outArr m c :=
    (Pipeline.withArrays_arr spec0 launch0.win.arr_inj c _ _ 3).trans (final m c)
  rw [hA]
  funext j
  unfold result loss
  -- the sum over both axes from the zero word, then the division by the word of 2048
  show Ideal.div (Ideal.hostReduceAdd reducesTo_S2048x1_S_d0_1 (outArr m c) (Ideal.ofBits .f32 0x00000000#32) j)
      (Ideal.ofBits .f32 0x45000000#32) = _
  rw [Ideal.hostReduceAdd_total reducesTo_S2048x1_S_d0_1 (fun b => b.elim0), Ideal.ofBits_zero_f32]
  -- a sum over the column's indices is the sum over its rows: the second coordinate has one value
  have hsum : ∑ i : S2048x1.Idx, outArr m c i = ∑ b : Fin 2048, rowLoss (scores m c) (classes m c) b := by
    rw [sum_idx2]
    refine Finset.sum_congr rfl fun b _ => ?_
    rw [Fin.sum_univ_one]
    rfl
  rw [hsum]

/-- The kernel program runs, ends with the batch's loss in its result, and leaves its arguments unchanged. -/
theorem run : θ_run defs (onTc (τ := τ) (main (F := Ideal))) ⟨m, fun _ => 0, ρ⟩ fun r => ∀ c : Dev nD,
      r.2.mem ((c.tc : Thread nD τ).loc main_v210) = result m c
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v210 (Pipeline.mem_restRefs_of main_v210 (by decide) (by decide))).trans (tail_eq m c),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c)⟩)
    (run_main m ρ)

end Cert.KernelIdeal.KVal

end
-- ==== Proof.RRun.lean ====
import proofs.«424695_j76373108457493_3_alg».proof.Proof.ROps
import Idealize.ShloMosaic.Lib.StableHlo.Run

/-!
# The reference program's run

The program is its host operations in order: the opening operations, the sixteen levels, the closing operations.
Every weakly fair execution terminates, and every buffer ends at the fold of the operations' results over the
launch contents.
-/

noncomputable section

namespace Cert.ReferenceIdeal.RRun

open Cert.ReferenceIdeal Cert.ReferenceIdeal.Gen Cert.ReferenceIdeal.ROps
open Idealize.ShloMosaic Idealize.ShloMosaic.TcCoe Idealize.SL.Sem Idealize.ShloMosaic.StableHlo

variable {F : FTy → Type} [FloatOps F]

/-- The level lists, in order. -/
abbrev levels : List (List (HloOp τ sig (Elt F))) :=
  [opsLevel0, opsLevel1, opsLevel2, opsLevel3, opsLevel4, opsLevel5, opsLevel6, opsLevel7, opsLevel8, opsLevel9, opsLevel10, opsLevel11, opsLevel12, opsLevel13, opsLevel14, opsLevel15]

/-- Every operation of the program, in order. -/
abbrev allOps : List (HloOp τ sig (Elt F)) := opsHead ++ ((levels (F := F)).flatten ++ opsTail)

set_option maxRecDepth 1000000 in
set_option maxHeartbeats 40000000 in
/-- The program is the sequence of its operations. -/
theorem main_eq (c : Dev nD) : main (F := F) c = seq (allOps (F := F)) := rfl

theorem scopedRefs_eq : (Finset.univ.filter fun b : Ref sig .tc => b.isScoped) = ∅ := by decide
theorem scopedSems_eq : (Finset.univ.filter fun sm : SemLoc sig => sm.isScoped .tc) = ∅ := by decide

/-- Every operation of the levels touches TensorCore references only. -/
theorem levels_sub : ((levels (F := F)).flatten).Forall fun op => op.bufs ⊆ tcRefs τ sig :=
  List.forall_append.mpr ⟨opsLevel0_sub, List.forall_append.mpr ⟨opsLevel1_sub, List.forall_append.mpr ⟨opsLevel2_sub, List.forall_append.mpr ⟨opsLevel3_sub, List.forall_append.mpr ⟨opsLevel4_sub, List.forall_append.mpr ⟨opsLevel5_sub, List.forall_append.mpr ⟨opsLevel6_sub, List.forall_append.mpr ⟨opsLevel7_sub, List.forall_append.mpr ⟨opsLevel8_sub, List.forall_append.mpr ⟨opsLevel9_sub, List.forall_append.mpr ⟨opsLevel10_sub, List.forall_append.mpr ⟨opsLevel11_sub, List.forall_append.mpr ⟨opsLevel12_sub, List.forall_append.mpr ⟨opsLevel13_sub, List.forall_append.mpr ⟨opsLevel14_sub, List.forall_append.mpr ⟨opsLevel15_sub, trivial⟩⟩⟩⟩⟩⟩⟩⟩⟩⟩⟩⟩⟩⟩⟩⟩

/-- Every operation touches TensorCore references only. -/
theorem allOps_sub : (allOps (F := F)).Forall fun op => op.bufs ⊆ tcRefs τ sig :=
  List.forall_append.mpr ⟨opsHead_sub, List.forall_append.mpr ⟨levels_sub, opsTail_sub⟩⟩

/-- No operation allocates. -/
theorem allOps_fresh : ∀ op ∈ (allOps (F := F)), op.fresh = ∅ := by
  intro op h
  rcases List.mem_append.mp h with h | h
  · exact opsHead_fresh op h
  rcases List.mem_append.mp h with h | h
  · obtain ⟨l, hl, hop⟩ := List.mem_flatten.mp h
    simp only [levels, List.mem_cons, List.mem_nil_iff, or_false] at hl
    rcases hl with rfl | rfl | rfl | rfl | rfl | rfl | rfl | rfl | rfl | rfl | rfl | rfl | rfl | rfl | rfl | rfl
    · exact opsLevel0_fresh op hop
    · exact opsLevel1_fresh op hop
    · exact opsLevel2_fresh op hop
    · exact opsLevel3_fresh op hop
    · exact opsLevel4_fresh op hop
    · exact opsLevel5_fresh op hop
    · exact opsLevel6_fresh op hop
    · exact opsLevel7_fresh op hop
    · exact opsLevel8_fresh op hop
    · exact opsLevel9_fresh op hop
    · exact opsLevel10_fresh op hop
    · exact opsLevel11_fresh op hop
    · exact opsLevel12_fresh op hop
    · exact opsLevel13_fresh op hop
    · exact opsLevel14_fresh op hop
    · exact opsLevel15_fresh op hop
  · exact opsTail_fresh op h

/-- Every weakly fair execution of the program terminates, each buffer at the fold of the operations over the
    launch contents. -/
theorem run (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc),
        r.2.mem ((d.tc : Thread nD τ).loc b) = after (allOps (F := F)) (launchContents m d) (Proc.devRef .tc b) :=
  run_seq scopedRefs_eq scopedSems_eq defs main (fun _ => allOps) main_eq (fun _ => allOps_sub) m ρ
    (fun _ => allOps_fresh)

end Cert.ReferenceIdeal.RRun

end
-- ==== Proof.RDefs.lean ====
import proofs.«424695_j76373108457493_3_alg».proof.ReferenceIdeal
import proofs.«424695_j76373108457493_3_alg».proof.Proof.Gen.ReferenceIdeal
import proofs.«424695_j76373108457493_3_alg».proof.Proof.Spec
import Idealize.ShloMosaic.Lib.ValueIdx
import Idealize.ShloMosaic.Lib.ValueLayout
import Idealize.ShloMosaic.Lib.Pipeline.Value
import Idealize.ShloMosaic.PureOps.Ideal.Laws

/-!
# One level of the reference's walk, as functions of whole arrays

The reference program repeats one sequence of forty host operations sixteen times. From the logistic array
`P = σ(X)`, the class words `C`, the nodes `n` of the level and the path's likelihood so far, a level gathers
`P` at the node of each row (`take_along_axis`: a negative index is shifted by the row length, an index outside
the row is answered by a fill value, neither of which happens to a node of the tree), multiplies the likelihood
by `1 - p` on a right turn and by `p` on a left turn, and moves the node on.
-/

noncomputable section

namespace Cert.ReferenceIdeal.Level

open Cert.ReferenceIdeal Cert.Hsm
open Idealize.ShloMosaic Idealize.ShloMosaic.TcCoe Idealize.SL.Sem Idealize.ShloMosaic.ValueIdx
open Cert.ReferenceIdeal.Facts₀

variable {F : FTy → Type} [FloatOps F] [Cert.ReferenceIdeal.Facts]

/-- The logistic array of the scores: `1 / (1 + exp (-x))`, entry by entry. -/
def sigArr (X : FVec F S2048x65536 .f32) : FVec F S2048x65536 .f32 :=
  Host.divf (broadcastInDim S2048x65536 ![] bcast_S_S2048x65536 (constant S_ .f32 0x3F800000#32))
    (addf (broadcastInDim S2048x65536 ![] bcast_S_S2048x65536 (constant S_ .f32 0x3F800000#32)) (Host.exp (Host.negf X)))

/-- The index column as the gather reads it: a negative index shifted by the row length. -/
def wrapIdx (n : IVec S2048x1 32) : IVec S2048x1x1 32 :=
  shapeCast S2048x1x1
    (select (cmpi .slt n (broadcastInDim S2048x1 ![] bcast_S_S2048x1 (constantI S_ 32 0#32)))
      (addi n (broadcastInDim S2048x1 ![] bcast_S_S2048x1 (constantI S_ 32 65536#32))) n)
    shapeCasts_S2048x1_S2048x1x1

/-- Whether each row's index lies inside the row. -/
def inRow (i3 : IVec S2048x1x1 32) : IVec S2048x1 1 :=
  Host.reduce IntOp.andi
    (andi (cmpi .sge i3 (broadcastInDim S2048x1x1 ![] bcast_S_S2048x1x1 (constantI S_ 32 0#32)))
      (cmpi .sle i3 (broadcastInDim S2048x1x1 ![0, 1, 2] bcast_S1x1x1_S2048x1x1_0_1_2
        (broadcastInDim S1x1x1 ![2] bcast_S1_S1x1x1_2 (constantI S1 32 65535#32)))))
    (constantI S_ 1 1#1) reducesTo_S2048x1x1_S2048x1_d2 h_S_

/-- `take_along_axis`: each row of `P` at that row's index, the fill value where the index is outside the row. -/
def takeAlong (P : FVec F S2048x65536 .f32) (n : IVec S2048x1 32) : FVec F S2048x1 .f32 :=
  select (inRow (wrapIdx n))
    (Host.gather gather_S2048x65536_S2048x1x1_S2048x1_n_1_0_0_1_2_11 P (wrapIdx n))
    (broadcastInDim S2048x1 ![] bcast_S_S2048x1 (constant S_ .f32 0x7FC00000#32))

/-- The turn bits of a level whose mask word is `mask`. -/
def turnArr (mask : BitVec 32) (C : IVec S2048 32) : IVec S2048 1 :=
  cmpi .sgt (andi C (broadcastInDim S2048 ![] bcast_S_S2048 (constantI S_ 32 mask)))
    (broadcastInDim S2048 ![] bcast_S_S2048 (constantI S_ 32 0#32))

/-- The likelihood after a level: times `1 - p` on a right turn, times `p` on a left turn. -/
def stepProb (mask : BitVec 32) (prob : FVec F S2048 .f32) (P : FVec F S2048x65536 .f32) (n C : IVec S2048 32) :
    FVec F S2048 .f32 :=
  mulf prob
    (select (turnArr mask C)
      (subf (broadcastInDim S2048 ![] bcast_S_S2048 (constant S_ .f32 0x3F800000#32))
        (shapeCast S2048 (takeAlong P (broadcastInDim S2048x1 ![0] bcast_S2048_S2048x1_0 n)) shapeCasts_S2048x1_S2048))
      (shapeCast S2048 (takeAlong P (broadcastInDim S2048x1 ![0] bcast_S2048_S2048x1_0 n)) shapeCasts_S2048x1_S2048))

/-- The nodes after a level whose mask word is `mask` and whose width is `lvl`. -/
def stepNode (mask lvl : BitVec 32) (n C : IVec S2048 32) : IVec S2048 32 :=
  addi (addi n (broadcastInDim S2048 ![] bcast_S_S2048 (constantI S_ 32 lvl))) (extui 32 (turnArr mask C) natLt_1_32)

/-- One level's factor from the gathered probability `p`: `1 - p` on a right turn, `p` on a left turn. -/
def factor' (r : BitVec 1) (p : EReal) : EReal := Scalar.select r (1 - p) p

/-! ## Read at a row, at the exact instance -/

/-- The word `0x3F800000` is the single-precision pattern of one. -/
private theorem ofBits_one : Ideal.ofBits .f32 0x3F800000#32 = 1 := by
  rw [show (1 : EReal) = ((1 : ℝ) : EReal) by norm_cast]
  simp [Ideal.ofBits, Ideal.ieee, -EReal.coe_mul]; norm_num

/-- The logistic array at an entry is the logistic function of the score. -/
theorem sigArr_apply (X : S2048x65536.Idx → EReal) (i : S2048x65536.Idx) :
    sigArr (F := Ideal) X i = sigm (X i) := by
  -- every operation is entrywise, and both constants are the splat of the word of one
  show Ideal.div (Ideal.ofBits .f32 0x3F800000#32) (Ideal.ofBits .f32 0x3F800000#32 + Ideal.exp (-(X i))) = sigm (X i)
  rw [ofBits_one]
  rfl

/-- The gather at row `b`: `P` at row `b`, column the index read signed and clamped into the row. -/
theorem gather_apply {α : Type} (P : S2048x65536.Idx → α) (i3 : IVec S2048x1x1 32) (b : Fin 2048) :
    Host.gather gather_S2048x65536_S2048x1x1_S2048x1_n_1_0_0_1_2_11 P i3 (ix2 b (0 : Fin 1))
      = P (ix2 b ⟨min (i3 (ix3 b (0 : Fin 1) (0 : Fin 1))).toInt.toNat 65535, by omega⟩) := by
  unfold Host.gather
  congr 1
  funext a
  refine Fin.ext ?_
  match a with
  | ⟨0, _⟩ =>
    -- the batching axis: no start index, no offset; the batch coordinate is the result's row
    show gather_S2048x65536_S2048x1x1_S2048x1_n_1_0_0_1_2_11.start (ix2 b (0 : Fin 1)) i3 0
        + gather_S2048x65536_S2048x1x1_S2048x1_n_1_0_0_1_2_11.batchCoord (ix2 b (0 : Fin 1)) 0
        + gather_S2048x65536_S2048x1x1_S2048x1_n_1_0_0_1_2_11.offCoord (ix2 b (0 : Fin 1)) 0 = b.val
    rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (show (0 : Fin 2) ∈ gather_S2048x65536_S2048x1x1_S2048x1_n_1_0_0_1_2_11.operandBatchingDims from
      List.mem_singleton.mpr rfl)]
    rfl
  | ⟨1, _⟩ =>
    -- the collapsed axis: the start index, clamped; no batch coordinate, no offset
    show gather_S2048x65536_S2048x1x1_S2048x1_n_1_0_0_1_2_11.start (ix2 b (0 : Fin 1)) i3 1
        + gather_S2048x65536_S2048x1x1_S2048x1_n_1_0_0_1_2_11.batchCoord (ix2 b (0 : Fin 1)) 1
        + gather_S2048x65536_S2048x1x1_S2048x1_n_1_0_0_1_2_11.offCoord (ix2 b (0 : Fin 1)) 1
        = min (i3 (ix3 b (0 : Fin 1) (0 : Fin 1))).toInt.toNat 65535
    rw [GatherDims.batchCoord_eq_zero _ _ _ (by decide),
      GatherDims.offCoord_eq_zero _ _ _ (fun h => ((GatherDims.mem_sKept _ _).mp h).1 (List.mem_singleton.mpr rfl))]
    simp only [Nat.add_zero]
    unfold GatherDims.start
    rw [dif_pos (show (1 : Fin 2) ∈ gather_S2048x65536_S2048x1x1_S2048x1_n_1_0_0_1_2_11.startIndexMap from
      List.mem_singleton.mpr rfl)]
    have hsi : gather_S2048x65536_S2048x1x1_S2048x1_n_1_0_0_1_2_11.siIdx (ix2 b (0 : Fin 1))
        ⟨List.idxOf (1 : Fin 2) gather_S2048x65536_S2048x1x1_S2048x1_n_1_0_0_1_2_11.startIndexMap,
          List.idxOf_lt_length_iff.2 (List.mem_singleton.mpr rfl)⟩ = ix3 b (0 : Fin 1) (0 : Fin 1) := by
      funext c; refine Fin.ext ?_
      match c with
      | ⟨0, _⟩ => rfl
      | ⟨1, _⟩ => rfl
      | ⟨2, _⟩ => rfl
    rw [hsi]
    rfl

/-! ### A column index as a signed word

A word below the row length has its sign bit clear: read signed it is its own value, it is not
below zero, and it lies between zero and the last column. -/

/-- A word below `65536` read signed is its unsigned value. -/
private theorem toInt_of_lt (x : BitVec 32) (hx : x.toNat < 65536) : x.toInt = (x.toNat : Int) :=
  BitVec.toInt_eq_toNat_of_lt (by omega)

/-- Such a word is not negative. -/
private theorem cmpi_slt_zero (x : BitVec 32) (hx : x.toNat < 65536) : IntOp.cmpi .slt x 0#32 = 0#1 := by
  have h : x.slt 0#32 = false := by
    rw [BitVec.slt_eq_decide, toInt_of_lt x hx, BitVec.toInt_zero]
    exact decide_eq_false (by omega)
  show BitVec.ofBool (x.slt 0#32) = 0#1
  rw [h]
  rfl

/-- Such a word is at least zero. -/
private theorem cmpi_sge_zero (x : BitVec 32) (hx : x.toNat < 65536) : IntOp.cmpi .sge x 0#32 = 1#1 := by
  have h : (0#32).sle x = true := by
    rw [BitVec.sle_eq_decide, toInt_of_lt x hx, BitVec.toInt_zero]
    exact decide_eq_true (by omega)
  show BitVec.ofBool ((0#32).sle x) = 1#1
  rw [h]
  rfl

/-- Such a word is at most the last column. -/
private theorem cmpi_sle_last (x : BitVec 32) (hx : x.toNat < 65536) : IntOp.cmpi .sle x 65535#32 = 1#1 := by
  have hc : (65535#32).toInt = 65535 := by decide
  have h : x.sle 65535#32 = true := by
    rw [BitVec.sle_eq_decide, toInt_of_lt x hx, hc]
    exact decide_eq_true (by omega)
  show BitVec.ofBool (x.sle 65535#32) = 1#1
  rw [h]
  rfl

/-- The index column as the gather reads it, at a row whose index is a column: the index itself
    (the three-axis view has the same row-major position, and a nonnegative index is not shifted). -/
private theorem wrapIdx_apply (n : IVec S2048x1 32) (b : Fin 2048) (hn : (n (ix2 b (0 : Fin 1))).toNat < 65536) :
    wrapIdx n (ix3 b (0 : Fin 1) (0 : Fin 1)) = n (ix2 b (0 : Fin 1)) := by
  unfold wrapIdx
  rw [shapeCast_apply _ _ (ix3 b (0 : Fin 1) (0 : Fin 1)) (ix2 b (0 : Fin 1)) (by
    rw [Shape.rowMajor_val_two, Shape.rowMajor_val_three]
    show b.val * 1 + 0 = (b.val * 1 + 0) * 1 + 0
    omega)]
  show Scalar.select (IntOp.cmpi .slt (n (ix2 b (0 : Fin 1))) 0#32)
    (IntOp.addi (n (ix2 b (0 : Fin 1))) 65536#32) (n (ix2 b (0 : Fin 1))) = _
  rw [cmpi_slt_zero _ hn, select_zero]

/-- A fold over an axis of extent one is the one element combined with the initial value. -/
private theorem fold_fin_one {β : Type} (op : β → β → β) [Std.Commutative op] [Std.Associative op] (init : β) (f : Fin 1 → β) :
    (Finset.univ : Finset (Fin 1)).fold op init f = op (f 0) init := by
  rw [show (Finset.univ : Finset (Fin 1)) = {0} by decide, Finset.fold_singleton]

/-- A row whose index is a column of the row is inside the row: the reduction over the unit axis
    is the one element and the initial `1`, and both comparisons hold. -/
private theorem inRow_apply (i3 : IVec S2048x1x1 32) (b : Fin 2048)
    (h : (i3 (ix3 b (0 : Fin 1) (0 : Fin 1))).toNat < 65536) :
    inRow i3 (ix2 b (0 : Fin 1)) = 1#1 := by
  have hR : S2048x1x1.Reduces [2] S2048x1 := by decide
  have hl : hR.lift (ix2 b (0 : Fin 1)) (0 : Fin 1) = ix3 b (0 : Fin 1) (0 : Fin 1) := by
    funext c
    refine Fin.ext ?_
    match c with
    | ⟨0, _⟩ => rfl
    | ⟨1, _⟩ => rfl
    | ⟨2, _⟩ => rfl
  unfold inRow
  rw [Host.reduce_eq_fold_single IntOp.andi _ _ reducesTo_S2048x1x1_S2048x1_d2 hR h_S_ (ix2 b (0 : Fin 1))]
  refine (fold_fin_one IntOp.andi _ _).trans ?_
  show IntOp.andi (IntOp.andi (IntOp.cmpi .sge (i3 (hR.lift (ix2 b (0 : Fin 1)) (0 : Fin 1))) 0#32)
    (IntOp.cmpi .sle (i3 (hR.lift (ix2 b (0 : Fin 1)) (0 : Fin 1))) 65535#32)) 1#1 = 1#1
  rw [hl, cmpi_sge_zero _ h, cmpi_sle_last _ h]
  rfl

/-- `take_along_axis` at a row whose index is a column of the row: the entry there. -/
theorem takeAlong_apply (P : S2048x65536.Idx → EReal) (n : IVec S2048x1 32) (b : Fin 2048)
    (hn : (n (ix2 b (0 : Fin 1))).toNat < 65536) :
    takeAlong (F := Ideal) P n (ix2 b (0 : Fin 1)) = P (ix2 b ⟨(n (ix2 b (0 : Fin 1))).toNat, hn⟩) := by
  have hw := wrapIdx_apply n b hn
  have hI := toInt_of_lt _ hn
  show Scalar.select (inRow (wrapIdx n) (ix2 b (0 : Fin 1)))
    (Host.gather gather_S2048x65536_S2048x1x1_S2048x1_n_1_0_0_1_2_11 P (wrapIdx n) (ix2 b (0 : Fin 1))) _ = _
  rw [inRow_apply _ b (by rw [hw]; exact hn), select_one, gather_apply]
  -- the clamped signed index is the index: nonnegative and below the row length
  congr 1
  funext a
  match a with
  | ⟨0, _⟩ => rfl
  | ⟨1, _⟩ =>
    refine Fin.ext ?_
    show min (wrapIdx n (ix3 b (0 : Fin 1) (0 : Fin 1))).toInt.toNat 65535 = (n (ix2 b (0 : Fin 1))).toNat
    rw [hw, hI]
    omega

/-- The turn bits at a row, for the mask of level `s`. -/
theorem turnArr_apply (C : IVec S2048 32) (s : ℕ) (b : Fin 2048) :
    turnArr (levelMask s) C (ix1 b) = turn (C (ix1 b)) s := by
  -- the two splats read their constants, and the comparison is entrywise
  rfl

/-- The likelihood step at a row whose node is a column of the row. -/
theorem stepProb_apply (s : ℕ) (prob : S2048.Idx → EReal) (P : S2048x65536.Idx → EReal) (n C : IVec S2048 32) (b : Fin 2048)
    (hn : (n (ix1 b)).toNat < 65536) :
    stepProb (F := Ideal) (levelMask s) prob P n C (ix1 b)
      = prob (ix1 b) * factor' (turn (C (ix1 b)) s) (P (ix2 b ⟨(n (ix1 b)).toNat, hn⟩)) := by
  -- the column view of the nodes reads the node of the row
  have hb : broadcastInDim S2048x1 ![0] bcast_S2048_S2048x1_0 n (ix2 b (0 : Fin 1)) = n (ix1 b) :=
    broadcastInDim_apply _ _ n (ix2 b (0 : Fin 1)) (ix1 b) (fun a => match a with | ⟨0, _⟩ => rfl)
  have hn' : (broadcastInDim S2048x1 ![0] bcast_S2048_S2048x1_0 n (ix2 b (0 : Fin 1))).toNat < 65536 := by
    rw [hb]; exact hn
  -- the gathered column, viewed as a vector, at the row: the entry of `P` at the row's node
  have hT : shapeCast S2048 (takeAlong (F := Ideal) P (broadcastInDim S2048x1 ![0] bcast_S2048_S2048x1_0 n))
      shapeCasts_S2048x1_S2048 (ix1 b) = P (ix2 b ⟨(n (ix1 b)).toNat, hn⟩) := by
    rw [shapeCast_apply _ _ (ix1 b) (ix2 b (0 : Fin 1)) (by
      rw [Shape.rowMajor_val_two, Shape.rowMajor_val_one]
      show b.val * 1 + 0 = b.val
      omega)]
    rw [takeAlong_apply P _ b hn']
    congr 1
    funext a
    match a with
    | ⟨0, _⟩ => rfl
    | ⟨1, _⟩ => exact Fin.ext (congrArg BitVec.toNat hb)
  unfold stepProb factor'
  rw [mulf_apply, select_apply, subf_apply, hT, turnArr_apply]
  rw [show broadcastInDim S2048 ![] bcast_S_S2048 (constant (F := Ideal) S_ .f32 0x3F800000#32) (ix1 b) = 1 from ofBits_one]

/-- The node step at a row is the walk's step. -/
theorem stepNode_apply (s : ℕ) (n C : IVec S2048 32) (b : Fin 2048) (hn : n (ix1 b) = node (C (ix1 b)) s) :
    stepNode (levelMask s) (BitVec.ofNat 32 (2 ^ s)) n C (ix1 b) = node (C (ix1 b)) (s + 1) := by
  show IntOp.addi (IntOp.addi (n (ix1 b)) (BitVec.ofNat 32 (2 ^ s))) ((turnArr (levelMask s) C (ix1 b)).setWidth 32) = _
  rw [hn, turnArr_apply]
  rfl

end Cert.ReferenceIdeal.Level

end
-- ==== Proof.RWalk.lean ====
import proofs.«424695_j76373108457493_3_alg».proof.Proof.RDefs
import proofs.«424695_j76373108457493_3_alg».proof.Proof.Loss

/-!
# The walk's values down to a level

What the reference program's buffers hold once the levels above `s` have run: the logistic array of the scores, the
class words and the scores untouched, and at every row the node of level `s` and the likelihood of the path above it.
-/

noncomputable section

namespace Cert.ReferenceIdeal.Level

open Cert.ReferenceIdeal Cert.Hsm
open Idealize.ShloMosaic Idealize.ShloMosaic.ValueIdx

variable [Cert.ReferenceIdeal.Facts]

/-- The walk's values down to level `s`, for scores `X` and class words `C`: `P` the logistic array, `A1` the class
    words, `A0` the scores, `n` the nodes and `q` the likelihoods found in the buffers. -/
structure Walk (P : S2048x65536.Idx → EReal) (A1 : S2048.Idx → BitVec 32) (A0 : S2048x65536.Idx → EReal)
    (n : S2048.Idx → BitVec 32) (q : S2048.Idx → EReal)
    (X : S2048x65536.Idx → EReal) (C : S2048.Idx → BitVec 32) (s : ℕ) : Prop where
  sig : P = sigArr (F := Ideal) X
  cls : A1 = C
  scores : A0 = X
  node : ∀ b : Fin 2048, n (ix1 b) = Cert.Hsm.node (C (ix1 b)) s
  prob : ∀ b : Fin 2048, q (ix1 b) = pathProb (rowOf X b) (C (ix1 b)) s

end Cert.ReferenceIdeal.Level

end
-- ==== Proof.RLevel0.lean ====
import proofs.«424695_j76373108457493_3_alg».proof.Proof.ROps
import proofs.«424695_j76373108457493_3_alg».proof.Proof.RDefs
import proofs.«424695_j76373108457493_3_alg».proof.Proof.RWalk

/-!
# Level 0 of the walk, read off its forty operations

Run from any contents of the buffers, the level's operations leave the likelihood buffer at the level's step of the
likelihood found, and the node buffer at the level's step of the nodes found; a buffer that is not the result of
one of the forty operations keeps its contents: so do the logistic array, the class words and the scores. Hence a
valuation that holds the walk's values down to this level holds them, after the level, down to the next.
-/

noncomputable section

namespace Cert.ReferenceIdeal.RLvl

open Cert.ReferenceIdeal Cert.ReferenceIdeal.Gen Cert.ReferenceIdeal.ROps Cert.ReferenceIdeal.Level Cert.Hsm
open Idealize.ShloMosaic Idealize.ShloMosaic.TcCoe Idealize.SL.Sem Idealize.ShloMosaic.StableHlo Idealize.ShloMosaic.ValueIdx

variable {F : FTy → Type} [FloatOps F]

/-- The number of this level. -/
abbrev here0 : ℕ := 0

/-- The buffers the level writes: one per operation. -/
abbrev writes0 : List (Ref sig .tc) :=
  [main_c_2, main_v8, main_v9, main_c_3, main_v10, main_v11, main_v12, main_call0_c, main_call0_v0, main_call0_v1, main_call0_c_0, main_call0_v2, main_call0_v3, main_call0_v4, main_call0_v5, main_call0_c_1, main_call0_c_2, main_call0_v6, main_call0_v7, main_call0_v8, main_call0_v9, main_call0_v10, main_call0_v11, main_call0_c_3, main_call0_v12, main_call0_v13, main_call0_cst, main_call0_v14, main_v13, main_v14, main_cst_4, main_v15, main_v16, main_v17, main_v18, main_c_5, main_v19, main_v20, main_v21, main_v22]

set_option maxHeartbeats 4000000 in
/-- Every operation of the level writes one of them. -/
theorem writes0_sub : (opsLevel0 (F := F)).Forall fun op => op.writes ⊆ ((writes0).map (Proc.devRef (τ := τ) .tc)).toFinset := by
  simp only [List.Forall, nullary_writes, unary_writes, binary_writes, ternary_writes, reshape_writes,
    TRef.nullary, TRef.unary, TRef.binary, TRef.ternary, TRef.reshape, Finset.singleton_subset_iff, List.mem_toFinset, List.mem_map]
  repeat' apply And.intro
  all_goals exact ⟨_, by simp only [writes0, List.mem_cons, List.mem_nil_iff, or_false, true_or, or_true], rfl⟩

/-- A buffer the level does not write keeps its contents. -/
theorem level0_keeps (W : Valuation τ sig (Elt F)) {r : Ref sig .tc} (hr : r ∉ writes0) :
    after (opsLevel0 (F := F)) W (Proc.devRef .tc r) = W (Proc.devRef .tc r) :=
  after_of_writes_sub _ W writes0_sub hr

set_option maxHeartbeats 4000000 in
/-- The likelihood after the level. -/
theorem level0_prob (W : Valuation τ sig (Elt F)) :
    after (opsLevel0 (F := F)) W (Proc.devRef .tc main_v18)
      = stepProb (F := F) 32768#32 (W (Proc.devRef .tc main_v7)) (W (Proc.devRef .tc main_v5)) (W (Proc.devRef .tc main_v6)) (W (Proc.devRef .tc main_arg1)) := by
  after_results_simp
  rfl

set_option maxHeartbeats 4000000 in
/-- The nodes after the level. -/
theorem level0_node (W : Valuation τ sig (Elt F)) :
    after (opsLevel0 (F := F)) W (Proc.devRef .tc main_v22)
      = stepNode 32768#32 1#32 (W (Proc.devRef .tc main_v6)) (W (Proc.devRef .tc main_arg1)) := by
  after_results_simp
  rfl

/-- One level of the walk: the values down to this level become the values down to the next. -/
theorem level0_step (W : Valuation τ sig (Elt Ideal)) (X : S2048x65536.Idx → EReal) (C : S2048.Idx → BitVec 32)
    (h : Walk (W (Proc.devRef .tc main_v5)) (W (Proc.devRef .tc main_arg1)) (W (Proc.devRef .tc main_arg0))
      (W (Proc.devRef .tc main_v6)) (W (Proc.devRef .tc main_v7)) X C here0) :
    Walk (after (opsLevel0 (F := Ideal)) W (Proc.devRef .tc main_v5)) (after (opsLevel0 (F := Ideal)) W (Proc.devRef .tc main_arg1))
      (after (opsLevel0 (F := Ideal)) W (Proc.devRef .tc main_arg0))
      (after (opsLevel0 (F := Ideal)) W (Proc.devRef .tc main_v22)) (after (opsLevel0 (F := Ideal)) W (Proc.devRef .tc main_v18)) X C (here0 + 1) := by
  have hlt : ∀ b : Fin 2048, ((W (Proc.devRef .tc main_v6) : S2048.Idx → BitVec 32) (ix1 b)).toNat < 65536 := fun b => by
    rw [h.node b]; exact lt_trans (node_lt _ here0 (by norm_num)) (by norm_num)
  refine ⟨?_, ?_, ?_, fun b => ?_, fun b => ?_⟩
  · rw [level0_keeps W (by decide)]; exact h.sig
  · rw [level0_keeps W (by decide)]; exact h.cls
  · rw [level0_keeps W (by decide)]; exact h.scores
  · rw [level0_node, h.cls]
    exact stepNode_apply here0 _ C b (h.node b)
  · rw [level0_prob, h.sig, h.cls]
    refine (stepProb_apply here0 _ _ _ C b (hlt b)).trans ?_
    rw [h.prob b, sigArr_apply]
    show _ = pathProb (rowOf X b) (C (ix1 b)) here0 * factor (turn (C (ix1 b)) here0) (rowOf X b (node (C (ix1 b)) here0).toNat)
    have hcol : rowOf X b (node (C (ix1 b)) here0).toNat
        = X (ix2 b ⟨((W (Proc.devRef .tc main_v6) : S2048.Idx → BitVec 32) (ix1 b)).toNat, hlt b⟩) := by
      unfold rowOf
      have h' := hlt b
      rw [h.node b] at h'
      rw [dif_pos h']
      congr 2
      exact Fin.ext (congrArg BitVec.toNat (h.node b)).symm
    rw [hcol]
    rfl

end Cert.ReferenceIdeal.RLvl

end
-- ==== Proof.RValue.lean ====
import proofs.«424695_j76373108457493_3_alg».proof.Proof.RRun
import proofs.«424695_j76373108457493_3_alg».proof.Proof.RLevel0
import proofs.«424695_j76373108457493_3_alg».proof.Proof.RLevel1
import proofs.«424695_j76373108457493_3_alg».proof.Proof.RLevel2
import proofs.«424695_j76373108457493_3_alg».proof.Proof.RLevel3
import proofs.«424695_j76373108457493_3_alg».proof.Proof.RLevel4
import proofs.«424695_j76373108457493_3_alg».proof.Proof.RLevel5
import proofs.«424695_j76373108457493_3_alg».proof.Proof.RLevel6
import proofs.«424695_j76373108457493_3_alg».proof.Proof.RLevel7
import proofs.«424695_j76373108457493_3_alg».proof.Proof.RLevel8
import proofs.«424695_j76373108457493_3_alg».proof.Proof.RLevel9
import proofs.«424695_j76373108457493_3_alg».proof.Proof.RLevel10
import proofs.«424695_j76373108457493_3_alg».proof.Proof.RLevel11
import proofs.«424695_j76373108457493_3_alg».proof.Proof.RLevel12
import proofs.«424695_j76373108457493_3_alg».proof.Proof.RLevel13
import proofs.«424695_j76373108457493_3_alg».proof.Proof.RLevel14
import proofs.«424695_j76373108457493_3_alg».proof.Proof.RLevel15
import proofs.«424695_j76373108457493_3_alg».proof.Proof.RWalk
import proofs.«424695_j76373108457493_3_alg».proof.Proof.Loss
import Idealize.ShloMosaic.Lib.Pipeline.Frame
import Idealize.ShloMosaic.Lib.StableHlo.RunLoop
import Idealize.ShloMosaic.PureOps.Ideal.Laws

/-!
# The reference program's result

After the opening operations the buffers hold the walk's values down to level 0: the logistic array of the scores,
the node 0 and the likelihood 1 at every row. Each level carries them one level down, so after the sixteenth the
likelihood buffer holds, at every row, the likelihood of the whole path. The closing operations take minus its
logarithm, sum over the rows and divide by the row count; on finite scores minus the logarithm of the path's
likelihood is the sum form of the row's loss, so the result is the batch's loss.
-/

noncomputable section

namespace Cert.ReferenceIdeal.RVal

open Cert.ReferenceIdeal Cert.ReferenceIdeal.Gen Cert.ReferenceIdeal.ROps Cert.ReferenceIdeal.RRun Cert.ReferenceIdeal.RLvl
open Cert.ReferenceIdeal.Level Cert.Hsm
open Idealize.ShloMosaic Idealize.ShloMosaic.TcCoe Idealize.SL.Sem Idealize.ShloMosaic.StableHlo Idealize.ShloMosaic.ValueIdx

variable (m : (ℓ : Loc nD τ sig) → Buf (Elt Ideal) ℓ) (ρ : Dev nD → PrngReg)

/-- The scores as launched, on core `d`. -/
abbrev X (d : Dev nD) : S2048x65536.Idx → EReal := m ((d.tc : Thread nD τ).loc main_arg0)
/-- The class words as launched, on core `d`. -/
abbrev C (d : Dev nD) : S2048.Idx → BitVec 32 := m ((d.tc : Thread nD τ).loc main_arg1)

/-- The buffers after the opening operations. -/
def W0 (d : Dev nD) : Valuation τ sig (Elt Ideal) := after (opsHead (F := Ideal)) (launchContents m d)
/-- The buffers after level 0. -/
def W1 (d : Dev nD) : Valuation τ sig (Elt Ideal) := after (opsLevel0 (F := Ideal)) (W0 m d)
/-- The buffers after level 1. -/
def W2 (d : Dev nD) : Valuation τ sig (Elt Ideal) := after (opsLevel1 (F := Ideal)) (W1 m d)
/-- The buffers after level 2. -/
def W3 (d : Dev nD) : Valuation τ sig (Elt Ideal) := after (opsLevel2 (F := Ideal)) (W2 m d)
/-- The buffers after level 3. -/
def W4 (d : Dev nD) : Valuation τ sig (Elt Ideal) := after (opsLevel3 (F := Ideal)) (W3 m d)
/-- The buffers after level 4. -/
def W5 (d : Dev nD) : Valuation τ sig (Elt Ideal) := after (opsLevel4 (F := Ideal)) (W4 m d)
/-- The buffers after level 5. -/
def W6 (d : Dev nD) : Valuation τ sig (Elt Ideal) := after (opsLevel5 (F := Ideal)) (W5 m d)
/-- The buffers after level 6. -/
def W7 (d : Dev nD) : Valuation τ sig (Elt Ideal) := after (opsLevel6 (F := Ideal)) (W6 m d)
/-- The buffers after level 7. -/
def W8 (d : Dev nD) : Valuation τ sig (Elt Ideal) := after (opsLevel7 (F := Ideal)) (W7 m d)
/-- The buffers after level 8. -/
def W9 (d : Dev nD) : Valuation τ sig (Elt Ideal) := after (opsLevel8 (F := Ideal)) (W8 m d)
/-- The buffers after level 9. -/
def W10 (d : Dev nD) : Valuation τ sig (Elt Ideal) := after (opsLevel9 (F := Ideal)) (W9 m d)
/-- The buffers after level 10. -/
def W11 (d : Dev nD) : Valuation τ sig (Elt Ideal) := after (opsLevel10 (F := Ideal)) (W10 m d)
/-- The buffers after level 11. -/
def W12 (d : Dev nD) : Valuation τ sig (Elt Ideal) := after (opsLevel11 (F := Ideal)) (W11 m d)
/-- The buffers after level 12. -/
def W13 (d : Dev nD) : Valuation τ sig (Elt Ideal) := after (opsLevel12 (F := Ideal)) (W12 m d)
/-- The buffers after level 13. -/
def W14 (d : Dev nD) : Valuation τ sig (Elt Ideal) := after (opsLevel13 (F := Ideal)) (W13 m d)
/-- The buffers after level 14. -/
def W15 (d : Dev nD) : Valuation τ sig (Elt Ideal) := after (opsLevel14 (F := Ideal)) (W14 m d)
/-- The buffers after level 15. -/
def W16 (d : Dev nD) : Valuation τ sig (Elt Ideal) := after (opsLevel15 (F := Ideal)) (W15 m d)

/-- The float word of one is `1`. -/
theorem ofBits_one : Ideal.ofBits .f32 0x3F800000#32 = (1 : EReal) := by
  simp [Ideal.ofBits, Ideal.ieee, -EReal.coe_mul]
  norm_num

set_option maxHeartbeats 4000000 in
/-- After the opening operations the buffers hold the walk's values down to level 0. -/
theorem walk0 (d : Dev nD) :
    Walk (W0 m d (Proc.devRef .tc main_v5)) (W0 m d (Proc.devRef .tc main_arg1)) (W0 m d (Proc.devRef .tc main_arg0))
      (W0 m d (Proc.devRef .tc main_v6)) (W0 m d (Proc.devRef .tc main_v7)) (X m d) (C m d) 0 := by
  refine ⟨?_, ?_, ?_, fun b => ?_, fun b => ?_⟩
  · show after (opsHead (F := Ideal)) (launchContents m d) (Proc.devRef .tc main_v5) = _
    after_results_simp
    rfl
  · show after (opsHead (F := Ideal)) (launchContents m d) (Proc.devRef .tc main_arg1) = _
    after_results_simp
  · show after (opsHead (F := Ideal)) (launchContents m d) (Proc.devRef .tc main_arg0) = _
    after_results_simp
  · show (after (opsHead (F := Ideal)) (launchContents m d) (Proc.devRef .tc main_v6) : S2048.Idx → BitVec 32) (ix1 b) = _
    after_results_simp
    rfl
  · show (after (opsHead (F := Ideal)) (launchContents m d) (Proc.devRef .tc main_v7) : S2048.Idx → EReal) (ix1 b) = _
    after_results_simp
    exact ofBits_one

theorem walk1 (d : Dev nD) :
    Walk (W1 m d (Proc.devRef .tc main_v5)) (W1 m d (Proc.devRef .tc main_arg1)) (W1 m d (Proc.devRef .tc main_arg0))
      (W1 m d (Proc.devRef .tc main_v22)) (W1 m d (Proc.devRef .tc main_v18)) (X m d) (C m d) 1 :=
  level0_step (W0 m d) (X m d) (C m d) (walk0 m d)
theorem walk2 (d : Dev nD) :
    Walk (W2 m d (Proc.devRef .tc main_v5)) (W2 m d (Proc.devRef .tc main_arg1)) (W2 m d (Proc.devRef .tc main_arg0))
      (W2 m d (Proc.devRef .tc main_v37)) (W2 m d (Proc.devRef .tc main_v33)) (X m d) (C m d) 2 :=
  level1_step (W1 m d) (X m d) (C m d) (walk1 m d)
theorem walk3 (d : Dev nD) :
    Walk (W3 m d (Proc.devRef .tc main_v5)) (W3 m d (Proc.devRef .tc main_arg1)) (W3 m d (Proc.devRef .tc main_arg0))
      (W3 m d (Proc.devRef .tc main_v52)) (W3 m d (Proc.devRef .tc main_v48)) (X m d) (C m d) 3 :=
  level2_step (W2 m d) (X m d) (C m d) (walk2 m d)
theorem walk4 (d : Dev nD) :
    Walk (W4 m d (Proc.devRef .tc main_v5)) (W4 m d (Proc.devRef .tc main_arg1)) (W4 m d (Proc.devRef .tc main_arg0))
      (W4 m d (Proc.devRef .tc main_v67)) (W4 m d (Proc.devRef .tc main_v63)) (X m d) (C m d) 4 :=
  level3_step (W3 m d) (X m d) (C m d) (walk3 m d)
theorem walk5 (d : Dev nD) :
    Walk (W5 m d (Proc.devRef .tc main_v5)) (W5 m d (Proc.devRef .tc main_arg1)) (W5 m d (Proc.devRef .tc main_arg0))
      (W5 m d (Proc.devRef .tc main_v82)) (W5 m d (Proc.devRef .tc main_v78)) (X m d) (C m d) 5 :=
  level4_step (W4 m d) (X m d) (C m d) (walk4 m d)
theorem walk6 (d : Dev nD) :
    Walk (W6 m d (Proc.devRef .tc main_v5)) (W6 m d (Proc.devRef .tc main_arg1)) (W6 m d (Proc.devRef .tc main_arg0))
      (W6 m d (Proc.devRef .tc main_v97)) (W6 m d (Proc.devRef .tc main_v93)) (X m d) (C m d) 6 :=
  level5_step (W5 m d) (X m d) (C m d) (walk5 m d)
theorem walk7 (d : Dev nD) :
    Walk (W7 m d (Proc.devRef .tc main_v5)) (W7 m d (Proc.devRef .tc main_arg1)) (W7 m d (Proc.devRef .tc main_arg0))
      (W7 m d (Proc.devRef .tc main_v112)) (W7 m d (Proc.devRef .tc main_v108)) (X m d) (C m d) 7 :=
  level6_step (W6 m d) (X m d) (C m d) (walk6 m d)
theorem walk8 (d : Dev nD) :
    Walk (W8 m d (Proc.devRef .tc main_v5)) (W8 m d (Proc.devRef .tc main_arg1)) (W8 m d (Proc.devRef .tc main_arg0))
      (W8 m d (Proc.devRef .tc main_v127)) (W8 m d (Proc.devRef .tc main_v123)) (X m d) (C m d) 8 :=
  level7_step (W7 m d) (X m d) (C m d) (walk7 m d)
theorem walk9 (d : Dev nD) :
    Walk (W9 m d (Proc.devRef .tc main_v5)) (W9 m d (Proc.devRef .tc main_arg1)) (W9 m d (Proc.devRef .tc main_arg0))
      (W9 m d (Proc.devRef .tc main_v142)) (W9 m d (Proc.devRef .tc main_v138)) (X m d) (C m d) 9 :=
  level8_step (W8 m d) (X m d) (C m d) (walk8 m d)
theorem walk10 (d : Dev nD) :
    Walk (W10 m d (Proc.devRef .tc main_v5)) (W10 m d (Proc.devRef .tc main_arg1)) (W10 m d (Proc.devRef .tc main_arg0))
      (W10 m d (Proc.devRef .tc main_v157)) (W10 m d (Proc.devRef .tc main_v153)) (X m d) (C m d) 10 :=
  level9_step (W9 m d) (X m d) (C m d) (walk9 m d)
theorem walk11 (d : Dev nD) :
    Walk (W11 m d (Proc.devRef .tc main_v5)) (W11 m d (Proc.devRef .tc main_arg1)) (W11 m d (Proc.devRef .tc main_arg0))
      (W11 m d (Proc.devRef .tc main_v172)) (W11 m d (Proc.devRef .tc main_v168)) (X m d) (C m d) 11 :=
  level10_step (W10 m d) (X m d) (C m d) (walk10 m d)
theorem walk12 (d : Dev nD) :
    Walk (W12 m d (Proc.devRef .tc main_v5)) (W12 m d (Proc.devRef .tc main_arg1)) (W12 m d (Proc.devRef .tc main_arg0))
      (W12 m d (Proc.devRef .tc main_v187)) (W12 m d (Proc.devRef .tc main_v183)) (X m d) (C m d) 12 :=
  level11_step (W11 m d) (X m d) (C m d) (walk11 m d)
theorem walk13 (d : Dev nD) :
    Walk (W13 m d (Proc.devRef .tc main_v5)) (W13 m d (Proc.devRef .tc main_arg1)) (W13 m d (Proc.devRef .tc main_arg0))
      (W13 m d (Proc.devRef .tc main_v202)) (W13 m d (Proc.devRef .tc main_v198)) (X m d) (C m d) 13 :=
  level12_step (W12 m d) (X m d) (C m d) (walk12 m d)
theorem walk14 (d : Dev nD) :
    Walk (W14 m d (Proc.devRef .tc main_v5)) (W14 m d (Proc.devRef .tc main_arg1)) (W14 m d (Proc.devRef .tc main_arg0))
      (W14 m d (Proc.devRef .tc main_v217)) (W14 m d (Proc.devRef .tc main_v213)) (X m d) (C m d) 14 :=
  level13_step (W13 m d) (X m d) (C m d) (walk13 m d)
theorem walk15 (d : Dev nD) :
    Walk (W15 m d (Proc.devRef .tc main_v5)) (W15 m d (Proc.devRef .tc main_arg1)) (W15 m d (Proc.devRef .tc main_arg0))
      (W15 m d (Proc.devRef .tc main_v232)) (W15 m d (Proc.devRef .tc main_v228)) (X m d) (C m d) 15 :=
  level14_step (W14 m d) (X m d) (C m d) (walk14 m d)
theorem walk16 (d : Dev nD) :
    Walk (W16 m d (Proc.devRef .tc main_v5)) (W16 m d (Proc.devRef .tc main_arg1)) (W16 m d (Proc.devRef .tc main_arg0))
      (W16 m d (Proc.devRef .tc main_v247)) (W16 m d (Proc.devRef .tc main_v243)) (X m d) (C m d) 16 :=
  level15_step (W15 m d) (X m d) (C m d) (walk15 m d)

/-- The fold over the whole program is the closing operations run on the buffers after the sixteenth level. -/
theorem after_allOps (d : Dev nD) (b : DevRef τ sig) :
    after (allOps (F := Ideal)) (launchContents m d) b = after (opsTail (F := Ideal)) (W16 m d) b := by
  unfold allOps
  rw [StableHlo.after_append, StableHlo.after_append, ← afterL_eq_after_flatten]
  rfl

/-- A sum over the indices of a vector of 2048 entries is the sum over its positions. -/
theorem sum_rows (f : S2048.Idx → EReal) : ∑ i : S2048.Idx, f i = ∑ b : Fin 2048, f (ix1 b) :=
  (Fintype.sum_equiv ⟨fun b : Fin 2048 => (ix1 b : S2048.Idx), fun i => i 0, fun _ => rfl, fun i => (eq_ix1 i).symm⟩ _ _ fun _ => rfl).symm

set_option maxHeartbeats 4000000 in
/-- On finite scores the closing operations leave the batch's loss in the result. -/
theorem result_eq (d : Dev nD) (hfin : ∀ i : S2048x65536.Idx, ∃ r : ℝ, X m d i = (r : EReal)) :
    (after (opsTail (F := Ideal)) (W16 m d) (Proc.devRef .tc main_v251) : S_.Idx → EReal)
      = fun _ => loss (X m d) (C m d) := by
  after_results_simp
  funext j
  unfold loss
  show Ideal.div (Ideal.hostReduceAdd reducesTo_S2048_S_d0
      (fun i => -(Ideal.log ((W16 m d (Proc.devRef .tc main_v243) : S2048.Idx → EReal) i))) (Ideal.ofBits .f32 0x00000000#32) j)
      (Ideal.ofBits .f32 0x45000000#32) = _
  rw [Ideal.hostReduceAdd_total reducesTo_S2048_S_d0 (fun b => b.elim0), Ideal.ofBits_zero_f32, sum_rows]
  congr 2
  refine Finset.sum_congr rfl fun b _ => ?_
  rw [(walk16 m d).prob b]
  show rowNegLog (rowOf (X m d) b) (C m d (ix1 b)) = rowLoss (X m d) (C m d) b
  unfold rowLoss
  refine rowNegLog_eq_rowSoftplus _ _ fun j hj => ?_
  unfold rowOf
  rw [dif_pos (lt_trans hj (by norm_num))]
  exact hfin _

/-- The closing operations write neither argument. -/
theorem tail_keeps_arg0 (d : Dev nD) :
    after (opsTail (F := Ideal)) (W16 m d) (Proc.devRef .tc main_arg0) = X m d := by
  after_results_simp
  exact (walk16 m d).scores
theorem tail_keeps_arg1 (d : Dev nD) :
    after (opsTail (F := Ideal)) (W16 m d) (Proc.devRef .tc main_arg1) = C m d := by
  after_results_simp
  exact (walk16 m d).cls

/-- The reference program runs and leaves its arguments unchanged. -/
theorem frame : θ_run defs (onTc (τ := τ) (main (F := Ideal))) ⟨m, fun _ => 0, ρ⟩ fun r => ∀ d : Dev nD,
      r.2.mem ((d.tc : Thread nD τ).loc main_arg0) = m ((d.tc : Thread nD τ).loc main_arg0)
      ∧ r.2.mem ((d.tc : Thread nD τ).loc main_arg1) = m ((d.tc : Thread nD τ).loc main_arg1) :=
  (θ_run defs _ _).mono (fun _ h d =>
    ⟨(h d main_arg0).trans ((after_allOps m d _).trans (tail_keeps_arg0 m d)),
     (h d main_arg1).trans ((after_allOps m d _).trans (tail_keeps_arg1 m d))⟩)
    (RRun.run (F := Ideal) m ρ)

/-- On finite scores the reference program runs, ends with the batch's loss in its result, and leaves its
    arguments unchanged. -/
theorem run (hfin : ∀ (d : Dev nD) (i : S2048x65536.Idx), ∃ r : ℝ, X m d i = (r : EReal)) :
    θ_run defs (onTc (τ := τ) (main (F := Ideal))) ⟨m, fun _ => 0, ρ⟩ fun r => ∀ d : Dev nD,
      r.2.mem ((d.tc : Thread nD τ).loc main_v251) = (fun _ => loss (X m d) (C m d) : S_.Idx → EReal)
      ∧ r.2.mem ((d.tc : Thread nD τ).loc main_arg0) = m ((d.tc : Thread nD τ).loc main_arg0)
      ∧ r.2.mem ((d.tc : Thread nD τ).loc main_arg1) = m ((d.tc : Thread nD τ).loc main_arg1) :=
  (θ_run defs _ _).mono (fun _ h d =>
    ⟨(h d main_v251).trans ((after_allOps m d _).trans (result_eq m d (hfin d))),
     (h d main_arg0).trans ((after_allOps m d _).trans (tail_keeps_arg0 m d)),
     (h d main_arg1).trans ((after_allOps m d _).trans (tail_keeps_arg1 m d))⟩)
    (RRun.run (F := Ideal) m ρ)

end Cert.ReferenceIdeal.RVal

end
-- ==== Proof.Finite.lean ====
import proofs.«424695_j76373108457493_3_alg».proof.Defs
import Idealize.ShloMosaic.Lib.ReduceAll
import Idealize.ShloMosaic.Lib.ValueIdx
import Idealize.ShloMosaic.PureOps.Ideal.Laws

/-!
# Every score is a real number

The precondition says that the absolute value of every score is below `+∞`. Read at one index, it says the
score is neither infinity of the extended reals: it is a real number.
-/

noncomputable section

namespace Cert.KernelIdeal.Finite

open Cert.KernelIdeal
open Idealize.ShloMosaic Idealize.ShloMosaic.TcCoe Idealize.SL.Sem

variable [Cert.Pre_finite_inputs.Facts]

/-- An extended real whose absolute value `max x (-x)` compares strictly below `+∞` is a real number:
    at `⊥` and at `⊤` the absolute value is `⊤` itself, which is not below `⊤`. -/
theorem real_of_abs_lt_top (x : EReal) (hx : Ideal.cmp .olt (max x (-x)) (⊤ : EReal) = 1#1) :
    ∃ r : ℝ, x = (r : EReal) := by
  -- the comparison's bit is 1 exactly when the strict inequality holds
  have hlt : max x (-x) < (⊤ : EReal) := by
    by_contra hn
    simp [Ideal.cmp, hn] at hx
  induction x using EReal.rec with
  | bot => simp at hlt
  | coe r => exact ⟨r, rfl⟩
  | top => simp at hlt

/-- Under the precondition, on every core, every score as launched is a real number. -/
theorem real_of_pre (m : (ℓ : Loc nD τ sig) → Buf (Elt Ideal) ℓ) (h : Cert.Pre_KernelIdeal m) (c : Dev nD)
    (i : S2048x65536.Idx) :
    ∃ r : ℝ, (m ((c.tc : Thread nD τ).loc main_arg0) : S2048x65536.Idx → EReal) i = (r : EReal) := by
  -- the precondition on core `c`, read at the one index of its rank-0 result
  have h1 := congrFun (h c) ValueIdx.ix0
  dsimp only [Cert.Pre_finite_inputs.fn] at h1
  -- a conjunction over all indices that is 1 has a 1 at every index, so at `i`
  haveI : Subsingleton Cert.Pre_finite_inputs.S_.Idx := ⟨fun a b => funext fun d => d.elim0⟩
  have h2 := Host.reduce_andi_all _ _ _ _ _ h1 i
  -- the word `0x7F800000` denotes `+∞`
  have htop : Ideal.ofBits .f32 0x7F800000#32 = (⊤ : EReal) := by simp [Ideal.ofBits, Ideal.ieee]
  -- at `i` the compared pair is `max x (-x)` (the absolute value of the score) and the broadcast constant `+∞`
  refine real_of_abs_lt_top _ ?_
  rw [← htop]
  exact h2

end Cert.KernelIdeal.Finite

end
-- ==== Proof.lean ====
import proofs.«424695_j76373108457493_3_alg».proof.Defs
import proofs.«424695_j76373108457493_3_alg».proof.Proof.Gen.Kernel
import proofs.«424695_j76373108457493_3_alg».proof.Proof.Gen.KernelIdeal
import proofs.«424695_j76373108457493_3_alg».proof.Proof.Gen.ReferenceIdeal
import proofs.«424695_j76373108457493_3_alg».proof.Proof.Gen.Pre_finite_inputs
import proofs.«424695_j76373108457493_3_alg».proof.Proof.KFrame
import proofs.«424695_j76373108457493_3_alg».proof.Proof.KFrameBits
import proofs.«424695_j76373108457493_3_alg».proof.Proof.KValue
import proofs.«424695_j76373108457493_3_alg».proof.Proof.RValue
import proofs.«424695_j76373108457493_3_alg».proof.Proof.Finite
import Idealize.ShloMosaic.Adequacy
import Idealize.ShloMosaic.Init

/-!
# The kernel computes the hierarchical-softmax loss the reference computes

The reference walks, for every row, sixteen levels of a binary tree stored flat in the row of scores, multiplies
`σ(x)` or `1 - σ(x)` of the score at each node into the likelihood of the path, and returns the mean of minus the
logarithm. The kernel never forms the likelihood: it reads the score at each node out of a 256-column window that
holds the whole level, and sums `softplus(∓x)` over the levels. Every node of level `s` lies in
`[2^s - 1, 2^s - 1 + s]`, which is why a window holds a level and why no index leaves its row; and on finite scores
`-log σ(x) = softplus(-x)`, `1 - σ(x) = σ(-x)` and the logarithm of a product of positive reals is the sum of the
logarithms, which is why the two results are the same extended real.

Both programs are run to the end (the kernel program through its one region by the library's launch theorem, the
reference through its host operations level by level); each leaves its arguments unchanged; the idealized kernel
is the kernel's own text read over the extended reals.
-/

noncomputable section

namespace Cert.Proof

open Idealize.ShloMosaic Idealize.SL.Sem

/-- The kernel program runs and leaves its arguments unchanged. -/
theorem frame_k : Cert.frame_Kernel := fun m ρ _ => Cert.Kernel.Frm.frame (F := Bits) m ρ

/-- So does its reading over the extended reals. -/
theorem frame_ki : Cert.frame_KernelIdeal := fun m ρ _ => Cert.KernelIdeal.Frm.frame (F := Ideal) m ρ

/-- So does the reference. -/
theorem frame_ri : Cert.frame_ReferenceIdeal := fun m ρ _ => Cert.ReferenceIdeal.RVal.frame m ρ

/-- The idealization rewrote nothing. -/
theorem preserves : Cert.preserves_Kernel_KernelIdeal := trivial

/-- From memories that agree on the arguments, with finite scores, both programs end with the batch's loss. -/
theorem algebraic : Cert.algebraic_KernelIdeal_ReferenceIdeal := by
  intro m ρ m' ρ' hpre hagree
  refine ⟨fun c => Cert.KernelIdeal.KVal.result m c, Cert.KernelIdeal.KVal.run m ρ, ?_⟩
  have hfin : ∀ (d : Dev Cert.ReferenceIdeal.nD) (i : Cert.ReferenceIdeal.S2048x65536.Idx),
      ∃ r : ℝ, Cert.ReferenceIdeal.RVal.X m' d i = (r : EReal) := fun d i => by
    show ∃ r : ℝ, m' ((d.tc : Thread Cert.ReferenceIdeal.nD Cert.ReferenceIdeal.τ).loc Cert.ReferenceIdeal.main_arg0) i = (r : EReal)
    rw [(hagree d).1]
    exact Cert.KernelIdeal.Finite.real_of_pre m hpre d i
  refine (θ_run Cert.ReferenceIdeal.defs _ _).mono (fun _ h c => ⟨(h c).1.trans ?_, (h c).2⟩)
    (Cert.ReferenceIdeal.RVal.run m' ρ' hfin)
  show (fun _ => Cert.Hsm.loss (m' ((c.tc : Thread Cert.ReferenceIdeal.nD Cert.ReferenceIdeal.τ).loc Cert.ReferenceIdeal.main_arg0))
      (m' ((c.tc : Thread Cert.ReferenceIdeal.nD Cert.ReferenceIdeal.τ).loc Cert.ReferenceIdeal.main_arg1))) = _
  rw [(hagree c).1, (hagree c).2]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
